-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x256 : Shape := ⟨2, ![30000, 256]⟩
abbrev S30000x1 : Shape := ⟨2, ![30000, 1]⟩
abbrev S480000x128 : Shape := ⟨2, ![480000, 128]⟩
abbrev S480000x1 : Shape := ⟨2, ![480000, 1]⟩
abbrev S256x256 : Shape := ⟨2, ![256, 256]⟩
abbrev S256 : Shape := ⟨1, ![256]⟩
abbrev S128x128 : Shape := ⟨2, ![128, 128]⟩
abbrev S128 : Shape := ⟨1, ![128]⟩
abbrev S640x512 : Shape := ⟨2, ![640, 512]⟩
abbrev S512 : Shape := ⟨1, ![512]⟩
abbrev S480000 : Shape := ⟨1, ![480000]⟩
abbrev S_ : Shape := ⟨0, ![]⟩

class Facts : Prop where
  bcast_S_S30000x256 : S_.BroadcastsInDim S30000x256 (![] : Fin 0 → Fin S30000x256.rank)
  reducesTo_S30000x256_S_d0_1 : S30000x256.ReducesTo [0, 1] S_
  h_S_ : 0 < S_.numel
  bcast_S_S30000x1 : S_.BroadcastsInDim S30000x1 (![] : Fin 0 → Fin S30000x1.rank)
  reducesTo_S30000x1_S_d0_1 : S30000x1.ReducesTo [0, 1] S_
  bcast_S_S480000x128 : S_.BroadcastsInDim S480000x128 (![] : Fin 0 → Fin S480000x128.rank)
  reducesTo_S480000x128_S_d0_1 : S480000x128.ReducesTo [0, 1] S_
  bcast_S_S480000x1 : S_.BroadcastsInDim S480000x1 (![] : Fin 0 → Fin S480000x1.rank)
  reducesTo_S480000x1_S_d0_1 : S480000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640x512 : S_.BroadcastsInDim S640x512 (![] : Fin 0 → Fin S640x512.rank)
  reducesTo_S640x512_S_d0_1 : S640x512.ReducesTo [0, 1] S_
  bcast_S_S512 : S_.BroadcastsInDim S512 (![] : Fin 0 → Fin S512.rank)
  reducesTo_S512_S_d0 : S512.ReducesTo [0] S_
  bcast_S_S480000 : S_.BroadcastsInDim S480000 (![] : Fin 0 → Fin S480000.rank)
  reducesTo_S480000_S_d0 : S480000.ReducesTo [0] S_

variable [Facts]

def fn_part3 {F : FTy → Type} [FloatOps F] (main_arg10 : IVec S480000 32) (main_arg11 : IVec S480000 32) (main_v48 : IVec S_ 1) (main_v50 : IVec S480000 1) : IVec S_ 1 :=
  let main_c_19 : IVec S_ 32 := constantI S_ 32 30000#32
  let main_v51 : IVec S480000 32 := broadcastInDim S480000 ![] bcast_S_S480000 main_c_19
  let main_v52 : IVec S480000 1 := cmpi .slt main_arg10 main_v51
  let main_v53 : IVec S480000 1 := andi main_v50 main_v52
  let main_c_20 : IVec S_ 1 := constantI S_ 1 1#1
  let main_v54 : IVec S_ 1 := (fun x v => Host.reduce IntOp.andi x v reducesTo_S480000_S_d0 h_S_) main_v53 main_c_20
  let main_v55 : IVec S_ 1 := andi main_v48 main_v54
  let main_c_21 : IVec S_ 32 := constantI S_ 32 0#32
  let main_v56 : IVec S480000 32 := broadcastInDim S480000 ![] bcast_S_S480000 main_c_21
  let main_v57 : IVec S480000 1 := cmpi .sge main_arg11 main_v56
  let main_c_22 : IVec S_ 32 := constantI S_ 32 30000#32
  let main_v58 : IVec S480000 32 := broadcastInDim S480000 ![] bcast_S_S480000 main_c_22
  let main_v59 : IVec S480000 1 := cmpi .slt main_arg11 main_v58
  let main_v60 : IVec S480000 1 := andi main_v57 main_v59
  let main_c_23 : IVec S_ 1 := constantI S_ 1 1#1
  let main_v61 : IVec S_ 1 := (fun x v => Host.reduce IntOp.andi x v reducesTo_S480000_S_d0 h_S_) main_v60 main_c_23
  let main_v62 : IVec S_ 1 := andi main_v55 main_v61
  main_v62

def fn_part2 {F : FTy → Type} [FloatOps F] (main_arg7 : FVec F S128 .f32) (main_arg8 : FVec F S640x512 .f32) (main_arg9 : FVec F S512 .f32) (main_arg10 : IVec S480000 32) (main_arg11 : IVec S480000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S640x512 .f32 := Host.absf main_arg8
  let main_cst_14 : FVec F S_ .f32 := constant S_ .f32 0x7F800000#32
  let main_v40 : FVec F S640x512 .f32 := broadcastInDim S640x512 ![] bcast_S_S640x512 main_cst_14
  let main_v41 : IVec S640x512 1 := cmpf .olt main_v39 main_v40
  let main_c_15 : IVec S_ 1 := constantI S_ 1 1#1
  let main_v42 : IVec S_ 1 := (fun x v => Host.reduce IntOp.andi x v reducesTo_S640x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_c_18 : IVec S_ 32 := constantI S_ 32 0#32
  let main_v49 : IVec S480000 32 := broadcastInDim S480000 ![] bcast_S_S480000 main_c_18
  let main_v50 : IVec S480000 1 := cmpi .sge main_arg10 main_v49
  fn_part3 (F := F) main_arg10 main_arg11 main_v48 main_v50

def fn_part1 {F : FTy → Type} [FloatOps F] (main_arg4 : FVec F S256x256 .f32) (main_arg5 : FVec F S256 .f32) (main_arg6 : FVec F S128x128 .f32) (main_arg7 : FVec F S128 .f32) (main_arg8 : FVec F S640x512 .f32) (main_arg9 : FVec F S512 .f32) (main_arg10 : IVec S480000 32) (main_arg11 : IVec S480000 32) (main_v13 : IVec S_ 1) (main_v16 : IVec S480000x1 1) : IVec S_ 1 :=
  let main_c_5 : IVec S_ 1 := constantI S_ 1 1#1
  let main_v17 : IVec S_ 1 := (fun x v => Host.reduce IntOp.andi x v reducesTo_S480000x1_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S30000x256 .f32) (main_arg1 : FVec F S30000x1 .f32) (main_arg2 : FVec F S480000x128 .f32) (main_arg3 : FVec F S480000x1 .f32) (main_arg4 : FVec F S256x256 .f32) (main_arg5 : FVec F S256 .f32) (main_arg6 : FVec F S128x128 .f32) (main_arg7 : FVec F S128 .f32) (main_arg8 : FVec F S640x512 .f32) (main_arg9 : FVec F S512 .f32) (main_arg10 : IVec S480000 32) (main_arg11 : IVec S480000 32) : IVec S_ 1 :=
  let main_v0 : FVec F S30000x256 .f32 := Host.absf main_arg0
  let main_cst : FVec F S_ .f32 := constant S_ .f32 0x7F800000#32
  let main_v1 : FVec F S30000x256 .f32 := broadcastInDim S30000x256 ![] bcast_S_S30000x256 main_cst
  let main_v2 : IVec S30000x256 1 := cmpf .olt main_v0 main_v1
  let main_c : IVec S_ 1 := constantI S_ 1 1#1
  let main_v3 : IVec S_ 1 := (fun x v => Host.reduce IntOp.andi x v reducesTo_S30000x256_S_d0_1 h_S_) main_v2 main_c
  let main_v4 : FVec F S30000x1 .f32 := Host.absf main_arg1
  let main_cst_0 : FVec F S_ .f32 := constant S_ .f32 0x7F800000#32
  let main_v5 : FVec F S30000x1 .f32 := broadcastInDim S30000x1 ![] bcast_S_S30000x1 main_cst_0
  let main_v6 : IVec S30000x1 1 := cmpf .olt main_v4 main_v5
  let main_c_1 : IVec S_ 1 := constantI S_ 1 1#1
  let main_v7 : IVec S_ 1 := (fun x v => Host.reduce IntOp.andi x v reducesTo_S30000x1_S_d0_1 h_S_) main_v6 main_c_1
  let main_v8 : IVec S_ 1 := andi main_v3 main_v7
  let main_v9 : FVec F S480000x128 .f32 := Host.absf main_arg2
  let main_cst_2 : FVec F S_ .f32 := constant S_ .f32 0x7F800000#32
  let main_v10 : FVec F S480000x128 .f32 := broadcastInDim S480000x128 ![] bcast_S_S480000x128 main_cst_2
  let main_v11 : IVec S480000x128 1 := cmpf .olt main_v9 main_v10
  let main_c_3 : IVec S_ 1 := constantI S_ 1 1#1
  let main_v12 : IVec S_ 1 := (fun x v => Host.reduce IntOp.andi x v reducesTo_S480000x128_S_d0_1 h_S_) main_v11 main_c_3
  let main_v13 : IVec S_ 1 := andi main_v8 main_v12
  let main_v14 : FVec F S480000x1 .f32 := Host.absf main_arg3
  let main_cst_4 : FVec F S_ .f32 := constant S_ .f32 0x7F800000#32
  let main_v15 : FVec F S480000x1 .f32 := broadcastInDim S480000x1 ![] bcast_S_S480000x1 main_cst_4
  let main_v16 : IVec S480000x1 1 := cmpf .olt main_v14 main_v15
  fn_part1 (F := F) main_arg4 main_arg5 main_arg6 main_arg7 main_arg8 main_arg9 main_arg10 main_arg11 main_v13 main_v16
-- ==== Kernel.lean ====
abbrev S30000x256 : Shape := ⟨2, ![30000, 256]⟩
abbrev S30000x1 : Shape := ⟨2, ![30000, 1]⟩
abbrev S480000x128 : Shape := ⟨2, ![480000, 128]⟩
abbrev S480000x1 : Shape := ⟨2, ![480000, 1]⟩
abbrev S256x256 : Shape := ⟨2, ![256, 256]⟩
abbrev S256 : Shape := ⟨1, ![256]⟩
abbrev S128x128 : Shape := ⟨2, ![128, 128]⟩
abbrev S128 : Shape := ⟨1, ![128]⟩
abbrev S640x512 : Shape := ⟨2, ![640, 512]⟩
abbrev S512 : Shape := ⟨1, ![512]⟩
abbrev S480000 : Shape := ⟨1, ![480000]⟩
abbrev S1x256 : Shape := ⟨2, ![1, 256]⟩
abbrev S2000x256 : Shape := ⟨2, ![2000, 256]⟩
abbrev S1x128 : Shape := ⟨2, ![1, 128]⟩
abbrev S16000x128 : Shape := ⟨2, ![16000, 128]⟩
abbrev S16000x1 : Shape := ⟨2, ![16000, 1]⟩
abbrev S_ : Shape := ⟨0, ![]⟩
abbrev S1 : Shape := ⟨1, ![1]⟩
abbrev S1x1 : Shape := ⟨2, ![1, 1]⟩
abbrev S480000x256 : Shape := ⟨2, ![480000, 256]⟩
abbrev S30000x128 : Shape := ⟨2, ![30000, 128]⟩
abbrev S256x512 : Shape := ⟨2, ![256, 512]⟩
abbrev S128x512 : Shape := ⟨2, ![128, 512]⟩
abbrev S1x512 : Shape := ⟨2, ![1, 512]⟩
abbrev S30000x512 : Shape := ⟨2, ![30000, 512]⟩
abbrev S2000x128 : Shape := ⟨2, ![2000, 128]⟩
abbrev S2000x512 : Shape := ⟨2, ![2000, 512]⟩

abbrev nBuf : Space → Nat
  | .hbm => 126
  | .vmem => 26
  | .smem => 0
  | _ => 0

abbrev bufTy : (tb : Table) → Fin (tcTables nBuf tb) → BufTy
  | .hbm, ⟨0, _⟩ => ⟨S30000x256, .f32⟩
  | .hbm, ⟨1, _⟩ => ⟨S30000x1, .f32⟩
  | .hbm, ⟨2, _⟩ => ⟨S480000x128, .f32⟩
  | .hbm, ⟨3, _⟩ => ⟨S480000x1, .f32⟩
  | .hbm, ⟨4, _⟩ => ⟨S256x256, .f32⟩
  | .hbm, ⟨5, _⟩ => ⟨S256, .f32⟩
  | .hbm, ⟨6, _⟩ => ⟨S128x128, .f32⟩
  | .hbm, ⟨7, _⟩ => ⟨S128, .f32⟩
  | .hbm, ⟨8, _⟩ => ⟨S640x512, .f32⟩
  | .hbm, ⟨9, _⟩ => ⟨S512, .f32⟩
  | .hbm, ⟨10, _⟩ => ⟨S480000, .i32⟩
  | .hbm, ⟨11, _⟩ => ⟨S480000, .i32⟩
  | .hbm, ⟨12, _⟩ => ⟨S1x256, .f32⟩
  | .hbm, ⟨13, _⟩ => ⟨S30000x256, .f32⟩
  | .hbm, ⟨14, _⟩ => ⟨S1x128, .f32⟩
  | .hbm, ⟨15, _⟩ => ⟨S480000x128, .f32⟩
  | .hbm, ⟨16, _⟩ => ⟨S_, .i32⟩
  | .hbm, ⟨17, _⟩ => ⟨S480000, .i32⟩
  | .hbm, ⟨18, _⟩ => ⟨S480000, .i1⟩
  | .hbm, ⟨19, _⟩ => ⟨S_, .i32⟩
  | .hbm, ⟨20, _⟩ => ⟨S480000, .i32⟩
  | .hbm, ⟨21, _⟩ => ⟨S480000, .i32⟩
  | .hbm, ⟨22, _⟩ => ⟨S480000, .i32⟩
  | .hbm, ⟨23, _⟩ => ⟨S480000x1, .i32⟩
  | .hbm, ⟨24, _⟩ => ⟨S1, .i32⟩
  | .hbm, ⟨25, _⟩ => ⟨S_, .i32⟩
  | .hbm, ⟨26, _⟩ => ⟨S480000x1, .i32⟩
  | .hbm, ⟨27, _⟩ => ⟨S480000x1, .i1⟩
  | .hbm, ⟨28, _⟩ => ⟨S1x1, .i32⟩
  | .hbm, ⟨29, _⟩ => ⟨S480000x1, .i32⟩
  | .hbm, ⟨30, _⟩ => ⟨S480000x1, .i1⟩
  | .hbm, ⟨31, _⟩ => ⟨S480000x1, .i1⟩
  | .hbm, ⟨32, _⟩ => ⟨S_, .i1⟩
  | .hbm, ⟨33, _⟩ => ⟨S480000, .i1⟩
  | .hbm, ⟨34, _⟩ => ⟨S480000x256, .f32⟩
  | .hbm, ⟨35, _⟩ => ⟨S480000x256, .i1⟩
  | .hbm, ⟨36, _⟩ => ⟨S_, .f32⟩
  | .hbm, ⟨37, _⟩ => ⟨S480000x256, .f32⟩
  | .hbm, ⟨38, _⟩ => ⟨S480000x256, .f32⟩
  | .hbm, ⟨39, _⟩ => ⟨S_, .i32⟩
  | .hbm, ⟨40, _⟩ => ⟨S480000, .i32⟩
  | .hbm, ⟨41, _⟩ => ⟨S480000, .i1⟩
  | .hbm, ⟨42, _⟩ => ⟨S_, .i32⟩
  | .hbm, ⟨43, _⟩ => ⟨S480000, .i32⟩
  | .hbm, ⟨44, _⟩ => ⟨S480000, .i32⟩
  | .hbm, ⟨45, _⟩ => ⟨S480000, .i32⟩
  | .hbm, ⟨46, _⟩ => ⟨S480000x1, .i32⟩
  | .hbm, ⟨47, _⟩ => ⟨S1, .i32⟩
  | .hbm, ⟨48, _⟩ => ⟨S_, .i32⟩
  | .hbm, ⟨49, _⟩ => ⟨S480000x1, .i32⟩
  | .hbm, ⟨50, _⟩ => ⟨S480000x1, .i1⟩
  | .hbm, ⟨51, _⟩ => ⟨S1x1, .i32⟩
  | .hbm, ⟨52, _⟩ => ⟨S480000x1, .i32⟩
  | .hbm, ⟨53, _⟩ => ⟨S480000x1, .i1⟩
  | .hbm, ⟨54, _⟩ => ⟨S480000x1, .i1⟩
  | .hbm, ⟨55, _⟩ => ⟨S_, .i1⟩
  | .hbm, ⟨56, _⟩ => ⟨S480000, .i1⟩
  | .hbm, ⟨57, _⟩ => ⟨S480000x256, .f32⟩
  | .hbm, ⟨58, _⟩ => ⟨S480000x256, .i1⟩
  | .hbm, ⟨59, _⟩ => ⟨S_, .f32⟩
  | .hbm, ⟨60, _⟩ => ⟨S480000x256, .f32⟩
  | .hbm, ⟨61, _⟩ => ⟨S480000x256, .f32⟩
  | .hbm, ⟨62, _⟩ => ⟨S_, .i32⟩
  | .hbm, ⟨63, _⟩ => ⟨S480000, .i32⟩
  | .hbm, ⟨64, _⟩ => ⟨S480000, .i1⟩
  | .hbm, ⟨65, _⟩ => ⟨S_, .i32⟩
  | .hbm, ⟨66, _⟩ => ⟨S480000, .i32⟩
  | .hbm, ⟨67, _⟩ => ⟨S480000, .i32⟩
  | .hbm, ⟨68, _⟩ => ⟨S480000, .i32⟩
  | .hbm, ⟨69, _⟩ => ⟨S480000x1, .i32⟩
  | .hbm, ⟨70, _⟩ => ⟨S1, .i32⟩
  | .hbm, ⟨71, _⟩ => ⟨S_, .i32⟩
  | .hbm, ⟨72, _⟩ => ⟨S480000x1, .i32⟩
  | .hbm, ⟨73, _⟩ => ⟨S480000x1, .i1⟩
  | .hbm, ⟨74, _⟩ => ⟨S1x1, .i32⟩
  | .hbm, ⟨75, _⟩ => ⟨S480000x1, .i32⟩
  | .hbm, ⟨76, _⟩ => ⟨S480000x1, .i1⟩
  | .hbm, ⟨77, _⟩ => ⟨S480000x1, .i1⟩
  | .hbm, ⟨78, _⟩ => ⟨S_, .i1⟩
  | .hbm, ⟨79, _⟩ => ⟨S480000, .i1⟩
  | .hbm, ⟨80, _⟩ => ⟨S480000x1, .f32⟩
  | .hbm, ⟨81, _⟩ => ⟨S480000x1, .i1⟩
  | .hbm, ⟨82, _⟩ => ⟨S_, .f32⟩
  | .hbm, ⟨83, _⟩ => ⟨S480000x1, .f32⟩
  | .hbm, ⟨84, _⟩ => ⟨S480000x1, .f32⟩
  | .hbm, ⟨85, _⟩ => ⟨S_, .i32⟩
  | .hbm, ⟨86, _⟩ => ⟨S480000, .i32⟩
  | .hbm, ⟨87, _⟩ => ⟨S480000, .i1⟩
  | .hbm, ⟨88, _⟩ => ⟨S_, .i32⟩
  | .hbm, ⟨89, _⟩ => ⟨S480000, .i32⟩
  | .hbm, ⟨90, _⟩ => ⟨S480000, .i32⟩
  | .hbm, ⟨91, _⟩ => ⟨S480000, .i32⟩
  | .hbm, ⟨92, _⟩ => ⟨S480000x1, .i32⟩
  | .hbm, ⟨93, _⟩ => ⟨S1, .i32⟩
  | .hbm, ⟨94, _⟩ => ⟨S_, .i32⟩
  | .hbm, ⟨95, _⟩ => ⟨S480000x1, .i32⟩
  | .hbm, ⟨96, _⟩ => ⟨S480000x1, .i1⟩
  | .hbm, ⟨97, _⟩ => ⟨S1x1, .i32⟩
  | .hbm, ⟨98, _⟩ => ⟨S480000x1, .i32⟩
  | .hbm, ⟨99, _⟩ => ⟨S480000x1, .i1⟩
  | .hbm, ⟨100, _⟩ => ⟨S480000x1, .i1⟩
  | .hbm, ⟨101, _⟩ => ⟨S_, .i1⟩
  | .hbm, ⟨102, _⟩ => ⟨S480000, .i1⟩
  | .hbm, ⟨103, _⟩ => ⟨S480000x1, .f32⟩
  | .hbm, ⟨104, _⟩ => ⟨S480000x1, .i1⟩
  | .hbm, ⟨105, _⟩ => ⟨S_, .f32⟩
  | .hbm, ⟨106, _⟩ => ⟨S480000x1, .f32⟩
  | .hbm, ⟨107, _⟩ => ⟨S480000x1, .f32⟩
  | .hbm, ⟨108, _⟩ => ⟨S480000x256, .f32⟩
  | .hbm, ⟨109, _⟩ => ⟨S480000x256, .f32⟩
  | .hbm, ⟨110, _⟩ => ⟨S480000x256, .f32⟩
  | .hbm, ⟨111, _⟩ => ⟨S480000x256, .f32⟩
  | .hbm, ⟨112, _⟩ => ⟨S480000x256, .f32⟩
  | .hbm, ⟨113, _⟩ => ⟨S_, .f32⟩
  | .hbm, ⟨114, _⟩ => ⟨S30000x256, .f32⟩
  | .hbm, ⟨115, _⟩ => ⟨S480000x1, .i32⟩
  | .hbm, ⟨116, _⟩ => ⟨S30000x256, .f32⟩
  | .hbm, ⟨117, _⟩ => ⟨S_, .f32⟩
  | .hbm, ⟨118, _⟩ => ⟨S30000x128, .f32⟩
  | .hbm, ⟨119, _⟩ => ⟨S480000x1, .i32⟩
  | .hbm, ⟨120, _⟩ => ⟨S30000x128, .f32⟩
  | .hbm, ⟨121, _⟩ => ⟨S256x512, .f32⟩
  | .hbm, ⟨122, _⟩ => ⟨S256x512, .f32⟩
  | .hbm, ⟨123, _⟩ => ⟨S128x512, .f32⟩
  | .hbm, ⟨124, _⟩ => ⟨S1x512, .f32⟩
  | .hbm, ⟨125, _⟩ => ⟨S30000x512, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S16000x128, .f32⟩
  | .local _ .vmem, ⟨7, _⟩ => ⟨S16000x128, .f32⟩
  | .local _ .vmem, ⟨8, _⟩ => ⟨S128x128, .f32⟩
  | .local _ .vmem, ⟨9, _⟩ => ⟨S1x128, .f32⟩
  | .local _ .vmem, ⟨10, _⟩ => ⟨S16000x1, .f32⟩
  | .local _ .vmem, ⟨11, _⟩ => ⟨S16000x1, .f32⟩
  | .local _ .vmem, ⟨12, _⟩ => ⟨S16000x128, .f32⟩
  | .local _ .vmem, ⟨13, _⟩ => ⟨S16000x128, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x128, .f32⟩
  | .local _ .vmem, ⟨19, _⟩ => ⟨S2000x128, .f32⟩
  | .local _ .vmem, ⟨20, _⟩ => ⟨S256x512, .f32⟩
  | .local _ .vmem, ⟨21, _⟩ => ⟨S256x512, .f32⟩
  | .local _ .vmem, ⟨22, _⟩ => ⟨S128x512, .f32⟩
  | .local _ .vmem, ⟨23, _⟩ => ⟨S1x512, .f32⟩
  | .local _ .vmem, ⟨24, _⟩ => ⟨S2000x512, .f32⟩
  | .local _ .vmem, ⟨25, _⟩ => ⟨S2000x512, .f32⟩
  | _, _ => ⟨S30000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v6 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_cst : Ref sig .tc := ⟨.hbm, 113, rfl⟩
abbrev main_v13 : Ref sig .tc := ⟨.hbm, 114, rfl⟩
abbrev main_v14 : Ref sig .tc := ⟨.hbm, 115, rfl⟩
abbrev main_v15 : Ref sig .tc := ⟨.hbm, 116, rfl⟩
abbrev main_cst_0 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S128_S1x128 : S128.ShapeCasts S1x128
  inb_S16000x128_S16000x128_0_0 : ∀ a, (![0, 0] : Fin 2 → Nat) a + S16000x128.size a ≤ S16000x128.size a
  h_S16000x128 : 0 < S16000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x1_S16000x1_0_0 : ∀ a, (![0, 0] : Fin 2 → Nat) a + S16000x1.size a ≤ S16000x1.size a
  h_S16000x1 : 0 < S16000x1.numel
  broadcasts_S16000x1_S16000x128 : S16000x1.Broadcasts S16000x128
  bcast_S_S480000 : S_.BroadcastsInDim S480000 (![] : Fin 0 → Fin S480000.rank)
  bcast_S480000_S480000x1_0 : S480000.BroadcastsInDim S480000x1 (![0] : Fin 1 → Fin S480000x1.rank)
  bcast_S_S480000x1 : S_.BroadcastsInDim S480000x1 (![] : Fin 0 → Fin S480000x1.rank)
  bcast_S1_S1x1_1 : S1.BroadcastsInDim S1x1 (![1] : Fin 1 → Fin S1x1.rank)
  bcast_S1x1_S480000x1_0_1 : S1x1.BroadcastsInDim S480000x1 (![0, 1] : Fin 2 → Fin S480000x1.rank)
  reducesTo_S480000x1_S480000_d1 : S480000x1.ReducesTo [1] S480000
  h_S_ : 0 < S_.numel
  bcast_S480000_S480000x256_0 : S480000.BroadcastsInDim S480000x256 (![0] : Fin 1 → Fin S480000x256.rank)
  bcast_S_S480000x256 : S_.BroadcastsInDim S480000x256 (![] : Fin 0 → Fin S480000x256.rank)
  bcast_S480000x1_S480000x256_0_1 : S480000x1.BroadcastsInDim S480000x256 (![0, 1] : Fin 2 → Fin S480000x256.rank)
  bcast_S_S30000x256 : S_.BroadcastsInDim S30000x256 (![] : Fin 0 → Fin S30000x256.rank)
  bcast_S_S30000x128 : S_.BroadcastsInDim S30000x128 (![] : Fin 0 → Fin S30000x128.rank)
  slices_S640x512_S256x512_0_0 : S640x512.Slices ![0, 0] S256x512
  slices_S640x512_S256x512_256_0 : S640x512.Slices ![256, 0] S256x512
  slices_S640x512_S128x512_512_0 : S640x512.Slices ![512, 0] S128x512
  shapeCasts_S512_S1x512 : S512.ShapeCasts S1x512
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  dot_S2000x256_S256x256_S2000x256_1_0_0_1_n_n_wf : DotDims.WF S2000x256 S256x256 S2000x256 [1] [0] [0] [1] [] []
  dot_S16000x128_S128x128_S16000x128_1_0_0_1_n_n_wf : DotDims.WF S16000x128 S128x128 S16000x128 [1] [0] [0] [1] [] []
  gather_S30000x256_S480000x1_S480000x256_1_0_n_n_0_1_1256_wf : GatherDims.WF S30000x256 S480000x1 S480000x256 [1] [0] [] [0] [] 1 ![1, 256]
  gather_S30000x1_S480000x1_S480000x1_1_0_n_n_0_1_11_wf : GatherDims.WF S30000x1 S480000x1 S480000x1 [1] [0] [] [0] [] 1 ![1, 1]
  scatter_S30000x256_S480000x1_S480000x256_1_0_0_1_wf : ScatterDims.WF S30000x256 S480000x1 S480000x256 [1] [0] [0] 1
  scatter_S30000x128_S480000x1_S480000x128_1_0_0_1_wf : ScatterDims.WF S30000x128 S480000x1 S480000x128 [1] [0] [0] 1
  dot_S2000x256_S256x512_S2000x512_1_0_0_1_n_n_wf : DotDims.WF S2000x256 S256x512 S2000x512 [1] [0] [0] [1] [] []
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S30000x256.size a
  hwx0_0 : ∀ i : grid0.Coords, EltTy.bits .f32 = 32 ∨ (Rect.block (s := S30000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S30000x256.size a
  hwx0_3 : ∀ i : grid0.Coords, EltTy.bits .f32 = 32 ∨ (Rect.block (s := S30000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S480000x128.size a
  hwx1_0 : ∀ i : grid1.Coords, EltTy.bits .f32 = 32 ∨ (Rect.block (s := S480000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x1.size a ≤ S480000x1.size a
  hwx1_3 : ∀ i : grid1.Coords, EltTy.bits .f32 = 32 ∨ (Rect.block (s := S480000x1) S16000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16000x128.size a ≤ S480000x128.size a
  hwx1_4 : ∀ i : grid1.Coords, EltTy.bits .f32 = 32 ∨ (Rect.block (s := S480000x128) S16000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S30000x256.size a
  hwx2_0 : ∀ i : grid2.Coords, EltTy.bits .f32 = 32 ∨ (Rect.block (s := S30000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S30000x256.size a
  hwx2_1 : ∀ i : grid2.Coords, EltTy.bits .f32 = 32 ∨ (Rect.block (s := S30000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S30000x128.size a
  hwx2_2 : ∀ i : grid2.Coords, EltTy.bits .f32 = 32 ∨ (Rect.block (s := S30000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .f32 = 32 ∨ (Rect.block (s := S256x512) S256x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x512.size a ≤ S256x512.size a
  hwx2_4 : ∀ i : grid2.Coords, EltTy.bits .f32 = 32 ∨ (Rect.block (s := S256x512) S256x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x512.size a ≤ S128x512.size a
  hwx2_5 : ∀ i : grid2.Coords, EltTy.bits .f32 = 32 ∨ (Rect.block (s := S128x512) S128x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x512.size a ≤ S30000x512.size a
  hwx2_7 : ∀ i : grid2.Coords, EltTy.bits .f32 = 32 ∨ (Rect.block (s := S30000x512) S2000x512.size (cc2_transform_7 i) (hinb2_7 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def gather_S30000x1_S480000x1_S480000x1_1_0_n_n_0_1_11 : GatherDims S30000x1 S480000x1 S480000x1 where
  offsetDims := [1]
  collapsedSliceDims := [0]
  operandBatchingDims := []
  startIndicesBatchingDims := []
  startIndexMap := [0]
  indexVectorDim := 1
  sliceSizes := ![1, 1]
  wf := gather_S30000x1_S480000x1_S480000x1_1_0_n_n_0_1_11_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S16000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S256x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S128x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S2000x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S30000x256 : Shape := ⟨2, ![30000, 256]⟩
abbrev S30000x1 : Shape := ⟨2, ![30000, 1]⟩
abbrev S480000x128 : Shape := ⟨2, ![480000, 128]⟩
abbrev S480000x1 : Shape := ⟨2, ![480000, 1]⟩
abbrev S256x256 : Shape := ⟨2, ![256, 256]⟩
abbrev S256 : Shape := ⟨1, ![256]⟩
abbrev S128x128 : Shape := ⟨2, ![128, 128]⟩
abbrev S128 : Shape := ⟨1, ![128]⟩
abbrev S640x512 : Shape := ⟨2, ![640, 512]⟩
abbrev S512 : Shape := ⟨1, ![512]⟩
abbrev S480000 : Shape := ⟨1, ![480000]⟩
abbrev S1x256 : Shape := ⟨2, ![1, 256]⟩
abbrev S_ : Shape := ⟨0, ![]⟩
abbrev S480000x256 : Shape := ⟨2, ![480000, 256]⟩
abbrev S1x128 : Shape := ⟨2, ![1, 128]⟩
abbrev S480000x384 : Shape := ⟨2, ![480000, 384]⟩
abbrev S30000x384 : Shape := ⟨2, ![30000, 384]⟩
abbrev S30000x640 : Shape := ⟨2, ![30000, 640]⟩
abbrev S30000x512 : Shape := ⟨2, ![30000, 512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S30000x256, .f32⟩
  | .hbm, ⟨1, _⟩ => ⟨S30000x1, .f32⟩
  | .hbm, ⟨2, _⟩ => ⟨S480000x128, .f32⟩
  | .hbm, ⟨3, _⟩ => ⟨S480000x1, .f32⟩
  | .hbm, ⟨4, _⟩ => ⟨S256x256, .f32⟩
  | .hbm, ⟨5, _⟩ => ⟨S256, .f32⟩
  | .hbm, ⟨6, _⟩ => ⟨S128x128, .f32⟩
  | .hbm, ⟨7, _⟩ => ⟨S128, .f32⟩
  | .hbm, ⟨8, _⟩ => ⟨S640x512, .f32⟩
  | .hbm, ⟨9, _⟩ => ⟨S512, .f32⟩
  | .hbm, ⟨10, _⟩ => ⟨S480000, .i32⟩
  | .hbm, ⟨11, _⟩ => ⟨S480000, .i32⟩
  | .hbm, ⟨12, _⟩ => ⟨S30000x256, .f32⟩
  | .hbm, ⟨13, _⟩ => ⟨S1x256, .f32⟩
  | .hbm, ⟨14, _⟩ => ⟨S30000x256, .f32⟩
  | .hbm, ⟨15, _⟩ => ⟨S30000x256, .f32⟩
  | .hbm, ⟨16, _⟩ => ⟨S_, .i32⟩
  | .hbm, ⟨17, _⟩ => ⟨S480000, .i32⟩
  | .hbm, ⟨18, _⟩ => ⟨S480000, .i1⟩
  | .hbm, ⟨19, _⟩ => ⟨S_, .i32⟩
  | .hbm, ⟨20, _⟩ => ⟨S480000, .i32⟩
  | .hbm, ⟨21, _⟩ => ⟨S480000, .i32⟩
  | .hbm, ⟨22, _⟩ => ⟨S480000, .i32⟩
  | .hbm, ⟨23, _⟩ => ⟨S480000x1, .i32⟩
  | .hbm, ⟨24, _⟩ => ⟨S480000x1, .f32⟩
  | .hbm, ⟨25, _⟩ => ⟨S_, .i32⟩
  | .hbm, ⟨26, _⟩ => ⟨S480000, .i32⟩
  | .hbm, ⟨27, _⟩ => ⟨S480000, .i1⟩
  | .hbm, ⟨28, _⟩ => ⟨S_, .i32⟩
  | .hbm, ⟨29, _⟩ => ⟨S480000, .i32⟩
  | .hbm, ⟨30, _⟩ => ⟨S480000, .i32⟩
  | .hbm, ⟨31, _⟩ => ⟨S480000, .i32⟩
  | .hbm, ⟨32, _⟩ => ⟨S480000x1, .i32⟩
  | .hbm, ⟨33, _⟩ => ⟨S480000x256, .f32⟩
  | .hbm, ⟨34, _⟩ => ⟨S480000x256, .f32⟩
  | .hbm, ⟨35, _⟩ => ⟨S480000x256, .f32⟩
  | .hbm, ⟨36, _⟩ => ⟨S_, .i32⟩
  | .hbm, ⟨37, _⟩ => ⟨S480000, .i32⟩
  | .hbm, ⟨38, _⟩ => ⟨S480000, .i1⟩
  | .hbm, ⟨39, _⟩ => ⟨S_, .i32⟩
  | .hbm, ⟨40, _⟩ => ⟨S480000, .i32⟩
  | .hbm, ⟨41, _⟩ => ⟨S480000, .i32⟩
  | .hbm, ⟨42, _⟩ => ⟨S480000, .i32⟩
  | .hbm, ⟨43, _⟩ => ⟨S480000x1, .i32⟩
  | .hbm, ⟨44, _⟩ => ⟨S480000x1, .f32⟩
  | .hbm, ⟨45, _⟩ => ⟨S_, .i32⟩
  | .hbm, ⟨46, _⟩ => ⟨S480000, .i32⟩
  | .hbm, ⟨47, _⟩ => ⟨S480000, .i1⟩
  | .hbm, ⟨48, _⟩ => ⟨S_, .i32⟩
  | .hbm, ⟨49, _⟩ => ⟨S480000, .i32⟩
  | .hbm, ⟨50, _⟩ => ⟨S480000, .i32⟩
  | .hbm, ⟨51, _⟩ => ⟨S480000, .i32⟩
  | .hbm, ⟨52, _⟩ => ⟨S480000x1, .i32⟩
  | .hbm, ⟨53, _⟩ => ⟨S480000x256, .f32⟩
  | .hbm, ⟨54, _⟩ => ⟨S480000x256, .f32⟩
  | .hbm, ⟨55, _⟩ => ⟨S480000x256, .f32⟩
  | .hbm, ⟨56, _⟩ => ⟨S480000x256, .f32⟩
  | .hbm, ⟨57, _⟩ => ⟨S480000x128, .f32⟩
  | .hbm, ⟨58, _⟩ => ⟨S1x128, .f32⟩
  | .hbm, ⟨59, _⟩ => ⟨S480000x128, .f32⟩
  | .hbm, ⟨60, _⟩ => ⟨S480000x128, .f32⟩
  | .hbm, ⟨61, _⟩ => ⟨S480000x128, .f32⟩
  | .hbm, ⟨62, _⟩ => ⟨S480000x128, .f32⟩
  | .hbm, ⟨63, _⟩ => ⟨S480000x384, .f32⟩
  | .hbm, ⟨64, _⟩ => ⟨S_, .f32⟩
  | .hbm, ⟨65, _⟩ => ⟨S30000x384, .f32⟩
  | .hbm, ⟨66, _⟩ => ⟨S480000x1, .i32⟩
  | .hbm, ⟨67, _⟩ => ⟨S30000x384, .f32⟩
  | .hbm, ⟨68, _⟩ => ⟨S30000x640, .f32⟩
  | .hbm, ⟨69, _⟩ => ⟨S30000x512, .f32⟩
  | .hbm, ⟨70, _⟩ => ⟨S1x512, .f32⟩
  | .hbm, ⟨71, _⟩ => ⟨S30000x512, .f32⟩
  | .hbm, ⟨72, _⟩ => ⟨S30000x512, .f32⟩
  | .hbm, ⟨73, _⟩ => ⟨S_, .f32⟩
  | .hbm, ⟨74, _⟩ => ⟨S30000x512, .f32⟩
  | .hbm, ⟨75, _⟩ => ⟨S30000x512, .f32⟩
  | _, _ => ⟨S30000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call0_cst : Ref sig .tc := ⟨.hbm, 73, rfl⟩
abbrev main_call0_v0 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S480000 : S_.BroadcastsInDim S480000 (![] : Fin 0 → Fin S480000.rank)
  bcast_S480000_S480000x1_0 : S480000.BroadcastsInDim S480000x1 (![0] : Fin 1 → Fin S480000x1.rank)
  bcast_S480000x1_S480000x256_0_1 : S480000x1.BroadcastsInDim S480000x256 (![0, 1] : Fin 2 → Fin S480000x256.rank)
  bcast_S128_S1x128_1 : S128.BroadcastsInDim S1x128 (![1] : Fin 1 → Fin S1x128.rank)
  bcast_S1x128_S480000x128_0_1 : S1x128.BroadcastsInDim S480000x128 (![0, 1] : Fin 2 → Fin S480000x128.rank)
  bcast_S480000x1_S480000x128_0_1 : S480000x1.BroadcastsInDim S480000x128 (![0, 1] : Fin 2 → Fin S480000x128.rank)
  concatenates_S480000x256_S480000x128_S480000x384_d1 : Shape.Concatenates [S480000x256, S480000x128] S480000x384 1
  bcast_S_S30000x384 : S_.BroadcastsInDim S30000x384 (![] : Fin 0 → Fin S30000x384.rank)
  concatenates_S30000x256_S30000x384_S30000x640_d1 : Shape.Concatenates [S30000x256, S30000x384] S30000x640 1
  bcast_S512_S1x512_1 : S512.BroadcastsInDim S1x512 (![1] : Fin 1 → Fin S1x512.rank)
  bcast_S1x512_S30000x512_0_1 : S1x512.BroadcastsInDim S30000x512 (![0, 1] : Fin 2 → Fin S30000x512.rank)
  bcast_S_S30000x512 : S_.BroadcastsInDim S30000x512 (![] : Fin 0 → Fin S30000x512.rank)
  dot_S30000x256_S256x256_S30000x256_1_0_0_1_n_n_wf : DotDims.WF S30000x256 S256x256 S30000x256 [1] [0] [0] [1] [] []
  gather_S30000x1_S480000x1_S480000x1_1_0_n_n_0_1_11_wf : GatherDims.WF S30000x1 S480000x1 S480000x1 [1] [0] [] [0] [] 1 ![1, 1]
  gather_S30000x256_S480000x1_S480000x256_1_0_n_n_0_1_1256_wf : GatherDims.WF S30000x256 S480000x1 S480000x256 [1] [0] [] [0] [] 1 ![1, 256]
  dot_S480000x128_S128x128_S480000x128_1_0_0_1_n_n_wf : DotDims.WF S480000x128 S128x128 S480000x128 [1] [0] [0] [1] [] []
  scatter_S30000x384_S480000x1_S480000x384_1_0_0_1_wf : ScatterDims.WF S30000x384 S480000x1 S480000x384 [1] [0] [0] 1
  dot_S30000x640_S640x512_S30000x512_1_0_0_1_n_n_wf : DotDims.WF S30000x640 S640x512 S30000x512 [1] [0] [0] [1] [] []

variable [Facts₀]

def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def gather_S30000x1_S480000x1_S480000x1_1_0_n_n_0_1_11 : GatherDims S30000x1 S480000x1 S480000x1 where
  offsetDims := [1]
  collapsedSliceDims := [0]
  operandBatchingDims := []
  startIndicesBatchingDims := []
  startIndexMap := [0]
  indexVectorDim := 1
  sliceSizes := ![1, 1]
  wf := gather_S30000x1_S480000x1_S480000x1_1_0_n_n_0_1_11_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def dot_S480000x128_S128x128_S480000x128_1_0_0_1_n_n : DotDims S480000x128 S128x128 S480000x128 where
  lhsContracting := [1]
  rhsContracting := [0]
  lhsNonContracting := [0]
  rhsNonContracting := [1]
  lhsBatch := []
  rhsBatch := []
  wf := dot_S480000x128_S128x128_S480000x128_1_0_0_1_n_n_wf
def scatter_S30000x384_S480000x1_S480000x384_1_0_0_1 : ScatterDims S30000x384 S480000x1 S480000x384 where
  updateWindowDims := [1]
  insertedWindowDims := [0]
  scatterDimsToOperandDims := [0]
  indexVectorDim := 1
  wf := scatter_S30000x384_S480000x1_S480000x384_1_0_0_1_wf
def dot_S30000x640_S640x512_S30000x512_1_0_0_1_n_n : DotDims S30000x640 S640x512 S30000x512 where
  lhsContracting := [1]
  rhsContracting := [0]
  lhsNonContracting := [0]
  rhsNonContracting := [1]
  lhsBatch := []
  rhsBatch := []
  wf := dot_S30000x640_S640x512_S30000x512_1_0_0_1_n_n_wf

class Facts : Prop extends Facts₀ where

variable [Facts]
-- ==== Proof.KTerms.lean ====
/-
  The host-side pieces of the kernel's program, each as one named function of whole arrays.

  A row index may be negative (counted from the end): `wrapped` adds the number of rows to a negative index. The kernel's
  row fetch then keeps a fetched row only where the wrapped index lies among the rows (`inRows`) and puts a fixed fill
  word elsewhere (`takeWide`, `takeCol`); `gatherWide` and `gatherCol` are the bare fetches. An edge's node message is
  att[src] * h2[src] + att[dst] * h2[dst] (`nodeMsg`, and `nodeMsgG` over the bare fetches); `segWide` and `segNarrow` add
  every edge's row into the row of its destination node; `waTop`, `waMid`, `waLow` are the three row ranges of the last
  weight matrix; `rowBn`, `rowBr`, `rowBa` read a bias vector as a one-row matrix. `outRows` is the last layer written
  out entry by entry over the extended reals: three row-by-column products, the bias, and the maximum with zero.
-/
import proofs.«421375_j21320217657492_1_alg».proof.KernelIdeal
import Idealize.ShloMosaic.Lib.ValueIdx

noncomputable section

namespace Cert.KernelIdeal.Terms

open Cert.KernelIdeal Idealize.ShloMosaic Idealize.ShloMosaic.ValueIdx

variable {F : FTy → Type} [FloatOps F] [Facts₀]
open Facts₀

/-- A row index, a negative one counted from the end, as a one-column matrix. -/
def wrapped (idx : IVec S480000 32) : IVec S480000x1 32 :=
  broadcastInDim S480000x1 ![0] bcast_S480000_S480000x1_0
    (select (cmpi .slt idx (broadcastInDim S480000 ![] bcast_S_S480000 (constantI S_ 32 0#32)))
      (addi idx (broadcastInDim S480000 ![] bcast_S_S480000 (constantI S_ 32 30000#32))) idx)

/-- Per edge: does the wrapped index lie in 0 … 29999? -/
def inRows (idx : IVec S480000 32) : IVec S480000 1 :=
  Host.reduce IntOp.andi
    (andi (cmpi .sge (wrapped idx) (broadcastInDim S480000x1 ![] bcast_S_S480000x1 (constantI S_ 32 0#32)))
      (cmpi .sle (wrapped idx) (broadcastInDim S480000x1 ![0, 1] bcast_S1x1_S480000x1_0_1
        (broadcastInDim S1x1 ![1] bcast_S1_S1x1_1 (constantI S1 32 29999#32)))))
    (constantI S_ 1 1#1) reducesTo_S480000x1_S480000_d1 h_S_

/-- The bare fetch of 256-wide rows. -/
def gatherWide (x : FVec F S30000x256 .f32) (idx : IVec S480000 32) : FVec F S480000x256 .f32 :=
  Host.gather gather_S30000x256_S480000x1_S480000x256_1_0_n_n_0_1_1256 x (wrapped idx)

/-- The bare fetch of one-wide rows. -/
def gatherCol (x : FVec F S30000x1 .f32) (idx : IVec S480000 32) : FVec F S480000x1 .f32 :=
  Host.gather gather_S30000x1_S480000x1_S480000x1_1_0_n_n_0_1_11 x (wrapped idx)

/-- The kernel's fetch of 256-wide rows: the fetched row where the index lies among the rows, a fill word elsewhere. -/
def takeWide (x : FVec F S30000x256 .f32) (idx : IVec S480000 32) : FVec F S480000x256 .f32 :=
  select (broadcastInDim S480000x256 ![0] bcast_S480000_S480000x256_0 (inRows idx))
    (gatherWide x idx)
    (broadcastInDim S480000x256 ![] bcast_S_S480000x256 (constant S_ .f32 0x7FC00000#32))

/-- The kernel's fetch of one-wide rows. -/
def takeCol (x : FVec F S30000x1 .f32) (idx : IVec S480000 32) : FVec F S480000x1 .f32 :=
  select (broadcastInDim S480000x1 ![0] bcast_S480000_S480000x1_0 (inRows idx))
    (gatherCol x idx)
    (broadcastInDim S480000x1 ![] bcast_S_S480000x1 (constant S_ .f32 0x7FC00000#32))

/-- An edge's node message, over the kernel's fetches. -/
def nodeMsg (h2 : FVec F S30000x256 .f32) (na : FVec F S30000x1 .f32) (src dst : IVec S480000 32) : FVec F S480000x256 .f32 :=
  addf (mulf (broadcastInDim S480000x256 ![0, 1] bcast_S480000x1_S480000x256_0_1 (takeCol na src)) (takeWide h2 src))
    (mulf (broadcastInDim S480000x256 ![0, 1] bcast_S480000x1_S480000x256_0_1 (takeCol na dst)) (takeWide h2 dst))

/-- An edge's node message, over the bare fetches. -/
def nodeMsgG (h2 : FVec F S30000x256 .f32) (na : FVec F S30000x1 .f32) (src dst : IVec S480000 32) : FVec F S480000x256 .f32 :=
  addf (mulf (broadcastInDim S480000x256 ![0, 1] bcast_S480000x1_S480000x256_0_1 (gatherCol na src)) (gatherWide h2 src))
    (mulf (broadcastInDim S480000x256 ![0, 1] bcast_S480000x1_S480000x256_0_1 (gatherCol na dst)) (gatherWide h2 dst))

/-- Every edge's 256-wide row added into its destination node's row, from zero. -/
def segWide (dst : IVec S480000 32) (u : FVec F S480000x256 .f32) : FVec F S30000x256 .f32 :=
  Host.scatterAdd scatter_S30000x256_S480000x1_S480000x256_1_0_0_1
    (broadcastInDim S30000x256 ![] bcast_S_S30000x256 (constant S_ .f32 0x00000000#32))
    (broadcastInDim S480000x1 ![0] bcast_S480000_S480000x1_0 dst) u

/-- Every edge's 128-wide row added into its destination node's row, from zero. -/
def segNarrow (dst : IVec S480000 32) (u : FVec F S480000x128 .f32) : FVec F S30000x128 .f32 :=
  Host.scatterAdd scatter_S30000x128_S480000x1_S480000x128_1_0_0_1
    (broadcastInDim S30000x128 ![] bcast_S_S30000x128 (constant S_ .f32 0x00000000#32))
    (broadcastInDim S480000x1 ![0] bcast_S480000_S480000x1_0 dst) u

/-- Rows 0 … 255 of the last weight matrix. -/
def waTop (Wa : FVec F S640x512 .f32) : FVec F S256x512 .f32 := extractStridedSlice S256x512 ![0, 0] Wa slices_S640x512_S256x512_0_0
/-- Rows 256 … 511 of the last weight matrix. -/
def waMid (Wa : FVec F S640x512 .f32) : FVec F S256x512 .f32 := extractStridedSlice S256x512 ![256, 0] Wa slices_S640x512_S256x512_256_0
/-- Rows 512 … 639 of the last weight matrix. -/
def waLow (Wa : FVec F S640x512 .f32) : FVec F S128x512 .f32 := extractStridedSlice S128x512 ![512, 0] Wa slices_S640x512_S128x512_512_0

/-- A 256-vector as a one-row matrix. -/
def rowBn (b : FVec F S256 .f32) : FVec F S1x256 .f32 := shapeCast S1x256 b shapeCasts_S256_S1x256
/-- A 128-vector as a one-row matrix. -/
def rowBr (b : FVec F S128 .f32) : FVec F S1x128 .f32 := shapeCast S1x128 b shapeCasts_S128_S1x128
/-- A 512-vector as a one-row matrix. -/
def rowBa (b : FVec F S512 .f32) : FVec F S1x512 .f32 := shapeCast S1x512 b shapeCasts_S512_S1x512

/-- The last layer, entry by entry over the extended reals: row i of h2 against column j of the top weights, plus row i of
    the summed node messages against the middle weights, plus row i of the summed edge messages against the low weights,
    plus the bias, and the maximum of that with zero. -/
def outRows (h2 s1 : FVec Ideal S30000x256 .f32) (s2 : FVec Ideal S30000x128 .f32) (w1 w2 : FVec Ideal S256x512 .f32)
    (w3 : FVec Ideal S128x512 .f32) (b2 : FVec Ideal S1x512 .f32) : FVec Ideal S30000x512 .f32 :=
  fun i => max ((((∑ k : Fin 256, h2 (ix2 (i 0) k) * w1 (ix2 k (i 1)))
      + ∑ k : Fin 256, s1 (ix2 (i 0) k) * w2 (ix2 k (i 1)))
      + ∑ k : Fin 128, s2 (ix2 (i 0) k) * w3 (ix2 k (i 1)))
      + b2 (ix2 0 (i 1))) (Ideal.ofBits .f32 0x00000000#32)

end Cert.KernelIdeal.Terms

end
-- ==== Proof.Fold.lean ====
/-
  What each region finds in its input arrays, read back through the program to the arguments.

  The program is: a reshape of the first bias; the node layer's region; a reshape of the second bias; the edge layer's
  region; four row fetches (node features at src and at dst, node attention at src and at dst); the node message, the two
  sums over destination nodes, the three row ranges of the last weights and a reshape of the last bias; the last layer's
  region. No host operation and no region overwrites a buffer that a later step reads, so every input array of a region is a
  named function of the arguments and of the earlier regions' result arrays.
-/
import proofs.«421375_j21320217657492_1_alg».proof.Proof.Gen.KernelIdeal.Frame
import proofs.«421375_j21320217657492_1_alg».proof.Proof.KTerms
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.KernelIdeal.Terms

/-! ## What each stretch of host operations writes, and that it leaves every other buffer alone -/

/-- The buffer the first reshape writes. -/
abbrev wr0 : List (Ref sig .tc) := [main_v0]
/-- The buffer the second reshape writes. -/
abbrev wr1 : List (Ref sig .tc) := [main_v2]
/-- The buffers the fetch of 256-wide rows at src writes. -/
abbrev wr2 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]
/-- The buffers the fetch of 256-wide rows at dst writes. -/
abbrev wr2_1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v5]
/-- The buffers the fetch of one-wide rows at src writes. -/
abbrev wr2_2 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v6]
/-- The buffers the fetch of one-wide rows at dst writes. -/
abbrev wr2_3 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v7]
/-- The buffers the last stretch writes. -/
abbrev wr2_4 : List (Ref sig .tc) :=
  [main_v8, main_v9, main_v10, main_v11, main_v12, main_cst, main_v13, main_v14, main_v15, main_cst_0, main_v16, main_v17,
   main_v18, main_v19, main_v20, main_v21, main_v22]

section Stretch
variable {F : FTy → Type} [FloatOps F] (V : Valuation τ sig (Elt F))

/-- Every operation of a stretch writes one buffer of the stretch's list. -/
local macro "writes_within" ops:ident : tactic => `(tactic| (
  simp only [$ops:ident, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)))

/-- A buffer outside a stretch's list holds after the stretch what it held before it (one statement per stretch). -/
theorem keep0 (b : Ref sig .tc) (hb : b ∉ wr0) :
    StableHlo.after hostOps0 V (Proc.devRef .tc b) = V (Proc.devRef .tc b) :=
  StableHlo.after_of_writes_sub (W := wr0) hostOps0 V (by writes_within hostOps0) hb
theorem keep1 (b : Ref sig .tc) (hb : b ∉ wr1) :
    StableHlo.after hostOps1 V (Proc.devRef .tc b) = V (Proc.devRef .tc b) :=
  StableHlo.after_of_writes_sub (W := wr1) hostOps1 V (by writes_within hostOps1) hb
theorem keep2 (b : Ref sig .tc) (hb : b ∉ wr2) :
    StableHlo.after hostOps2 V (Proc.devRef .tc b) = V (Proc.devRef .tc b) :=
  StableHlo.after_of_writes_sub (W := wr2) hostOps2 V (by writes_within hostOps2) hb
theorem keep2_1 (b : Ref sig .tc) (hb : b ∉ wr2_1) :
    StableHlo.after hostOps2_1 V (Proc.devRef .tc b) = V (Proc.devRef .tc b) :=
  StableHlo.after_of_writes_sub (W := wr2_1) hostOps2_1 V (by writes_within hostOps2_1) hb
theorem keep2_2 (b : Ref sig .tc) (hb : b ∉ wr2_2) :
    StableHlo.after hostOps2_2 V (Proc.devRef .tc b) = V (Proc.devRef .tc b) :=
  StableHlo.after_of_writes_sub (W := wr2_2) hostOps2_2 V (by writes_within hostOps2_2) hb
theorem keep2_3 (b : Ref sig .tc) (hb : b ∉ wr2_3) :
    StableHlo.after hostOps2_3 V (Proc.devRef .tc b) = V (Proc.devRef .tc b) :=
  StableHlo.after_of_writes_sub (W := wr2_3) hostOps2_3 V (by writes_within hostOps2_3) hb
theorem keep2_4 (b : Ref sig .tc) (hb : b ∉ wr2_4) :
    StableHlo.after hostOps2_4 V (Proc.devRef .tc b) = V (Proc.devRef .tc b) :=
  StableHlo.after_of_writes_sub (W := wr2_4) hostOps2_4 V (by writes_within hostOps2_4) hb

/-! ## What each stretch leaves in the buffers the regions read, over the contents it starts from -/

/-- A value stored at its buffer's own type and read back at the value's type is the value. -/
theorem ofBuf_toBuf {T : BufTy} {Val : EltTy → Type} (x : StableHlo.TRef sig T) (v : T.Contents Val) :
    x.ofBuf (x.toBuf v) = v := by
  obtain ⟨r, rfl, _, _⟩ := x; rfl

/-- A reshape leaves the bias vector as a one-row matrix. -/
theorem res0 : StableHlo.after hostOps0 V (Proc.devRef .tc main_v0) = rowBn (V (Proc.devRef .tc main_arg5)) := by
  after_results; rfl
theorem res1 : StableHlo.after hostOps1 V (Proc.devRef .tc main_v2) = rowBr (V (Proc.devRef .tc main_arg7)) := by
  after_results; rfl
/-- The operations of a row fetch compute the fetch of the table they read at the index they read: the wrapped index, the
    test that it lies among the rows, the bare fetch, and the choice between the fetched row and the fill word. -/
theorem res2 : StableHlo.after hostOps2 V (Proc.devRef .tc main_v4)
    = takeWide (V (Proc.devRef .tc main_v1)) (V (Proc.devRef .tc main_arg10)) := by
  after_results_simp
  simp only [ofBuf_toBuf]
  simp only [StableHlo.TRef.ofBuf, StableHlo.TRef.toBuf, cast_eq]
  unfold takeWide gatherWide inRows wrapped
  rfl
theorem res2_1 : StableHlo.after hostOps2_1 V (Proc.devRef .tc main_v5)
    = takeWide (V (Proc.devRef .tc main_v1)) (V (Proc.devRef .tc main_arg11)) := by
  after_results_simp
  simp only [ofBuf_toBuf]
  simp only [StableHlo.TRef.ofBuf, StableHlo.TRef.toBuf, cast_eq]
  unfold takeWide gatherWide inRows wrapped
  rfl
theorem res2_2 : StableHlo.after hostOps2_2 V (Proc.devRef .tc main_v6)
    = takeCol (V (Proc.devRef .tc main_arg1)) (V (Proc.devRef .tc main_arg10)) := by
  after_results_simp
  simp only [ofBuf_toBuf]
  simp only [StableHlo.TRef.ofBuf, StableHlo.TRef.toBuf, cast_eq]
  unfold takeCol gatherCol inRows wrapped
  rfl
theorem res2_3 : StableHlo.after hostOps2_3 V (Proc.devRef .tc main_v7)
    = takeCol (V (Proc.devRef .tc main_arg1)) (V (Proc.devRef .tc main_arg11)) := by
  after_results_simp
  simp only [ofBuf_toBuf]
  simp only [StableHlo.TRef.ofBuf, StableHlo.TRef.toBuf, cast_eq]
  unfold takeCol gatherCol inRows wrapped
  rfl
/-- The first sum over destination nodes, over the four fetched arrays. -/
theorem res2_4_v15 : StableHlo.after hostOps2_4 V (Proc.devRef .tc main_v15)
    = segWide (V (Proc.devRef .tc main_arg11))
        (addf (mulf (broadcastInDim S480000x256 ![0, 1] bcast_S480000x1_S480000x256_0_1 (V (Proc.devRef .tc main_v6))) (V (Proc.devRef .tc main_v4)))
          (mulf (broadcastInDim S480000x256 ![0, 1] bcast_S480000x1_S480000x256_0_1 (V (Proc.devRef .tc main_v7))) (V (Proc.devRef .tc main_v5)))) := by
  after_results; rfl
/-- The second sum over destination nodes, over the edge layer's result array. -/
theorem res2_4_v18 : StableHlo.after hostOps2_4 V (Proc.devRef .tc main_v18)
    = segNarrow (V (Proc.devRef .tc main_arg11)) (V (Proc.devRef .tc main_v3)) := by
  after_results; rfl
/-- The three row ranges of the last weight matrix and the last bias row. -/
theorem res2_4_v19 : StableHlo.after hostOps2_4 V (Proc.devRef .tc main_v19) = waTop (V (Proc.devRef .tc main_arg8)) := by
  after_results; rfl
theorem res2_4_v20 : StableHlo.after hostOps2_4 V (Proc.devRef .tc main_v20) = waMid (V (Proc.devRef .tc main_arg8)) := by
  after_results; rfl
theorem res2_4_v21 : StableHlo.after hostOps2_4 V (Proc.devRef .tc main_v21) = waLow (V (Proc.devRef .tc main_arg8)) := by
  after_results; rfl
theorem res2_4_v22 : StableHlo.after hostOps2_4 V (Proc.devRef .tc main_v22) = rowBa (V (Proc.devRef .tc main_arg9)) := by
  after_results; rfl

end Stretch

variable (m : (ℓ : Loc nD τ sig) → Buf (Elt Ideal) ℓ) (ρ : Dev nD → PrngReg)

/-- The node features after the node layer's region. -/
abbrev H2 (c : Dev nD) : FVec Ideal S30000x256 .f32 := (dat0 (F := Ideal) (V1 m ρ) c).arrAt 3 cfg0.N
/-- The edge messages after the edge layer's region. -/
abbrev Z2 (c : Dev nD) : FVec Ideal S480000x128 .f32 := (dat1 (F := Ideal) (V3 m ρ) c).arrAt 4 cfg1.N

/-! ## Walking a buffer back through the boundaries -/

/-- A buffer that no stretch before the last one writes and that is no array of the first two regions. -/
abbrev Untouched (b : Ref sig .tc) : Prop :=
  b ∉ wr0 ∧ (∀ w, Pipeline.arrRef spec0 w ≠ b) ∧ b ∉ wr1 ∧ (∀ w, Pipeline.arrRef spec1 w ≠ b) ∧ b ∉ wr2 ∧ b ∉ wr2_1 ∧ b ∉ wr2_2
    ∧ b ∉ wr2_3

/-- At the edge layer's entry a buffer neither reshape writes, no array of the node layer's region, is as launched. -/
theorem W3_back (c : Dev nD) (b : Ref sig .tc) (h0 : b ∉ wr0) (hr0 : ∀ w, Pipeline.arrRef spec0 w ≠ b) (h1 : b ∉ wr1) :
    W3 m ρ c (Proc.devRef .tc b) = m ((c : Thread nD τ).loc b) :=
  (keep1 (W2 m ρ c) b h1).trans ((W2_of_ne m ρ c b hr0).trans (keep0 (W0 m ρ c) b h0))

/-- An untouched buffer is as launched at the edge layer's exit and after each of the four row fetches. -/
theorem W4_arg (c : Dev nD) (b : Ref sig .tc) (h : Untouched b) : W4 m ρ c (Proc.devRef .tc b) = m ((c : Thread nD τ).loc b) :=
  (W4_of_ne m ρ c b h.2.2.2.1).trans (W3_back m ρ c b h.1 h.2.1 h.2.2.1)
theorem W5_arg (c : Dev nD) (b : Ref sig .tc) (h : Untouched b) : W5 m ρ c (Proc.devRef .tc b) = m ((c : Thread nD τ).loc b) :=
  (keep2 (W4 m ρ c) b h.2.2.2.2.1).trans (W4_arg m ρ c b h)
theorem W6_arg (c : Dev nD) (b : Ref sig .tc) (h : Untouched b) : W6 m ρ c (Proc.devRef .tc b) = m ((c : Thread nD τ).loc b) :=
  (keep2_1 (W5 m ρ c) b h.2.2.2.2.2.1).trans (W5_arg m ρ c b h)
theorem W7_arg (c : Dev nD) (b : Ref sig .tc) (h : Untouched b) : W7 m ρ c (Proc.devRef .tc b) = m ((c : Thread nD τ).loc b) :=
  (keep2_2 (W6 m ρ c) b h.2.2.2.2.2.2.1).trans (W6_arg m ρ c b h)
theorem W8_arg (c : Dev nD) (b : Ref sig .tc) (h : Untouched b) : W8 m ρ c (Proc.devRef .tc b) = m ((c : Thread nD τ).loc b) :=
  (keep2_3 (W7 m ρ c) b h.2.2.2.2.2.2.2).trans (W7_arg m ρ c b h)

/-- A buffer none of the four row fetches writes holds after them what it held at the edge layer's exit. -/
theorem W8_back (c : Dev nD) (b : Ref sig .tc) (h2 : b ∉ wr2) (h21 : b ∉ wr2_1) (h22 : b ∉ wr2_2) (h23 : b ∉ wr2_3) :
    W8 m ρ c (Proc.devRef .tc b) = W4 m ρ c (Proc.devRef .tc b) :=
  (keep2_3 (W7 m ρ c) b h23).trans ((keep2_2 (W6 m ρ c) b h22).trans ((keep2_1 (W5 m ρ c) b h21).trans (keep2 (W4 m ρ c) b h2)))

/-- The node layer's result array is not written again. -/
theorem W4_v1 (c : Dev nD) : W4 m ρ c (Proc.devRef .tc main_v1) = H2 m ρ c :=
  (W4_of_ne m ρ c main_v1 (by decide)).trans ((keep1 (W2 m ρ c) main_v1 (by decide)).trans (W2_arr m ρ c 3))
theorem W5_v1 (c : Dev nD) : W5 m ρ c (Proc.devRef .tc main_v1) = H2 m ρ c :=
  (keep2 (W4 m ρ c) main_v1 (by decide)).trans (W4_v1 m ρ c)
theorem W8_v1 (c : Dev nD) : W8 m ρ c (Proc.devRef .tc main_v1) = H2 m ρ c :=
  (W8_back m ρ c main_v1 (by decide) (by decide) (by decide) (by decide)).trans (W4_v1 m ρ c)
/-- Nor is the edge layer's. -/
theorem W8_v3 (c : Dev nD) : W8 m ρ c (Proc.devRef .tc main_v3) = Z2 m ρ c :=
  (W8_back m ρ c main_v3 (by decide) (by decide) (by decide) (by decide)).trans (W4_arr m ρ c 4)

/-- The four fetched arrays, before the last stretch. -/
theorem W8_v4 (c : Dev nD) : W8 m ρ c (Proc.devRef .tc main_v4)
    = takeWide (H2 m ρ c) (m ((c : Thread nD τ).loc main_arg10)) := by
  refine (keep2_3 (W7 m ρ c) main_v4 (by decide)).trans ((keep2_2 (W6 m ρ c) main_v4 (by decide)).trans
    ((keep2_1 (W5 m ρ c) main_v4 (by decide)).trans ((res2 (W4 m ρ c)).trans ?_)))
  rw [W4_v1, W4_arg m ρ c main_arg10 (by decide)]
theorem W8_v5 (c : Dev nD) : W8 m ρ c (Proc.devRef .tc main_v5)
    = takeWide (H2 m ρ c) (m ((c : Thread nD τ).loc main_arg11)) := by
  refine (keep2_3 (W7 m ρ c) main_v5 (by decide)).trans ((keep2_2 (W6 m ρ c) main_v5 (by decide)).trans
    ((res2_1 (W5 m ρ c)).trans ?_))
  rw [W5_v1, W5_arg m ρ c main_arg11 (by decide)]
theorem W8_v6 (c : Dev nD) : W8 m ρ c (Proc.devRef .tc main_v6)
    = takeCol (F := Ideal) (m ((c : Thread nD τ).loc main_arg1)) (m ((c : Thread nD τ).loc main_arg10)) := by
  refine (keep2_3 (W7 m ρ c) main_v6 (by decide)).trans ((res2_2 (W6 m ρ c)).trans ?_)
  rw [W6_arg m ρ c main_arg1 (by decide), W6_arg m ρ c main_arg10 (by decide)]
theorem W8_v7 (c : Dev nD) : W8 m ρ c (Proc.devRef .tc main_v7)
    = takeCol (F := Ideal) (m ((c : Thread nD τ).loc main_arg1)) (m ((c : Thread nD τ).loc main_arg11)) := by
  refine (res2_3 (W7 m ρ c)).trans ?_
  rw [W7_arg m ρ c main_arg1 (by decide), W7_arg m ρ c main_arg11 (by decide)]

/-! ## The node layer's region finds h, Wn and the bias row -/
theorem entry0_0 (c : Dev nD) : V1 m ρ c (Pipeline.arrRef spec0 0) = m ((c : Thread nD τ).loc main_arg0) :=
  keep0 (W0 m ρ c) main_arg0 (by decide)
theorem entry0_1 (c : Dev nD) : V1 m ρ c (Pipeline.arrRef spec0 1) = m ((c : Thread nD τ).loc main_arg4) :=
  keep0 (W0 m ρ c) main_arg4 (by decide)
theorem entry0_2 (c : Dev nD) : V1 m ρ c (Pipeline.arrRef spec0 2) = rowBn (F := Ideal) (m ((c : Thread nD τ).loc main_arg5)) :=
  res0 (W0 m ρ c)

/-! ## The edge layer's region finds rel, Wr, the bias row and the edge attention -/
theorem entry1_0 (c : Dev nD) : V3 m ρ c (Pipeline.arrRef spec1 0) = m ((c : Thread nD τ).loc main_arg2) :=
  W3_back m ρ c main_arg2 (by decide) (by decide) (by decide)
theorem entry1_1 (c : Dev nD) : V3 m ρ c (Pipeline.arrRef spec1 1) = m ((c : Thread nD τ).loc main_arg6) :=
  W3_back m ρ c main_arg6 (by decide) (by decide) (by decide)
theorem entry1_2 (c : Dev nD) : V3 m ρ c (Pipeline.arrRef spec1 2) = rowBr (F := Ideal) (m ((c : Thread nD τ).loc main_arg7)) := by
  refine (res1 (W2 m ρ c)).trans ?_
  rw [(W2_of_ne m ρ c main_arg7 (by decide)).trans (keep0 (W0 m ρ c) main_arg7 (by decide))]
theorem entry1_3 (c : Dev nD) : V3 m ρ c (Pipeline.arrRef spec1 3) = m ((c : Thread nD τ).loc main_arg3) :=
  W3_back m ρ c main_arg3 (by decide) (by decide) (by decide)

/-! ## The last layer's region finds the node features, the two sums, the three weight ranges and the bias row -/
theorem entry2_0 (c : Dev nD) : V9 m ρ c (Pipeline.arrRef spec2 0) = H2 m ρ c :=
  (keep2_4 (W8 m ρ c) main_v1 (by decide)).trans (W8_v1 m ρ c)
theorem entry2_1 (c : Dev nD) : V9 m ρ c (Pipeline.arrRef spec2 1)
    = segWide (F := Ideal) (m ((c : Thread nD τ).loc main_arg11))
        (nodeMsg (H2 m ρ c) (m ((c : Thread nD τ).loc main_arg1)) (m ((c : Thread nD τ).loc main_arg10)) (m ((c : Thread nD τ).loc main_arg11))) := by
  refine (res2_4_v15 (W8 m ρ c)).trans ?_
  rw [W8_v4, W8_v5, W8_v6, W8_v7, W8_arg m ρ c main_arg11 (by decide)]
  rfl
theorem entry2_2 (c : Dev nD) : V9 m ρ c (Pipeline.arrRef spec2 2)
    = segNarrow (F := Ideal) (m ((c : Thread nD τ).loc main_arg11)) (Z2 m ρ c) := by
  refine (res2_4_v18 (W8 m ρ c)).trans ?_
  rw [W8_v3, W8_arg m ρ c main_arg11 (by decide)]
theorem entry2_3 (c : Dev nD) : V9 m ρ c (Pipeline.arrRef spec2 3) = waTop (F := Ideal) (m ((c : Thread nD τ).loc main_arg8)) := by
  refine (res2_4_v19 (W8 m ρ c)).trans ?_
  rw [W8_arg m ρ c main_arg8 (by decide)]
theorem entry2_4 (c : Dev nD) : V9 m ρ c (Pipeline.arrRef spec2 4) = waMid (F := Ideal) (m ((c : Thread nD τ).loc main_arg8)) := by
  refine (res2_4_v20 (W8 m ρ c)).trans ?_
  rw [W8_arg m ρ c main_arg8 (by decide)]
theorem entry2_5 (c : Dev nD) : V9 m ρ c (Pipeline.arrRef spec2 5) = waLow (F := Ideal) (m ((c : Thread nD τ).loc main_arg8)) := by
  refine (res2_4_v21 (W8 m ρ c)).trans ?_
  rw [W8_arg m ρ c main_arg8 (by decide)]
theorem entry2_6 (c : Dev nD) : V9 m ρ c (Pipeline.arrRef spec2 6) = rowBa (F := Ideal) (m ((c : Thread nD τ).loc main_arg9)) := by
  refine (res2_4_v22 (W8 m ρ c)).trans ?_
  rw [W8_arg m ρ c main_arg9 (by decide)]

/-- The program's result buffer is the last region's result array. -/
theorem result (c : Dev nD) : W10 m ρ c (Proc.devRef .tc main_v23) = (dat2 (F := Ideal) (V9 m ρ) c).arrAt 7 cfg2.N :=
  W10_arr m ρ c 7

end Cert.KernelIdeal.Fold

end
-- ==== Proof.RTerms.lean ====
/-
  The reference program's stages, each as one named function of whole arrays.

  `nodeLin` is h·Wn plus the bias row on every row; `edgeLin` is the edge attention times (rel·Wr plus the bias row);
  `wrapped` counts a negative row index from the end; `gatherWide` and `gatherCol` fetch rows; `nodeMsg` is
  att[src] * h2[src] + att[dst] * h2[dst]; `tail` joins the two messages side by side, adds every edge's row into its
  destination node's row, joins h2 with that sum, multiplies by the last weight matrix, adds the bias and takes the maximum
  with zero. `whole` is the reference's result as a function of its twelve arguments.
-/
import proofs.«421375_j21320217657492_1_alg».proof.ReferenceIdeal

noncomputable section

namespace Cert.ReferenceIdeal.Terms

open Cert.ReferenceIdeal Idealize.ShloMosaic

variable {F : FTy → Type} [FloatOps F] [Facts₀]
open Facts₀

/-- A 256-vector as a one-row matrix. -/
def rowBn (b : FVec F S256 .f32) : FVec F S1x256 .f32 := broadcastInDim S1x256 ![1] bcast_S256_S1x256_1 b
/-- A 128-vector as a one-row matrix. -/
def rowBr (b : FVec F S128 .f32) : FVec F S1x128 .f32 := broadcastInDim S1x128 ![1] bcast_S128_S1x128_1 b
/-- A 512-vector as a one-row matrix. -/
def rowBa (b : FVec F S512 .f32) : FVec F S1x512 .f32 := broadcastInDim S1x512 ![1] bcast_S512_S1x512_1 b

/-- The node layer: h·Wn plus the bias row on every row. -/
def nodeLin (h : FVec F S30000x256 .f32) (Wn : FVec F S256x256 .f32) (b2 : FVec F S1x256 .f32) : FVec F S30000x256 .f32 :=
  addf (Host.dotGeneral dot_S30000x256_S256x256_S30000x256_1_0_0_1_n_n none h Wn)
    (broadcastInDim S30000x256 ![0, 1] bcast_S1x256_S30000x256_0_1 b2)

/-- The edge layer: the edge attention times (rel·Wr plus the bias row). -/
def edgeLin (rel : FVec F S480000x128 .f32) (Wr : FVec F S128x128 .f32) (b2 : FVec F S1x128 .f32) (ea : FVec F S480000x1 .f32) :
    FVec F S480000x128 .f32 :=
  mulf (broadcastInDim S480000x128 ![0, 1] bcast_S480000x1_S480000x128_0_1 ea)
    (addf (Host.dotGeneral dot_S480000x128_S128x128_S480000x128_1_0_0_1_n_n none rel Wr)
      (broadcastInDim S480000x128 ![0, 1] bcast_S1x128_S480000x128_0_1 b2))

/-- A row index, a negative one counted from the end, as a one-column matrix. -/
def wrapped (idx : IVec S480000 32) : IVec S480000x1 32 :=
  broadcastInDim S480000x1 ![0] bcast_S480000_S480000x1_0
    (select (cmpi .slt idx (broadcastInDim S480000 ![] bcast_S_S480000 (constantI S_ 32 0#32)))
      (addi idx (broadcastInDim S480000 ![] bcast_S_S480000 (constantI S_ 32 30000#32))) idx)

/-- The fetch of 256-wide rows. -/
def gatherWide (x : FVec F S30000x256 .f32) (idx : IVec S480000 32) : FVec F S480000x256 .f32 :=
  Host.gather gather_S30000x256_S480000x1_S480000x256_1_0_n_n_0_1_1256 x (wrapped idx)

/-- The fetch of one-wide rows. -/
def gatherCol (x : FVec F S30000x1 .f32) (idx : IVec S480000 32) : FVec F S480000x1 .f32 :=
  Host.gather gather_S30000x1_S480000x1_S480000x1_1_0_n_n_0_1_11 x (wrapped idx)

/-- An edge's node message. -/
def nodeMsg (h2 : FVec F S30000x256 .f32) (na : FVec F S30000x1 .f32) (src dst : IVec S480000 32) : FVec F S480000x256 .f32 :=
  addf (mulf (broadcastInDim S480000x256 ![0, 1] bcast_S480000x1_S480000x256_0_1 (gatherCol na src)) (gatherWide h2 src))
    (mulf (broadcastInDim S480000x256 ![0, 1] bcast_S480000x1_S480000x256_0_1 (gatherCol na dst)) (gatherWide h2 dst))

/-- The two messages side by side: 256 + 128 columns. -/
def joinMsg (z1 : FVec F S480000x256 .f32) (z2 : FVec F S480000x128 .f32) : FVec F S480000x384 .f32 :=
  concatenate S480000x384 1 [⟨S480000x256, z1⟩, ⟨S480000x128, z2⟩] concatenates_S480000x256_S480000x128_S480000x384_d1

/-- Every edge's 384-wide row added into its destination node's row, from zero. -/
def segAll (dst : IVec S480000 32) (u : FVec F S480000x384 .f32) : FVec F S30000x384 .f32 :=
  Host.scatterAdd scatter_S30000x384_S480000x1_S480000x384_1_0_0_1
    (broadcastInDim S30000x384 ![] bcast_S_S30000x384 (constant S_ .f32 0x00000000#32))
    (broadcastInDim S480000x1 ![0] bcast_S480000_S480000x1_0 dst) u

/-- The node features and the summed messages side by side: 256 + 384 columns. -/
def joinAll (h2 : FVec F S30000x256 .f32) (s : FVec F S30000x384 .f32) : FVec F S30000x640 .f32 :=
  concatenate S30000x640 1 [⟨S30000x256, h2⟩, ⟨S30000x384, s⟩] concatenates_S30000x256_S30000x384_S30000x640_d1

/-- From the node features and the two messages to the result. -/
def tail (h2 : FVec F S30000x256 .f32) (z1 : FVec F S480000x256 .f32) (z2 : FVec F S480000x128 .f32)
    (Wa : FVec F S640x512 .f32) (ba : FVec F S512 .f32) (dst : IVec S480000 32) : FVec F S30000x512 .f32 :=
  maximumf
    (addf
      (Host.dotGeneral dot_S30000x640_S640x512_S30000x512_1_0_0_1_n_n none (joinAll h2 (segAll dst (joinMsg z1 z2))) Wa)
      (broadcastInDim S30000x512 ![0, 1] bcast_S1x512_S30000x512_0_1 (rowBa ba)))
    (broadcastInDim S30000x512 ![] bcast_S_S30000x512 (constant S_ .f32 0x00000000#32))

/-- The reference's result as a function of its arguments. -/
def whole (h : FVec F S30000x256 .f32) (na : FVec F S30000x1 .f32) (rel : FVec F S480000x128 .f32) (ea : FVec F S480000x1 .f32)
    (Wn : FVec F S256x256 .f32) (bn : FVec F S256 .f32) (Wr : FVec F S128x128 .f32) (br : FVec F S128 .f32)
    (Wa : FVec F S640x512 .f32) (ba : FVec F S512 .f32) (src dst : IVec S480000 32) : FVec F S30000x512 .f32 :=
  tail (nodeLin h Wn (rowBn bn)) (nodeMsg (nodeLin h Wn (rowBn bn)) na src dst) (edgeLin rel Wr (rowBr br) ea) Wa ba dst

end Cert.ReferenceIdeal.Terms

end
-- ==== Proof.Region0.lean ====
/-
  The node layer's region, as one function of whole arrays.

  The grid has 15 points; point t works on rows 2000·t … 2000·t + 1999 of h. Its block of the result is the block of h
  times the whole of Wn (a sum over the 256 columns of h, the two changes of float format being the identity over the
  extended reals) plus the bias row. Rows of different points are different rows of the result, and the 15 blocks cover
  all 30000 rows, so after the region the result array is h·Wn plus the bias row on every row.
-/
import proofs.«421375_j21320217657492_1_alg».proof.Proof.Gen.KernelIdeal.Frame
import proofs.«421375_j21320217657492_1_alg».proof.Proof.RTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable [Cert.ReferenceIdeal.Facts₀]

/-! ## One block of the product, entry by entry

Entry (p, q) of a 2000-row block times the 256 × 256 weights, started from zero, is the sum over k of entry (p, k) of
the block times entry (k, q) of the weights: the left factor is read at the result's row and the summed column, the right
factor at the summed row and the result's column. -/

/-- The left factor's row is the result's row; -/
theorem prodL0 (i : S2000x256.Idx) (s : dot_S2000x256_S256x256_S2000x256_1_0_0_1_n_n.contr.Idx) :
    (dot_S2000x256_S256x256_S2000x256_1_0_0_1_n_n.lhsIdx i s 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- its column is the summed position. -/
theorem prodL1 (i : S2000x256.Idx) (s : dot_S2000x256_S256x256_S2000x256_1_0_0_1_n_n.contr.Idx) :
    (dot_S2000x256_S256x256_S2000x256_1_0_0_1_n_n.lhsIdx i s 1).val = (s ⟨0, by decide⟩).val :=
  dot_S2000x256_S256x256_S2000x256_1_0_0_1_n_n.lhsIdx_val_of_single rfl i s
/-- The right factor's row is the summed position; -/
theorem prodR0 (i : S2000x256.Idx) (s : dot_S2000x256_S256x256_S2000x256_1_0_0_1_n_n.contr.Idx) :
    (dot_S2000x256_S256x256_S2000x256_1_0_0_1_n_n.rhsIdx i s 0).val = (s ⟨0, by decide⟩).val :=
  dot_S2000x256_S256x256_S2000x256_1_0_0_1_n_n.rhsIdx_val_of_single rfl i s
/-- its column is the result's column. -/
theorem prodR1 (i : S2000x256.Idx) (s : dot_S2000x256_S256x256_S2000x256_1_0_0_1_n_n.contr.Idx) :
    (dot_S2000x256_S256x256_S2000x256_1_0_0_1_n_n.rhsIdx i s 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block product into a zero accumulator at entry (p, q): the sum over the 256 shared positions. -/
theorem blockProd_apply (a : FVec Ideal S2000x256 .bf16) (w : FVec Ideal S256x256 .bf16) (p : Fin 2000) (q : Fin 256) :
    matmul dot_S2000x256_S256x256_S2000x256_1_0_0_1_n_n none a w (constant (F := Ideal) S2000x256 .f32 0x00000000#32) (ix2 p q)
      = ∑ k : Fin 256, a (ix2 p k) * w (ix2 k q) := by
  refine (Ideal.matmul_constant_zero_apply dot_S2000x256_S256x256_S2000x256_1_0_0_1_n_n none a w (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact prodL0 _ _
    | ⟨1, _⟩ => exact (prodL1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (prodR0 _ _).trans hk
    | ⟨1, _⟩ => exact prodR1 _ _)
  rw [el, er]

/-- What the body stores, at entry (p, q) of its block: row p of the block of h against column q of the weights, plus
    entry q of the bias row. The two roundings to the narrow format change nothing over the extended reals. -/
theorem blockValue_apply (x0 : Vec Ideal S2000x256 .f32) (x1 : Vec Ideal S256x256 .f32) (x2 : Vec Ideal S1x256 .f32)
    (p : Fin 2000) (q : Fin 256) :
    k0_pay1 (F := Ideal) x0 x1 x2 (ix2 p q) = (∑ k : Fin 256, x0 (ix2 p k) * x1 (ix2 k q)) + x2 (ix2 (0 : Fin 1) q) := by
  unfold k0_pay1
  rw [addf_apply, blockProd_apply, shapeCast_self, broadcastTo_1b_ab_apply]
  rfl

/-! ## The whole product, entry by entry

The same four readings for the product of all 30000 rows of h with the weights: left factor at (result row, summed
position), right factor at (summed position, result column). -/

theorem wholeL0 (i : Cert.ReferenceIdeal.S30000x256.Idx) (s : Cert.ReferenceIdeal.dot_S30000x256_S256x256_S30000x256_1_0_0_1_n_n.contr.Idx) :
    (Cert.ReferenceIdeal.dot_S30000x256_S256x256_S30000x256_1_0_0_1_n_n.lhsIdx i s 0).val = (i 0).val := by
  unfold DotDims.lhsIdx
  rw [dif_neg (show ¬(0 : Fin Cert.ReferenceIdeal.S30000x256.rank) ∈ Cert.ReferenceIdeal.dot_S30000x256_S256x256_S30000x256_1_0_0_1_n_n.lhsBatch from List.not_mem_nil), dif_pos (show (0 : Fin Cert.ReferenceIdeal.S30000x256.rank) ∈ Cert.ReferenceIdeal.dot_S30000x256_S256x256_S30000x256_1_0_0_1_n_n.lhsNonContracting from List.mem_singleton.mpr rfl)]
  rfl
theorem wholeL1 (i : Cert.ReferenceIdeal.S30000x256.Idx) (s : Cert.ReferenceIdeal.dot_S30000x256_S256x256_S30000x256_1_0_0_1_n_n.contr.Idx) :
    (Cert.ReferenceIdeal.dot_S30000x256_S256x256_S30000x256_1_0_0_1_n_n.lhsIdx i s 1).val = (s ⟨0, Nat.one_pos⟩).val :=
  Cert.ReferenceIdeal.dot_S30000x256_S256x256_S30000x256_1_0_0_1_n_n.lhsIdx_val_of_single rfl i s
theorem wholeR0 (i : Cert.ReferenceIdeal.S30000x256.Idx) (s : Cert.ReferenceIdeal.dot_S30000x256_S256x256_S30000x256_1_0_0_1_n_n.contr.Idx) :
    (Cert.ReferenceIdeal.dot_S30000x256_S256x256_S30000x256_1_0_0_1_n_n.rhsIdx i s 0).val = (s ⟨0, Nat.one_pos⟩).val :=
  Cert.ReferenceIdeal.dot_S30000x256_S256x256_S30000x256_1_0_0_1_n_n.rhsIdx_val_of_single rfl i s
theorem wholeR1 (i : Cert.ReferenceIdeal.S30000x256.Idx) (s : Cert.ReferenceIdeal.dot_S30000x256_S256x256_S30000x256_1_0_0_1_n_n.contr.Idx) :
    (Cert.ReferenceIdeal.dot_S30000x256_S256x256_S30000x256_1_0_0_1_n_n.rhsIdx i s 1).val = (i 1).val := by
  unfold DotDims.rhsIdx
  rw [dif_neg (show ¬(1 : Fin Cert.ReferenceIdeal.S256x256.rank) ∈ Cert.ReferenceIdeal.dot_S30000x256_S256x256_S30000x256_1_0_0_1_n_n.rhsBatch from List.not_mem_nil), dif_pos (show (1 : Fin Cert.ReferenceIdeal.S256x256.rank) ∈ Cert.ReferenceIdeal.dot_S30000x256_S256x256_S30000x256_1_0_0_1_n_n.rhsNonContracting from List.mem_singleton.mpr rfl)]
  rfl

/-- The node layer at entry (r, q): row r of h against column q of the weights, plus entry q of the bias row. -/
theorem nodeLin_apply (h : FVec Ideal Cert.ReferenceIdeal.S30000x256 .f32) (W : FVec Ideal Cert.ReferenceIdeal.S256x256 .f32)
    (b : FVec Ideal Cert.ReferenceIdeal.S1x256 .f32) (r : Fin 30000) (q : Fin 256) :
    Cert.ReferenceIdeal.Terms.nodeLin (F := Ideal) h W b (ix2 r q)
      = (∑ k : Fin 256, h (ix2 r k) * W (ix2 k q)) + b (ix2 (0 : Fin 1) q) := by
  unfold Cert.ReferenceIdeal.Terms.nodeLin
  rw [addf_apply]
  refine congrArg₂ (· + ·) ?_ ?_
  · simp only [Host.dotGeneral]
    rw [Ideal.dotGeneral_apply, ← Equiv.sum_comp (contrEquiv1 Cert.ReferenceIdeal.dot_S30000x256_S256x256_S30000x256_1_0_0_1_n_n 256 rfl rfl).symm]
    refine Finset.sum_congr rfl fun k _ => ?_
    have hk := contrEquiv1_symm_val Cert.ReferenceIdeal.dot_S30000x256_S256x256_S30000x256_1_0_0_1_n_n 256 rfl rfl k
    have el : Cert.ReferenceIdeal.dot_S30000x256_S256x256_S30000x256_1_0_0_1_n_n.lhsIdx (ix2 r q) ((contrEquiv1 Cert.ReferenceIdeal.dot_S30000x256_S256x256_S30000x256_1_0_0_1_n_n 256 rfl rfl).symm k) = ix2 r k := funext fun a => Fin.ext (by
      match a with
      | ⟨0, _⟩ => exact wholeL0 _ _
      | ⟨1, _⟩ => exact (wholeL1 _ _).trans hk)
    have er : Cert.ReferenceIdeal.dot_S30000x256_S256x256_S30000x256_1_0_0_1_n_n.rhsIdx (ix2 r q) ((contrEquiv1 Cert.ReferenceIdeal.dot_S30000x256_S256x256_S30000x256_1_0_0_1_n_n 256 rfl rfl).symm k) = ix2 k q := funext fun a => Fin.ext (by
      match a with
      | ⟨0, _⟩ => exact (wholeR0 _ _).trans hk
      | ⟨1, _⟩ => exact wholeR1 _ _)
    rw [el, er]
  · exact broadcastInDim_apply _ _ b (ix2 r q) (ix2 (0 : Fin 1) q) (fun a => match a with
      | ⟨0, _⟩ => by show 0 = if (1 : Nat) = 1 then 0 else r.val; rw [if_pos rfl]
      | ⟨1, _⟩ => by show q.val = if (256 : Nat) = 1 then 0 else q.val; rw [if_neg (by decide)])

/-! ## From the blocks to the array -/

section Blocks

variable (V : (c : Dev nD) → (b : Ref sig .tc) → Buf (Elt Ideal) ((c : Thread nD τ).loc b))

/-- The body reads and writes each of its buffers whole: from offset zero on both axes. -/
theorem zeroOffsets : (![0, 0] : Fin 2 → Nat) = fun _ => 0 := funext fun a => by fin_cases a <;> rfl

/-- Where each window's block sits at point t: the h block and the result block are block t along the rows; the weights
    and the bias row are always block (0, 0). Decided over the 15 points. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the h block at point t is row 2000·t + p of h. -/
theorem rowsBlock_apply (c : Dev nD) (t : Fin cfg0.N) (p : Fin 2000) (k : Fin 256) (r : Fin 30000)
    (hr : r.val = 2000 * t.val + p.val) :
    (iblk0 V c 0 t : Vec Ideal S2000x256 .f32) (ix2 p k) = (V c (Pipeline.arrRef spec0 0) : S30000x256.Idx → EReal) (ix2 r k) := by
  obtain ⟨e0, e1, -⟩ := blockIndex t
  show (V c (Pipeline.arrRef spec0 0) : S30000x256.Idx → EReal) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The weights block at any point is the whole of the weights. -/
theorem weightsBlock_apply (c : Dev nD) (t : Fin cfg0.N) (k q : Fin 256) :
    (iblk0 V c 1 t : Vec Ideal S256x256 .f32) (ix2 k q) = (V c (Pipeline.arrRef spec0 1) : S256x256.Idx → EReal) (ix2 k q) := by
  obtain ⟨-, -, e2, e3, -⟩ := blockIndex t
  show (V c (Pipeline.arrRef spec0 1) : S256x256.Idx → EReal) (((cfg0.win 1).blk t).view.emb (ix2 k q)) = _
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- The bias block at any point is the whole bias row. -/
theorem biasBlock_apply (c : Dev nD) (t : Fin cfg0.N) (q : Fin 256) :
    (iblk0 V c 2 t : Vec Ideal S1x256 .f32) (ix2 (0 : Fin 1) q) = (V c (Pipeline.arrRef spec0 2) : S1x256.Idx → EReal) (ix2 (0 : Fin 1) q) := by
  obtain ⟨-, -, -, -, e4, e5, -⟩ := blockIndex t
  show (V c (Pipeline.arrRef spec0 2) : S1x256.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-- What point t writes back is block t of h·Wn plus the bias row: rows 2000·t … 2000·t + 1999. -/
theorem written_eq (c : Dev nD) (t : Fin cfg0.N) :
    (dat0 (F := Ideal) V c).flushed 3 t = ((cfg0.win 3).blk t).view.read (Elt Ideal)
      (Cert.ReferenceIdeal.Terms.nodeLin (F := Ideal) (V c (Pipeline.arrRef spec0 0)) (V c (Pipeline.arrRef spec0 1))
        (V c (Pipeline.arrRef spec0 2))) := by
  show (cfg0.win 3).cut (grid0.coords t) ((dat0 V c).after 3 t) = _
  rw [after0_3]
  unfold out0_3
  rw [View.canon_unit_zero zeroOffsets]
  simp only [View.ld_unit_zero (S := S2000x256) zeroOffsets, View.ld_unit_zero (S := S256x256) zeroOffsets,
    View.ld_unit_zero (S := S1x256) zeroOffsets]
  obtain ⟨-, -, -, -, -, -, e6, e7⟩ := blockIndex t
  have hN : cfg0.N = 15 := N_0
  have ht : t.val < cfg0.N := t.isLt
  funext j
  obtain ⟨p, q, rfl⟩ : ∃ (p : Fin 2000) (q : Fin 256), j = ix2 p q := ⟨j 0, j 1, eq_ix2 j⟩
  have hp : p.val < 2000 := p.isLt
  show k0_pay1 (F := Ideal) (iblk0 V c 0 t) (iblk0 V c 1 t) (iblk0 V c 2 t) (ix2 p q)
    = Cert.ReferenceIdeal.Terms.nodeLin (F := Ideal) (V c (Pipeline.arrRef spec0 0)) (V c (Pipeline.arrRef spec0 1))
        (V c (Pipeline.arrRef spec0 2)) (((cfg0.win 3).blk t).view.emb (ix2 p q))
  have hrow : ((cfg0.win 3).blk t).view.emb (ix2 p q) = ix2 (⟨2000 * t.val + p.val, by omega⟩ : Fin 30000) q := by
    funext a; apply Fin.ext
    match a with
    | ⟨0, _⟩ => show win0_3.index t (0 : Fin 2) * 2000 + 1 * p.val = 2000 * t.val + p.val; omega
    | ⟨1, _⟩ => show win0_3.index t (1 : Fin 2) * 256 + 1 * q.val = q.val; omega
  rw [hrow]
  refine (blockValue_apply (iblk0 V c 0 t) (iblk0 V c 1 t) (iblk0 V c 2 t) p q).trans ?_
  refine Eq.trans ?_ (nodeLin_apply (V c (Pipeline.arrRef spec0 0)) (V c (Pipeline.arrRef spec0 1)) (V c (Pipeline.arrRef spec0 2))
    (⟨2000 * t.val + p.val, by omega⟩ : Fin 30000) q).symm
  refine congrArg₂ (· + ·) (Finset.sum_congr rfl fun k _ => congrArg₂ (· * ·) ?_ ?_) ?_
  · exact rowsBlock_apply V c t p k _ rfl
  · exact weightsBlock_apply V c t k q
  · exact biasBlock_apply V c t q

/-- An entry of the result lies in point t's block when its row lies among rows 2000·t … 2000·t + 1999. -/
theorem mem_outBlock (t : Fin cfg0.N) (i : S30000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v1).slice (win0_3.rect t)).set ↔ _
  rw [View.set_slice_whole, Rect.mem_set_unit]
  exact Iff.rfl

/-- Every entry of the result is written by some point: row r by point r / 2000. -/
theorem rows_covered (i : S30000x256.Idx) :
    ∃ t : Fin cfg0.N, (cfg0.win 3).flush t = true ∧ i ∈ ((cfg0.win 3).blk t).view.set := by
  have hN : cfg0.N = 15 := N_0
  have hi0 : (i 0).val < 30000 := (i 0).isLt
  have hi1 : (i 1).val < 256 := (i 1).isLt
  obtain ⟨t, ht⟩ : ∃ t : Fin cfg0.N, t.val = (i 0).val / 2000 := ⟨⟨(i 0).val / 2000, by rw [hN]; omega⟩, rfl⟩
  obtain ⟨-, -, -, -, -, -, e6, e7⟩ := blockIndex t
  refine ⟨t, flush0_3 t, ?_⟩
  rw [mem_outBlock]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

end Blocks

/-- After the node layer's region its result array holds h·Wn plus the bias row, whatever the region finds in its three
    input arrays. -/
theorem arr0 (V : (c : Dev nD) → (b : Ref sig .tc) → Buf (Elt Ideal) ((c : Thread nD τ).loc b)) (c : Dev nD) :
    (dat0 (F := Ideal) V c).arrAt 3 cfg0.N
      = Cert.ReferenceIdeal.Terms.nodeLin (F := Ideal) (V c (Pipeline.arrRef spec0 0)) (V c (Pipeline.arrRef spec0 1))
          (V c (Pipeline.arrRef spec0 2)) := by
  exact (dat0 (F := Ideal) V c).arrAt_eq_of_cover 3
    (Cert.ReferenceIdeal.Terms.nodeLin (F := Ideal) (V c (Pipeline.arrRef spec0 0)) (V c (Pipeline.arrRef spec0 1))
      (V c (Pipeline.arrRef spec0 2)))
    (fun t _ => written_eq V c t) (fun i => rows_covered i)

end Cert.KernelIdeal.Region0

end
-- ==== Proof.Region1.lean ====
/-
  The edge layer's region, as one function of whole arrays.

  The grid has 30 points; point t works on rows 16000·t … 16000·t + 15999 of rel and of the edge attention. Its block of
  the result is the edge attention (one value a row, spread over the 128 columns) times (the block of rel times the whole
  of Wr, a sum over the 128 columns of rel, plus the bias row). The 30 blocks are disjoint and cover all 480000 rows, so
  after the region the result array is the edge attention times (rel·Wr plus the bias row).
-/
import proofs.«421375_j21320217657492_1_alg».proof.Proof.Gen.KernelIdeal.Frame
import proofs.«421375_j21320217657492_1_alg».proof.Proof.RTerms
import proofs.«421375_j21320217657492_1_alg».proof.Proof.KTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable [Cert.ReferenceIdeal.Facts₀]

/-! ## The block's arithmetic at an entry -/

/-- Output row i of the block's product takes row i of the left factor. -/
theorem lhs_blockDot_0 (i : S16000x128.Idx) (q : dot_S16000x128_S128x128_S16000x128_1_0_0_1_n_n.contr.Idx) :
    (dot_S16000x128_S128x128_S16000x128_1_0_0_1_n_n.lhsIdx i q 0).val = (i 0).val := by
  unfold DotDims.lhsIdx
  rw [dif_neg (show ¬(0 : Fin S16000x128.rank) ∈ dot_S16000x128_S128x128_S16000x128_1_0_0_1_n_n.lhsBatch by decide), dif_pos (show (0 : Fin S16000x128.rank) ∈ dot_S16000x128_S128x128_S16000x128_1_0_0_1_n_n.lhsNonContracting by decide)]
  rfl
/-- The left factor's column is the summation index. -/
theorem lhs_blockDot_1 (i : S16000x128.Idx) (q : dot_S16000x128_S128x128_S16000x128_1_0_0_1_n_n.contr.Idx) :
    (dot_S16000x128_S128x128_S16000x128_1_0_0_1_n_n.lhsIdx i q 1).val = (q ⟨0, by decide⟩).val :=
  dot_S16000x128_S128x128_S16000x128_1_0_0_1_n_n.lhsIdx_val_of_single rfl i q
/-- The right factor's row is the summation index. -/
theorem rhs_blockDot_0 (i : S16000x128.Idx) (q : dot_S16000x128_S128x128_S16000x128_1_0_0_1_n_n.contr.Idx) :
    (dot_S16000x128_S128x128_S16000x128_1_0_0_1_n_n.rhsIdx i q 0).val = (q ⟨0, by decide⟩).val :=
  dot_S16000x128_S128x128_S16000x128_1_0_0_1_n_n.rhsIdx_val_of_single rfl i q
/-- Output column j takes column j of the right factor. -/
theorem rhs_blockDot_1 (i : S16000x128.Idx) (q : dot_S16000x128_S128x128_S16000x128_1_0_0_1_n_n.contr.Idx) :
    (dot_S16000x128_S128x128_S16000x128_1_0_0_1_n_n.rhsIdx i q 1).val = (i 1).val := by
  unfold DotDims.rhsIdx
  rw [dif_neg (show ¬(1 : Fin S128x128.rank) ∈ dot_S16000x128_S128x128_S16000x128_1_0_0_1_n_n.rhsBatch by decide), dif_pos (show (1 : Fin S128x128.rank) ∈ dot_S16000x128_S128x128_S16000x128_1_0_0_1_n_n.rhsNonContracting by decide)]
  rfl

/-- The block's product from a zero accumulator, at entry (p, q): the sum over k of a(p, k) · b(k, q). -/
theorem blockDot_apply (a : FVec Ideal S16000x128 .bf16) (b : FVec Ideal S128x128 .bf16) (p : Fin 16000) (q : Fin 128) :
    FloatOps.matmul dot_S16000x128_S128x128_S16000x128_1_0_0_1_n_n none a b (constant S16000x128 .f32 0x00000000#32) (ix2 p q)
      = ∑ k : Fin 128, a (ix2 p k) * b (ix2 k q) := by
  rw [Ideal.matmul_constant_zero_apply, ← Equiv.sum_comp (contrEquiv1 dot_S16000x128_S128x128_S16000x128_1_0_0_1_n_n 128 rfl rfl).symm]
  refine Finset.sum_congr rfl fun k _ => ?_
  have hk := contrEquiv1_symm_val dot_S16000x128_S128x128_S16000x128_1_0_0_1_n_n 128 rfl rfl k
  have el : dot_S16000x128_S128x128_S16000x128_1_0_0_1_n_n.lhsIdx (ix2 p q) ((contrEquiv1 dot_S16000x128_S128x128_S16000x128_1_0_0_1_n_n 128 rfl rfl).symm k) = ix2 p k := funext fun ax => Fin.ext (by
    match ax with
    | ⟨0, _⟩ => exact lhs_blockDot_0 _ _
    | ⟨1, _⟩ => exact (lhs_blockDot_1 _ _).trans hk)
  have er : dot_S16000x128_S128x128_S16000x128_1_0_0_1_n_n.rhsIdx (ix2 p q) ((contrEquiv1 dot_S16000x128_S128x128_S16000x128_1_0_0_1_n_n 128 rfl rfl).symm k) = ix2 k q := funext fun ax => Fin.ext (by
    match ax with
    | ⟨0, _⟩ => exact (rhs_blockDot_0 _ _).trans hk
    | ⟨1, _⟩ => exact rhs_blockDot_1 _ _)
  rw [el, er]

/-- One value a row, spread over the 128 columns of the block: entry (p, q) is the row's value. -/
theorem spreadCol_apply (v : FVec Ideal S16000x1 .f32) (p : Fin 16000) (q : Fin 128) :
    broadcastTo S16000x128 v broadcasts_S16000x1_S16000x128 (ix2 p q) = v (ix2 p (0 : Fin 1)) := by
  refine broadcastTo_apply v broadcasts_S16000x1_S16000x128 (ix2 p q) (ix2 p (0 : Fin 1)) fun ax => ?_
  match ax with
  | ⟨0, _⟩ => show p.val = if (16000 : Nat) = 1 then 0 else p.val; rw [if_neg (by decide)]
  | ⟨1, _⟩ => show 0 = if (1 : Nat) = 1 then 0 else q.val; rw [if_pos rfl]

/-- The block's result at entry (p, q): the row's attention times (the sum over k of x0(p, k) · x1(k, q), plus the bias
    at column q). The two roundings to the short format are the identity on the extended reals. -/
theorem pay_apply (x0 : Vec Ideal S16000x128 .f32) (x1 : Vec Ideal S128x128 .f32) (x2 : Vec Ideal S1x128 .f32)
    (x3 : Vec Ideal S16000x1 .f32) (p : Fin 16000) (q : Fin 128) :
    k1_pay1 (F := Ideal) x0 x1 x2 x3 (ix2 p q)
      = x3 (ix2 p (0 : Fin 1)) * ((∑ k : Fin 128, x0 (ix2 p k) * x1 (ix2 k q)) + x2 (ix2 (0 : Fin 1) q)) := by
  unfold k1_pay1
  show (broadcastTo S16000x128 x3 broadcasts_S16000x1_S16000x128 (ix2 p q) : EReal)
      * ((FloatOps.matmul (F := Ideal) dot_S16000x128_S128x128_S16000x128_1_0_0_1_n_n none (truncf (F := Ideal) .bf16 x0 bitsLt_bf16_f32)
            (truncf (F := Ideal) .bf16 x1 bitsLt_bf16_f32) (constant (F := Ideal) S16000x128 .f32 0x00000000#32) (ix2 p q) : EReal)
          + (broadcastTo S16000x128 (shapeCast S1x128 x2 shapeCasts_S1x128_S1x128) broadcasts_S1x128_S16000x128 (ix2 p q) : EReal)) = _
  rw [spreadCol_apply, blockDot_apply, shapeCast_self, broadcastTo_1b_ab_apply]
  rfl

/-! ## The whole arrays' arithmetic at an entry -/

/-- Output row i of the whole product takes row i of the left factor. -/
theorem lhs_wholeDot_0 (i : Cert.ReferenceIdeal.S480000x128.Idx) (q : Cert.ReferenceIdeal.dot_S480000x128_S128x128_S480000x128_1_0_0_1_n_n.contr.Idx) :
    (Cert.ReferenceIdeal.dot_S480000x128_S128x128_S480000x128_1_0_0_1_n_n.lhsIdx i q 0).val = (i 0).val := by
  unfold DotDims.lhsIdx
  rw [dif_neg (show ¬(0 : Fin Cert.ReferenceIdeal.S480000x128.rank) ∈ Cert.ReferenceIdeal.dot_S480000x128_S128x128_S480000x128_1_0_0_1_n_n.lhsBatch from List.not_mem_nil), dif_pos (show (0 : Fin Cert.ReferenceIdeal.S480000x128.rank) ∈ Cert.ReferenceIdeal.dot_S480000x128_S128x128_S480000x128_1_0_0_1_n_n.lhsNonContracting from List.mem_singleton.mpr rfl)]
  rfl
/-- The left factor's column is the summation index. -/
theorem lhs_wholeDot_1 (i : Cert.ReferenceIdeal.S480000x128.Idx) (q : Cert.ReferenceIdeal.dot_S480000x128_S128x128_S480000x128_1_0_0_1_n_n.contr.Idx) :
    (Cert.ReferenceIdeal.dot_S480000x128_S128x128_S480000x128_1_0_0_1_n_n.lhsIdx i q 1).val = (q ⟨0, Nat.one_pos⟩).val :=
  Cert.ReferenceIdeal.dot_S480000x128_S128x128_S480000x128_1_0_0_1_n_n.lhsIdx_val_of_single rfl i q
/-- The right factor's row is the summation index. -/
theorem rhs_wholeDot_0 (i : Cert.ReferenceIdeal.S480000x128.Idx) (q : Cert.ReferenceIdeal.dot_S480000x128_S128x128_S480000x128_1_0_0_1_n_n.contr.Idx) :
    (Cert.ReferenceIdeal.dot_S480000x128_S128x128_S480000x128_1_0_0_1_n_n.rhsIdx i q 0).val = (q ⟨0, Nat.one_pos⟩).val :=
  Cert.ReferenceIdeal.dot_S480000x128_S128x128_S480000x128_1_0_0_1_n_n.rhsIdx_val_of_single rfl i q
/-- Output column j takes column j of the right factor. -/
theorem rhs_wholeDot_1 (i : Cert.ReferenceIdeal.S480000x128.Idx) (q : Cert.ReferenceIdeal.dot_S480000x128_S128x128_S480000x128_1_0_0_1_n_n.contr.Idx) :
    (Cert.ReferenceIdeal.dot_S480000x128_S128x128_S480000x128_1_0_0_1_n_n.rhsIdx i q 1).val = (i 1).val := by
  unfold DotDims.rhsIdx
  rw [dif_neg (show ¬(1 : Fin Cert.ReferenceIdeal.S128x128.rank) ∈ Cert.ReferenceIdeal.dot_S480000x128_S128x128_S480000x128_1_0_0_1_n_n.rhsBatch from List.not_mem_nil), dif_pos (show (1 : Fin Cert.ReferenceIdeal.S128x128.rank) ∈ Cert.ReferenceIdeal.dot_S480000x128_S128x128_S480000x128_1_0_0_1_n_n.rhsNonContracting from List.mem_singleton.mpr rfl)]
  rfl

/-- The whole product at entry (r, q): the sum over k of a(r, k) · b(k, q). -/
theorem wholeDot_apply (a : FVec Ideal Cert.ReferenceIdeal.S480000x128 .f32) (b : FVec Ideal Cert.ReferenceIdeal.S128x128 .f32) (r : Fin 480000) (q : Fin 128) :
    FloatOps.dotGeneral Cert.ReferenceIdeal.dot_S480000x128_S128x128_S480000x128_1_0_0_1_n_n none .single a b (ix2 r q)
      = ∑ k : Fin 128, a (ix2 r k) * b (ix2 k q) := by
  rw [Ideal.dotGeneral_apply, ← Equiv.sum_comp (contrEquiv1 Cert.ReferenceIdeal.dot_S480000x128_S128x128_S480000x128_1_0_0_1_n_n 128 rfl rfl).symm]
  refine Finset.sum_congr rfl fun k _ => ?_
  have hk := contrEquiv1_symm_val Cert.ReferenceIdeal.dot_S480000x128_S128x128_S480000x128_1_0_0_1_n_n 128 rfl rfl k
  have el : Cert.ReferenceIdeal.dot_S480000x128_S128x128_S480000x128_1_0_0_1_n_n.lhsIdx (ix2 r q) ((contrEquiv1 Cert.ReferenceIdeal.dot_S480000x128_S128x128_S480000x128_1_0_0_1_n_n 128 rfl rfl).symm k) = ix2 r k := funext fun ax => Fin.ext (by
    match ax with
    | ⟨0, _⟩ => exact lhs_wholeDot_0 _ _
    | ⟨1, _⟩ => exact (lhs_wholeDot_1 _ _).trans hk)
  have er : Cert.ReferenceIdeal.dot_S480000x128_S128x128_S480000x128_1_0_0_1_n_n.rhsIdx (ix2 r q) ((contrEquiv1 Cert.ReferenceIdeal.dot_S480000x128_S128x128_S480000x128_1_0_0_1_n_n 128 rfl rfl).symm k) = ix2 k q := funext fun ax => Fin.ext (by
    match ax with
    | ⟨0, _⟩ => exact (rhs_wholeDot_0 _ _).trans hk
    | ⟨1, _⟩ => exact rhs_wholeDot_1 _ _)
  rw [el, er]

/-- One value a row, spread over the 128 columns of the whole array: entry (r, q) is the row's value. -/
theorem spreadAtt_apply (h : Cert.ReferenceIdeal.S480000x1.BroadcastsInDim Cert.ReferenceIdeal.S480000x128 (![0, 1] : Fin 2 → Fin Cert.ReferenceIdeal.S480000x128.rank))
    (v : FVec Ideal Cert.ReferenceIdeal.S480000x1 .f32) (r : Fin 480000) (q : Fin 128) :
    broadcastInDim Cert.ReferenceIdeal.S480000x128 ![0, 1] h v (ix2 r q) = v (ix2 r (0 : Fin 1)) := by
  refine broadcastInDim_apply _ h v (ix2 r q) (ix2 r (0 : Fin 1)) fun ax => ?_
  match ax with
  | ⟨0, _⟩ => show r.val = if (480000 : Nat) = 1 then 0 else r.val; rw [if_neg (by decide)]
  | ⟨1, _⟩ => show 0 = if (1 : Nat) = 1 then 0 else q.val; rw [if_pos rfl]

/-- The bias row spread over all rows: entry (r, q) is the bias at column q. -/
theorem spreadBias_apply (h : Cert.ReferenceIdeal.S1x128.BroadcastsInDim Cert.ReferenceIdeal.S480000x128 (![0, 1] : Fin 2 → Fin Cert.ReferenceIdeal.S480000x128.rank))
    (v : FVec Ideal Cert.ReferenceIdeal.S1x128 .f32) (r : Fin 480000) (q : Fin 128) :
    broadcastInDim Cert.ReferenceIdeal.S480000x128 ![0, 1] h v (ix2 r q) = v (ix2 (0 : Fin 1) q) := by
  refine broadcastInDim_apply _ h v (ix2 r q) (ix2 (0 : Fin 1) q) fun ax => ?_
  match ax with
  | ⟨0, _⟩ => show 0 = if (1 : Nat) = 1 then 0 else r.val; rw [if_pos rfl]
  | ⟨1, _⟩ => show q.val = if (128 : Nat) = 1 then 0 else q.val; rw [if_neg (by decide)]

/-- The edge layer of whole arrays at entry (r, q): row r's attention times (the sum over k of rel(r, k) · Wr(k, q), plus
    the bias at column q). -/
theorem edgeLin_apply (rel : FVec Ideal Cert.ReferenceIdeal.S480000x128 .f32) (Wr : FVec Ideal Cert.ReferenceIdeal.S128x128 .f32)
    (b2 : FVec Ideal Cert.ReferenceIdeal.S1x128 .f32) (ea : FVec Ideal Cert.ReferenceIdeal.S480000x1 .f32) (r : Fin 480000) (q : Fin 128) :
    Cert.ReferenceIdeal.Terms.edgeLin (F := Ideal) rel Wr b2 ea (ix2 r q)
      = ea (ix2 r (0 : Fin 1)) * ((∑ k : Fin 128, rel (ix2 r k) * Wr (ix2 k q)) + b2 (ix2 (0 : Fin 1) q)) := by
  unfold Cert.ReferenceIdeal.Terms.edgeLin
  show (broadcastInDim Cert.ReferenceIdeal.S480000x128 ![0, 1] Cert.ReferenceIdeal.Facts₀.bcast_S480000x1_S480000x128_0_1 ea (ix2 r q) : EReal)
      * ((FloatOps.dotGeneral (F := Ideal) Cert.ReferenceIdeal.dot_S480000x128_S128x128_S480000x128_1_0_0_1_n_n none .single rel Wr (ix2 r q) : EReal)
          + (broadcastInDim Cert.ReferenceIdeal.S480000x128 ![0, 1] Cert.ReferenceIdeal.Facts₀.bcast_S1x128_S480000x128_0_1 b2 (ix2 r q) : EReal)) = _
  rw [spreadAtt_apply, wholeDot_apply, spreadBias_apply]

/-! ## One block against the whole arrays -/

/-- If the four blocks a point reads are the rows o·16000 … o·16000 + 15999 of rel and of the edge attention, the whole of
    Wr and the bias row, then the block's result at entry j is the edge layer of the whole arrays at the entry i that lies
    o·16000 rows further down, in the same column. -/
theorem block_entry (rel : FVec Ideal Cert.ReferenceIdeal.S480000x128 .f32) (Wr : FVec Ideal Cert.ReferenceIdeal.S128x128 .f32)
    (b2 : FVec Ideal Cert.ReferenceIdeal.S1x128 .f32) (ea : FVec Ideal Cert.ReferenceIdeal.S480000x1 .f32)
    (x0 : Vec Ideal S16000x128 .f32) (x1 : Vec Ideal S128x128 .f32) (x2 : Vec Ideal S1x128 .f32) (x3 : Vec Ideal S16000x1 .f32)
    (o : Nat)
    (h0 : ∀ (p : Fin 16000) (k : Fin 128) (r : Fin 480000), r.val = o * 16000 + p.val → x0 (ix2 p k) = rel (ix2 r k))
    (h1 : ∀ (k q : Fin 128), x1 (ix2 k q) = Wr (ix2 k q))
    (h2 : ∀ q : Fin 128, x2 (ix2 (0 : Fin 1) q) = b2 (ix2 (0 : Fin 1) q))
    (h3 : ∀ (p : Fin 16000) (r : Fin 480000), r.val = o * 16000 + p.val → x3 (ix2 p (0 : Fin 1)) = ea (ix2 r (0 : Fin 1)))
    (j : S16000x128.Idx) (i : Cert.ReferenceIdeal.S480000x128.Idx)
    (hi0 : (i 0).val = o * 16000 + (j 0).val) (hi1 : (i 1).val = (j 1).val) :
    k1_pay1 (F := Ideal) x0 x1 x2 x3 j = Cert.ReferenceIdeal.Terms.edgeLin (F := Ideal) rel Wr b2 ea i := by
  obtain ⟨p, q, rfl⟩ : ∃ (p : Fin 16000) (q : Fin 128), j = ix2 p q := ⟨j 0, j 1, eq_ix2 j⟩
  obtain ⟨r, q', rfl⟩ : ∃ (r : Fin 480000) (q' : Fin 128), i = ix2 r q' := ⟨i 0, i 1, eq_ix2 i⟩
  have hr : r.val = o * 16000 + p.val := hi0
  have hq : q = q' := (Fin.ext hi1).symm
  subst hq
  rw [pay_apply, edgeLin_apply, h3 p r hr, h2 q,
    Finset.sum_congr rfl fun k _ => (by rw [h0 p k r hr, h1 k q] : x0 (ix2 p k) * x1 (ix2 k q) = rel (ix2 r k) * Wr (ix2 k q))]

/-! ## From the blocks to the array -/

/-- Offset zero on both axes, as a constant function. -/
theorem zeroOffsets : (![0, 0] : Fin 2 → Nat) = fun _ => 0 := funext fun a => by
  match a with
  | ⟨0, _⟩ => rfl
  | ⟨1, _⟩ => rfl

/-- The block indices of the five windows at grid point t: rel, the edge attention and the result move with t along the
    rows; Wr and the bias row stay whole. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What grid point t writes back is block t of the edge layer of the whole arrays. -/
theorem flushed_eq (V : (c : Dev nD) → (b : Ref sig .tc) → Buf (Elt Ideal) ((c : Thread nD τ).loc b)) (c : Dev nD) (t : Fin cfg1.N) :
    (dat1 (F := Ideal) V c).flushed 4 t = ((cfg1.win 4).blk t).view.read (Elt Ideal)
      (Cert.ReferenceIdeal.Terms.edgeLin (F := Ideal) (V c (Pipeline.arrRef spec1 0)) (V c (Pipeline.arrRef spec1 1))
        (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero zeroOffsets]
  simp only [View.ld_unit_zero (S := S16000x128) zeroOffsets, View.ld_unit_zero (S := S128x128) zeroOffsets,
    View.ld_unit_zero (S := S1x128) zeroOffsets, View.ld_unit_zero (S := S16000x1) zeroOffsets]
  obtain ⟨e00, e01, e10, e11, e20, e21, e30, e31, e40, e41⟩ := blockIndices t
  funext j
  show k1_pay1 (F := Ideal) (iblk1 V c 0 t) (iblk1 V c 1 t) (iblk1 V c 2 t) (iblk1 V c 3 t) j
    = Cert.ReferenceIdeal.Terms.edgeLin (F := Ideal) (V c (Pipeline.arrRef spec1 0)) (V c (Pipeline.arrRef spec1 1))
        (V c (Pipeline.arrRef spec1 2)) (V c (Pipeline.arrRef spec1 3)) (((cfg1.win 4).blk t).view.emb j)
  refine block_entry (V c (Pipeline.arrRef spec1 0)) (V c (Pipeline.arrRef spec1 1)) (V c (Pipeline.arrRef spec1 2))
    (V c (Pipeline.arrRef spec1 3)) (iblk1 V c 0 t) (iblk1 V c 1 t) (iblk1 V c 2 t) (iblk1 V c 3 t) t.val ?_ ?_ ?_ ?_ j
    (((cfg1.win 4).blk t).view.emb j) ?_ ?_
  · intro p k r hr
    show V c (Pipeline.arrRef spec1 0) (((cfg1.win 0).blk t).view.emb (ix2 p k)) = V c (Pipeline.arrRef spec1 0) (ix2 r k)
    refine congrArg (V c (Pipeline.arrRef spec1 0)) (funext fun a => Fin.ext ?_)
    match a with
    | ⟨0, _⟩ => show win1_0.index t (0 : Fin 2) * 16000 + 1 * p.val = r.val; omega
    | ⟨1, _⟩ => show win1_0.index t (1 : Fin 2) * 128 + 1 * k.val = k.val; omega
  · intro k q
    show V c (Pipeline.arrRef spec1 1) (((cfg1.win 1).blk t).view.emb (ix2 k q)) = V c (Pipeline.arrRef spec1 1) (ix2 k q)
    refine congrArg (V c (Pipeline.arrRef spec1 1)) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · intro q
    show V c (Pipeline.arrRef spec1 2) (((cfg1.win 2).blk t).view.emb (ix2 (0 : Fin 1) q)) = V c (Pipeline.arrRef spec1 2) (ix2 (0 : Fin 1) q)
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · intro p r hr
    show V c (Pipeline.arrRef spec1 3) (((cfg1.win 3).blk t).view.emb (ix2 p (0 : Fin 1))) = V c (Pipeline.arrRef spec1 3) (ix2 r (0 : Fin 1))
    refine congrArg (V c (Pipeline.arrRef spec1 3)) (funext fun a => Fin.ext ?_)
    match a with
    | ⟨0, _⟩ => show win1_3.index t (0 : Fin 2) * 16000 + 1 * p.val = r.val; omega
    | ⟨1, _⟩ => show win1_3.index t (1 : Fin 2) * 1 + 1 * 0 = 0; omega
  · show win1_4.index t (0 : Fin 2) * 16000 + 1 * (j 0).val = t.val * 16000 + (j 0).val; omega
  · show win1_4.index t (1 : Fin 2) * 128 + 1 * (j 1).val = (j 1).val; omega

/-- An entry of the result array lies in point t's block exactly when each of its coordinates lies in the block's range. -/
theorem mem_block (t : Fin cfg1.N) (i : S480000x128.Idx) :
    i ∈ ((cfg1.win 4).blk t).view.set ↔ ∀ a : Fin 2, win1_4.index t a * S16000x128.size a ≤ (i a).val ∧ (i a).val < win1_4.index t a * S16000x128.size a + S16000x128.size a := by
  show i ∈ ((View.whole main_v3).slice (win1_4.rect t)).set ↔ _
  rw [View.set_slice_whole, Rect.mem_set_unit]
  exact Iff.rfl

/-- Row r of the result lies in the block of point r / 16000, and that point writes its block back. -/
theorem covered (i : S480000x128.Idx) : ∃ t : Fin cfg1.N, (cfg1.win 4).flush t = true ∧ i ∈ ((cfg1.win 4).blk t).view.set := by
  have hi0 : (i 0).val < 480000 := (i 0).isLt
  have hi1 : (i 1).val < 128 := (i 1).isLt
  have hN : cfg1.N = 30 := N_1
  obtain ⟨t, ht⟩ : ∃ t : Fin cfg1.N, t.val = (i 0).val / 16000 := ⟨⟨(i 0).val / 16000, by rw [hN]; omega⟩, rfl⟩
  obtain ⟨-, -, -, -, -, -, -, -, e40, e41⟩ := blockIndices t
  refine ⟨t, flush1_4 t, ?_⟩
  rw [mem_block]
  intro a
  match a with
  | ⟨0, _⟩ => show win1_4.index t (0 : Fin 2) * 16000 ≤ (i 0).val ∧ (i 0).val < win1_4.index t (0 : Fin 2) * 16000 + 16000; omega
  | ⟨1, _⟩ => show win1_4.index t (1 : Fin 2) * 128 ≤ (i 1).val ∧ (i 1).val < win1_4.index t (1 : Fin 2) * 128 + 128; omega

/-- After the edge layer's region its result array holds the edge attention times (rel·Wr plus the bias row), whatever
    the region finds in its four input arrays. -/
theorem arr1 (V : (c : Dev nD) → (b : Ref sig .tc) → Buf (Elt Ideal) ((c : Thread nD τ).loc b)) (c : Dev nD) :
    (dat1 (F := Ideal) V c).arrAt 4 cfg1.N
      = Cert.ReferenceIdeal.Terms.edgeLin (F := Ideal) (V c (Pipeline.arrRef spec1 0)) (V c (Pipeline.arrRef spec1 1))
          (V c (Pipeline.arrRef spec1 2)) (V c (Pipeline.arrRef spec1 3)) := by
  exact (dat1 (F := Ideal) V c).arrAt_eq_of_cover 4
    (Cert.ReferenceIdeal.Terms.edgeLin (F := Ideal) (V c (Pipeline.arrRef spec1 0)) (V c (Pipeline.arrRef spec1 1))
      (V c (Pipeline.arrRef spec1 2)) (V c (Pipeline.arrRef spec1 3)))
    (fun t _ => flushed_eq V c t) covered

end Cert.KernelIdeal.Region1

end
-- ==== Proof.Region2.lean ====
/-
  The last layer's region, as one function of whole arrays.

  The grid has 15 points; point t works on rows 2000·t … 2000·t + 1999 of the node features and of the two summed
  messages. Its block of the result is the maximum with zero of: the block of the node features times the top weights, plus
  the block of the summed node messages times the middle weights, plus the block of the summed edge messages times the low
  weights, plus the bias row. The 15 blocks are disjoint and cover all 30000 rows.
-/
import proofs.«421375_j21320217657492_1_alg».proof.Proof.Gen.KernelIdeal.Frame
import proofs.«421375_j21320217657492_1_alg».proof.Proof.RTerms
import proofs.«421375_j21320217657492_1_alg».proof.Proof.KTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The body's two kinds of product, at an entry

Each product of the body accumulates into zero, so its entry (p, q) is the plain sum over the contraction coordinate k
of the left block's entry (p, k) times the right matrix's entry (k, q). The four lemmas before each say which
coordinate of an operand's index is the output's and which is the contraction's. -/

theorem lhs_wide_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem lhs_wide_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhs_wide_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhs_wide_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- A 2000×256 block times a 256×512 matrix, into zero: entry (p, q) is the sum over the 256 columns. -/
theorem wide_product (a : FVec Ideal S2000x256 .bf16) (b : FVec Ideal S256x512 .bf16) (p : Fin 2000) (q : Fin 512) :
    matmul dot_S2000x256_S256x512_S2000x512_1_0_0_1_n_n none a b (constant (F := Ideal) S2000x512 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x512_S2000x512_1_0_0_1_n_n 256 rfl rfl).symm]
  refine Finset.sum_congr rfl fun k _ => ?_
  have hk := ValueIdx.contrEquiv1_symm_val dot_S2000x256_S256x512_S2000x512_1_0_0_1_n_n 256 rfl rfl k
  have el : dot_S2000x256_S256x512_S2000x512_1_0_0_1_n_n.lhsIdx (ix2 p q) ((ValueIdx.contrEquiv1 dot_S2000x256_S256x512_S2000x512_1_0_0_1_n_n 256 rfl rfl).symm k) = ix2 p k := funext fun a => Fin.ext (by
    match a with
    | ⟨0, _⟩ => exact lhs_wide_0 _ _
    | ⟨1, _⟩ => exact (lhs_wide_1 _ _).trans hk)
  have er : dot_S2000x256_S256x512_S2000x512_1_0_0_1_n_n.rhsIdx (ix2 p q) ((ValueIdx.contrEquiv1 dot_S2000x256_S256x512_S2000x512_1_0_0_1_n_n 256 rfl rfl).symm k) = ix2 k q := funext fun a => Fin.ext (by
    match a with
    | ⟨0, _⟩ => exact (rhs_wide_0 _ _).trans hk
    | ⟨1, _⟩ => exact rhs_wide_1 _ _)
  rw [el, er]

theorem lhs_narrow_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs_narrow_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs_narrow_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs_narrow_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- A 2000×128 block times a 128×512 matrix, into zero: entry (p, q) is the sum over the 128 columns. -/
theorem narrow_product (a : FVec Ideal S2000x128 .bf16) (b : FVec Ideal S128x512 .bf16) (p : Fin 2000) (q : Fin 512) :
    matmul dot_S2000x128_S128x512_S2000x512_1_0_0_1_n_n none a b (constant (F := Ideal) S2000x512 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x512_S2000x512_1_0_0_1_n_n 128 rfl rfl).symm]
  refine Finset.sum_congr rfl fun k _ => ?_
  have hk := ValueIdx.contrEquiv1_symm_val dot_S2000x128_S128x512_S2000x512_1_0_0_1_n_n 128 rfl rfl k
  have el : dot_S2000x128_S128x512_S2000x512_1_0_0_1_n_n.lhsIdx (ix2 p q) ((ValueIdx.contrEquiv1 dot_S2000x128_S128x512_S2000x512_1_0_0_1_n_n 128 rfl rfl).symm k) = ix2 p k := funext fun a => Fin.ext (by
    match a with
    | ⟨0, _⟩ => exact lhs_narrow_0 _ _
    | ⟨1, _⟩ => exact (lhs_narrow_1 _ _).trans hk)
  have er : dot_S2000x128_S128x512_S2000x512_1_0_0_1_n_n.rhsIdx (ix2 p q) ((ValueIdx.contrEquiv1 dot_S2000x128_S128x512_S2000x512_1_0_0_1_n_n 128 rfl rfl).symm k) = ix2 k q := funext fun a => Fin.ext (by
    match a with
    | ⟨0, _⟩ => exact (rhs_narrow_0 _ _).trans hk
    | ⟨1, _⟩ => exact rhs_narrow_1 _ _)
  rw [el, er]

/-! ## The body's result at an entry -/

/-- What the body stores at entry (p, q) of its block: the three products' entries added, plus the bias row's entry q,
    and the maximum of that with zero. Changes of float format and casts to the same shape do nothing to the values. -/
theorem body_apply (x0 x1 : Vec Ideal S2000x256 .f32) (x2 : Vec Ideal S2000x128 .f32) (w1 w2 : Vec Ideal S256x512 .f32)
    (w3 : Vec Ideal S128x512 .f32) (b2 : Vec Ideal S1x512 .f32) (p : Fin 2000) (q : Fin 512) :
    k2_pay1 (F := Ideal) x0 w1 x1 w2 x2 w3 b2 (ix2 p q)
      = max ((((∑ k : Fin 256, x0 (ix2 p k) * w1 (ix2 k q)) + ∑ k : Fin 256, x1 (ix2 p k) * w2 (ix2 k q))
          + ∑ k : Fin 128, x2 (ix2 p k) * w3 (ix2 k q)) + b2 (ix2 (0 : Fin 1) q)) (Ideal.ofBits .f32 0x00000000#32) := by
  unfold k2_pay1
  simp only [shapeCast_self]
  rw [maximumf_apply, addf_apply, addf_apply, addf_apply, broadcast_apply, wide_product, wide_product, narrow_product,
    broadcastTo_1b_ab_apply]
  rfl

/-! ## One grid point's block -/

/-- The same, read against whole arrays. If the three row blocks hold row r of the node features and of the two summed
    messages where they hold their own row p, and the four whole windows hold the weights and the bias row themselves,
    then the body's entry (p, q) is entry (r, q) of `outRows`. -/
theorem body_eq_outRows (h2 s1 : FVec Ideal S30000x256 .f32) (s2 : FVec Ideal S30000x128 .f32) (w1 w2 : FVec Ideal S256x512 .f32)
    (w3 : FVec Ideal S128x512 .f32) (b2 : FVec Ideal S1x512 .f32)
    (x0 x1 : Vec Ideal S2000x256 .f32) (x2 : Vec Ideal S2000x128 .f32) (x3 x4 : Vec Ideal S256x512 .f32)
    (x5 : Vec Ideal S128x512 .f32) (x6 : Vec Ideal S1x512 .f32) (p : Fin 2000) (q : Fin 512) (r : Fin 30000)
    (e0 : ∀ k : Fin 256, x0 (ix2 p k) = h2 (ix2 r k)) (e1 : ∀ k : Fin 256, x1 (ix2 p k) = s1 (ix2 r k))
    (e2 : ∀ k : Fin 128, x2 (ix2 p k) = s2 (ix2 r k)) (e3 : x3 = w1) (e4 : x4 = w2) (e5 : x5 = w3) (e6 : x6 = b2) :
    k2_pay1 (F := Ideal) x0 x3 x1 x4 x2 x5 x6 (ix2 p q) = Cert.KernelIdeal.Terms.outRows h2 s1 s2 w1 w2 w3 b2 (ix2 r q) := by
  subst e3 e4 e5 e6
  rw [body_apply]
  show _ = max ((((∑ k : Fin 256, h2 (ix2 r k) * x3 (ix2 k q)) + ∑ k : Fin 256, s1 (ix2 r k) * x4 (ix2 k q))
      + ∑ k : Fin 128, s2 (ix2 r k) * x5 (ix2 k q)) + x6 (ix2 (0 : Fin 1) q)) (Ideal.ofBits .f32 0x00000000#32)
  simp only [e0, e1, e2]

theorem zeros2 : (![0, 0] : Fin 2 → Nat) = fun _ => 0 := funext fun a => by fin_cases a <;> rfl

/-- The windows' index maps, decided over the 15 grid points. Each row-blocked input sits at the output's block row, block
    column zero; -/
theorem index0 : ∀ t : Fin cfg2.N, win2_0.index t (0 : Fin 2) = win2_7.index t (0 : Fin 2) ∧ win2_0.index t (1 : Fin 2) = 0 :=
  (by decide +kernel : ∀ t : Fin grid2.N, _)
theorem index1 : ∀ t : Fin cfg2.N, win2_1.index t (0 : Fin 2) = win2_7.index t (0 : Fin 2) ∧ win2_1.index t (1 : Fin 2) = 0 :=
  (by decide +kernel : ∀ t : Fin grid2.N, _)
theorem index2 : ∀ t : Fin cfg2.N, win2_2.index t (0 : Fin 2) = win2_7.index t (0 : Fin 2) ∧ win2_2.index t (1 : Fin 2) = 0 :=
  (by decide +kernel : ∀ t : Fin grid2.N, _)
/-- the weights and the bias row are single blocks at index zero; -/
theorem index3 : ∀ t : Fin cfg2.N, win2_3.index t (0 : Fin 2) = 0 ∧ win2_3.index t (1 : Fin 2) = 0 :=
  (by decide +kernel : ∀ t : Fin grid2.N, _)
theorem index4 : ∀ t : Fin cfg2.N, win2_4.index t (0 : Fin 2) = 0 ∧ win2_4.index t (1 : Fin 2) = 0 :=
  (by decide +kernel : ∀ t : Fin grid2.N, _)
theorem index5 : ∀ t : Fin cfg2.N, win2_5.index t (0 : Fin 2) = 0 ∧ win2_5.index t (1 : Fin 2) = 0 :=
  (by decide +kernel : ∀ t : Fin grid2.N, _)
theorem index6 : ∀ t : Fin cfg2.N, win2_6.index t (0 : Fin 2) = 0 ∧ win2_6.index t (1 : Fin 2) = 0 :=
  (by decide +kernel : ∀ t : Fin grid2.N, _)
/-- the output's block row is at most 14 and its block column is zero. -/
theorem index7 : ∀ t : Fin cfg2.N, win2_7.index t (0 : Fin 2) ≤ 14 ∧ win2_7.index t (1 : Fin 2) = 0 :=
  (by decide +kernel : ∀ t : Fin grid2.N, _)

/-- Every block row 0 … 14 is some grid point's. -/
theorem index_onto : ∀ n : Fin 15, ∃ t : Fin cfg2.N, win2_7.index t = ![n.val, 0] :=
  (by decide +kernel : ∀ n : Fin 15, ∃ t : Fin grid2.N, win2_7.index t = ![n.val, 0])

/-! ## Where a block's entries sit in its array

A block's entry sits, on each axis, at the block index times the block's extent plus the entry's own coordinate. The
three row-blocked inputs share the output's block row and have block column zero; the weights and the bias row are
single blocks at index zero. -/

/-- Entry (p, k) of the node features' block at grid point t is entry (r, k) of the array, r the block row · 2000 + p. -/
theorem rows0 (V : (c : Dev nD) → (b : Ref sig .tc) → Buf (Elt Ideal) ((c : Thread nD τ).loc b)) (c : Dev nD)
    (t : Fin cfg2.N) (p : Fin 2000) (k : Fin 256) (r : Fin 30000)
    (hr : r.val = win2_7.index t (0 : Fin 2) * 2000 + p.val) :
    iblk2 V c 0 t (ix2 p k) = V c (Pipeline.arrRef spec2 0) (ix2 r k) := by
  obtain ⟨f, f'⟩ := index0 t
  show V c (Pipeline.arrRef spec2 0) (((cfg2.win 0).blk t).view.emb (ix2 p k)) = _
  refine congrArg _ (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- Entry (p, k) of the summed node messages' block at grid point t is entry (r, k) of the array, r the block row · 2000 + p. -/
theorem rows1 (V : (c : Dev nD) → (b : Ref sig .tc) → Buf (Elt Ideal) ((c : Thread nD τ).loc b)) (c : Dev nD)
    (t : Fin cfg2.N) (p : Fin 2000) (k : Fin 256) (r : Fin 30000)
    (hr : r.val = win2_7.index t (0 : Fin 2) * 2000 + p.val) :
    iblk2 V c 1 t (ix2 p k) = V c (Pipeline.arrRef spec2 1) (ix2 r k) := by
  obtain ⟨f, f'⟩ := index1 t
  show V c (Pipeline.arrRef spec2 1) (((cfg2.win 1).blk t).view.emb (ix2 p k)) = _
  refine congrArg _ (funext fun a => Fin.ext ?_)
  match a with
  | ⟨0, _⟩ => show win2_1.index t (0 : Fin 2) * 2000 + 1 * p.val = r.val; omega
  | ⟨1, _⟩ => show win2_1.index t (1 : Fin 2) * 256 + 1 * k.val = k.val; omega

/-- Entry (p, k) of the summed edge messages' block at grid point t is entry (r, k) of the array, r the block row · 2000 + p. -/
theorem rows2 (V : (c : Dev nD) → (b : Ref sig .tc) → Buf (Elt Ideal) ((c : Thread nD τ).loc b)) (c : Dev nD)
    (t : Fin cfg2.N) (p : Fin 2000) (k : Fin 128) (r : Fin 30000)
    (hr : r.val = win2_7.index t (0 : Fin 2) * 2000 + p.val) :
    iblk2 V c 2 t (ix2 p k) = V c (Pipeline.arrRef spec2 2) (ix2 r k) := by
  obtain ⟨f, f'⟩ := index2 t
  show V c (Pipeline.arrRef spec2 2) (((cfg2.win 2).blk t).view.emb (ix2 p k)) = _
  refine congrArg _ (funext fun a => Fin.ext ?_)
  match a with
  | ⟨0, _⟩ => show win2_2.index t (0 : Fin 2) * 2000 + 1 * p.val = r.val; omega
  | ⟨1, _⟩ => show win2_2.index t (1 : Fin 2) * 128 + 1 * k.val = k.val; omega

/-- The block of the top weights at any grid point is the whole array. -/
theorem whole3 (V : (c : Dev nD) → (b : Ref sig .tc) → Buf (Elt Ideal) ((c : Thread nD τ).loc b)) (c : Dev nD)
    (t : Fin cfg2.N) : iblk2 V c 3 t = V c (Pipeline.arrRef spec2 3) := funext fun y => by
  obtain ⟨f, f'⟩ := index3 t
  show V c (Pipeline.arrRef spec2 3) (((cfg2.win 3).blk t).view.emb y) = _
  refine congrArg _ (funext fun a => Fin.ext ?_)
  match a with
  | ⟨0, _⟩ => show win2_3.index t (0 : Fin 2) * 256 + 1 * (y 0).val = (y 0).val; omega
  | ⟨1, _⟩ => show win2_3.index t (1 : Fin 2) * 512 + 1 * (y 1).val = (y 1).val; omega

/-- The block of the middle weights at any grid point is the whole array. -/
theorem whole4 (V : (c : Dev nD) → (b : Ref sig .tc) → Buf (Elt Ideal) ((c : Thread nD τ).loc b)) (c : Dev nD)
    (t : Fin cfg2.N) : iblk2 V c 4 t = V c (Pipeline.arrRef spec2 4) := funext fun y => by
  obtain ⟨f, f'⟩ := index4 t
  show V c (Pipeline.arrRef spec2 4) (((cfg2.win 4).blk t).view.emb y) = _
  refine congrArg _ (funext fun a => Fin.ext ?_)
  match a with
  | ⟨0, _⟩ => show win2_4.index t (0 : Fin 2) * 256 + 1 * (y 0).val = (y 0).val; omega
  | ⟨1, _⟩ => show win2_4.index t (1 : Fin 2) * 512 + 1 * (y 1).val = (y 1).val; omega

/-- The block of the low weights at any grid point is the whole array. -/
theorem whole5 (V : (c : Dev nD) → (b : Ref sig .tc) → Buf (Elt Ideal) ((c : Thread nD τ).loc b)) (c : Dev nD)
    (t : Fin cfg2.N) : iblk2 V c 5 t = V c (Pipeline.arrRef spec2 5) := funext fun y => by
  obtain ⟨f, f'⟩ := index5 t
  show V c (Pipeline.arrRef spec2 5) (((cfg2.win 5).blk t).view.emb y) = _
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 512 + 1 * (y 1).val = (y 1).val; omega

/-- The block of the bias row at any grid point is the whole array. -/
theorem whole6 (V : (c : Dev nD) → (b : Ref sig .tc) → Buf (Elt Ideal) ((c : Thread nD τ).loc b)) (c : Dev nD)
    (t : Fin cfg2.N) : iblk2 V c 6 t = V c (Pipeline.arrRef spec2 6) := funext fun y => by
  obtain ⟨f, f'⟩ := index6 t
  show V c (Pipeline.arrRef spec2 6) (((cfg2.win 6).blk t).view.emb y) = _
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 512 + 1 * (y 1).val = (y 1).val; omega

/-- Entry (p, q) of the result's block at grid point t is entry (r, q) of the result array, r the block row · 2000 + p. -/
theorem out_row (t : Fin cfg2.N) (p : Fin 2000) (q : Fin 512) (r : Fin 30000)
    (hr : r.val = win2_7.index t (0 : Fin 2) * 2000 + p.val) :
    ((cfg2.win 7).blk t).view.emb (ix2 p q) = ix2 r q := funext fun a => Fin.ext (by
  obtain ⟨f, f'⟩ := index7 t
  match a with
  | ⟨0, _⟩ => show win2_7.index t (0 : Fin 2) * 2000 + 1 * p.val = r.val; omega
  | ⟨1, _⟩ => show win2_7.index t (1 : Fin 2) * 512 + 1 * q.val = q.val; omega)

/-! ## What a grid point writes back -/

/-- The body's one store covers its whole block, and every load reads a whole block: what the body leaves in the output
    window's buffer at grid point t is its result on the seven input blocks at t. -/
theorem after_eq (V : (c : Dev nD) → (b : Ref sig .tc) → Buf (Elt Ideal) ((c : Thread nD τ).loc b)) (c : Dev nD)
    (t : Fin cfg2.N) :
    (dat2 (F := Ideal) V c).after 7 t = k2_pay1 (F := Ideal) (iblk2 V c 0 t) (iblk2 V c 3 t) (iblk2 V c 1 t) (iblk2 V c 4 t) (iblk2 V c 2 t) (iblk2 V c 5 t) (iblk2 V c 6 t) := by
  rw [after2_7]
  unfold out2_7
  rw [View.canon_unit_zero zeros2]
  simp only [View.ld_unit_zero (S := S2000x256) zeros2, View.ld_unit_zero (S := S2000x128) zeros2,
    View.ld_unit_zero (S := S256x512) zeros2, View.ld_unit_zero (S := S128x512) zeros2,
    View.ld_unit_zero (S := S1x512) zeros2]

/-- A block X that agrees with an array G row by row (its row p with the array's row block row · 2000 + p) is, as
    written back at grid point t, the block of G read at t. -/
theorem cut_eq_read (t : Fin cfg2.N) (X : Vec Ideal S2000x512 .f32) (G : FVec Ideal S30000x512 .f32)
    (h : ∀ (p : Fin 2000) (q : Fin 512) (r : Fin 30000),
      r.val = win2_7.index t (0 : Fin 2) * 2000 + p.val → X (ix2 p q) = G (ix2 r q)) :
    (cfg2.win 7).cut (grid2.coords t) X = ((cfg2.win 7).blk t).view.read (Elt Ideal) G := by
  obtain ⟨f7, -⟩ := index7 t
  funext j
  obtain ⟨p, q, rfl⟩ : ∃ (p : Fin 2000) (q : Fin 512), j = ix2 p q := ⟨j 0, j 1, eq_ix2 j⟩
  have hp : p.val < 2000 := p.isLt
  obtain ⟨r, hr⟩ : ∃ r : Fin 30000, r.val = win2_7.index t (0 : Fin 2) * 2000 + p.val := by
    generalize win2_7.index t (0 : Fin 2) = n at f7 ⊢
    exact ⟨⟨n * 2000 + p.val, by omega⟩, rfl⟩
  show X (ix2 p q) = G (((cfg2.win 7).blk t).view.emb (ix2 p q))
  rw [out_row t p q r hr]
  exact h p q r hr

/-- What grid point t writes back is its block of `outRows` of the seven input arrays. -/
theorem flushed_eq (V : (c : Dev nD) → (b : Ref sig .tc) → Buf (Elt Ideal) ((c : Thread nD τ).loc b)) (c : Dev nD)
    (t : Fin cfg2.N) :
    (dat2 (F := Ideal) V c).flushed 7 t
      = ((cfg2.win 7).blk t).view.read (Elt Ideal) (Cert.KernelIdeal.Terms.outRows (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 (F := Ideal) V c).after 7 t) = _
  rw [after_eq]
  exact cut_eq_read t _ _ fun p q r hr => body_eq_outRows (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))
    (iblk2 V c 0 t) (iblk2 V c 1 t) (iblk2 V c 2 t) (iblk2 V c 3 t) (iblk2 V c 4 t) (iblk2 V c 5 t) (iblk2 V c 6 t)
    p q r (fun k => rows0 V c t p k r hr) (fun k => rows1 V c t p k r hr) (fun k => rows2 V c t p k r hr)
    (whole3 V c t) (whole4 V c t) (whole5 V c t) (whole6 V c t)

/-! ## The 15 blocks cover the array -/

/-- An entry of the result array lies in grid point t's block exactly when each coordinate lies in the block's range. -/
theorem mem_block (t : Fin cfg2.N) (i : S30000x512.Idx) :
    i ∈ ((cfg2.win 7).blk t).view.set ↔ ∀ a : Fin 2, win2_7.index t a * S2000x512.size a ≤ (i a).val
      ∧ (i a).val < win2_7.index t a * S2000x512.size a + S2000x512.size a := by
  show i ∈ ((View.whole main_v23).slice (win2_7.rect t)).set ↔ _
  rw [View.set_slice_whole, Rect.mem_set_unit]
  exact Iff.rfl

/-- Row i of the result lies in the block of the grid point whose block row is i / 2000, and that point writes back. -/
theorem covered (i : S30000x512.Idx) :
    ∃ t : Fin cfg2.N, (cfg2.win 7).flush t = true ∧ i ∈ ((cfg2.win 7).blk t).view.set := by
  have hi0 : (i 0).val < 30000 := (i 0).isLt
  have hi1 : (i 1).val < 512 := (i 1).isLt
  obtain ⟨t, ht⟩ := index_onto ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_block]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 512 ≤ (i 1).val ∧ (i 1).val < win2_7.index t (1 : Fin 2) * 512 + 512; omega

/-! ## The array after the region -/

/-- After the last layer's region its result array holds `outRows` of what the region finds in its seven input arrays. -/
theorem arr2 (V : (c : Dev nD) → (b : Ref sig .tc) → Buf (Elt Ideal) ((c : Thread nD τ).loc b)) (c : Dev nD) :
    (dat2 (F := Ideal) V c).arrAt 7 cfg2.N
      = Cert.KernelIdeal.Terms.outRows (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) (V c (Pipeline.arrRef spec2 6)) := by
  exact (dat2 (F := Ideal) V c).arrAt_eq_of_cover 7 _ (fun t _ => flushed_eq V c t) covered

end Cert.KernelIdeal.Region2

end
-- ==== Proof.Pre.lean ====
/-
  The index inputs lie among the rows.

  The precondition is a chain of conjunctions, one per input. Its last two say of src and of dst that every entry is at
  least 0 and below 30000 (a comparison per entry, the two comparisons joined by "and", and the whole joined over all
  480000 entries). Read back, every entry of src and of dst, as a signed number, lies in 0 … 29999.
-/
import proofs.«421375_j21320217657492_1_alg».proof.Defs
import proofs.«421375_j21320217657492_1_alg».proof.Proof.Gen.Pre_finite_inputs
import Idealize.ShloMosaic.Lib.ReduceAll
import Idealize.ShloMosaic.Lib.StableHlo.Predicate

set_option maxRecDepth 16384

noncomputable section

namespace Cert.PreRange

open Cert.KernelIdeal Idealize.ShloMosaic Idealize.ShloMosaic.TcCoe Idealize.SL.Sem

/-- The rank-0 result of the precondition has one index. -/
instance : Subsingleton Cert.Pre_finite_inputs.S_.Idx := ⟨fun a b => funext fun d => d.elim0⟩

section Decode

variable {F : FTy → Type} [FloatOps F]

/-- A word that tests "at least 0" and "below 30000", both signed, lies in 0 … 29999 as a signed number. -/
theorem range_of_tests {w : BitVec 32} (h0 : IntOp.cmpi .sge w 0#32 = 1#1) (h1 : IntOp.cmpi .slt w 30000#32 = 1#1) :
    0 ≤ w.toInt ∧ w.toInt < 30000 := by
  have a := IntOp.cmpi_sge.1 h0
  have b := IntOp.cmpi_slt.1 h1
  rw [show (0#32 : BitVec 32).toInt = 0 from by decide] at a
  rw [show (30000#32 : BitVec 32).toInt = 30000 from by decide] at b
  exact ⟨a, b⟩

/-- The last part of the chain is 1: its last conjunct is the "and" over all entries of dst of the two tests. -/
theorem part3_dst (a10 a11 : IVec Cert.Pre_finite_inputs.S480000 32) (v48 : IVec Cert.Pre_finite_inputs.S_ 1)
    (v50 : IVec Cert.Pre_finite_inputs.S480000 1) (j : Cert.Pre_finite_inputs.S_.Idx)
    (e : Cert.Pre_finite_inputs.fn_part3 (F := F) a10 a11 v48 v50 j = 1#1) (i : Cert.Pre_finite_inputs.S480000.Idx) :
    0 ≤ (a11 i).toInt ∧ (a11 i).toInt < 30000 := by
  unfold Cert.Pre_finite_inputs.fn_part3 at e
  have e1 := (IntOp.andi_eq_one.1 e).2
  have e2 := Host.reduce_andi_all _ _ _ _ j e1 i
  have e3 := IntOp.andi_eq_one.1 e2
  exact range_of_tests e3.1 e3.2

/-- The conjunct before it is the same "and" over all entries of src; its first test comes in from the part before. -/
theorem part3_src (a10 a11 : IVec Cert.Pre_finite_inputs.S480000 32) (v48 : IVec Cert.Pre_finite_inputs.S_ 1)
    (v50 : IVec Cert.Pre_finite_inputs.S480000 1) (j : Cert.Pre_finite_inputs.S_.Idx)
    (e : Cert.Pre_finite_inputs.fn_part3 (F := F) a10 a11 v48 v50 j = 1#1) (i : Cert.Pre_finite_inputs.S480000.Idx) :
    v50 i = 1#1 ∧ IntOp.cmpi .slt (a10 i) 30000#32 = 1#1 := by
  unfold Cert.Pre_finite_inputs.fn_part3 at e
  have e1 := (IntOp.andi_eq_one.1 (IntOp.andi_eq_one.1 e).1).2
  have e2 := Host.reduce_andi_all _ _ _ _ j e1 i
  exact IntOp.andi_eq_one.1 e2

end Decode

/-- Under the precondition every entry of src lies in 0 … 29999. -/
theorem src_range (m : (ℓ : Loc nD τ sig) → Buf (Elt Ideal) ℓ) (h : Cert.Pre_KernelIdeal m) (c : Dev nD) (e : S480000.Idx) :
    0 ≤ ((m ((c.tc : Thread nD τ).loc main_arg10) : IVec S480000 32) e).toInt
      ∧ ((m ((c.tc : Thread nD τ).loc main_arg10) : IVec S480000 32) e).toInt < 30000 := by
  have p := congrFun (h c) (fun d => d.elim0)
  unfold Cert.Pre_finite_inputs.fn Cert.Pre_finite_inputs.fn_part1 Cert.Pre_finite_inputs.fn_part2 at p
  have q := part3_src (F := Ideal) _ _ _ _ _ p e
  exact range_of_tests q.1 q.2

/-- Under the precondition every entry of dst lies in 0 … 29999. -/
theorem dst_range (m : (ℓ : Loc nD τ sig) → Buf (Elt Ideal) ℓ) (h : Cert.Pre_KernelIdeal m) (c : Dev nD) (e : S480000.Idx) :
    0 ≤ ((m ((c.tc : Thread nD τ).loc main_arg11) : IVec S480000 32) e).toInt
      ∧ ((m ((c.tc : Thread nD τ).loc main_arg11) : IVec S480000 32) e).toInt < 30000 := by
  have p := congrFun (h c) (fun d => d.elim0)
  unfold Cert.Pre_finite_inputs.fn Cert.Pre_finite_inputs.fn_part1 Cert.Pre_finite_inputs.fn_part2 at p
  exact part3_dst (F := Ideal) _ _ _ _ _ p e

end Cert.PreRange

end
-- ==== Proof.Take.lean ====
/-
  With every index among the rows, the kernel's row fetch is the bare fetch.

  An index in 0 … 29999 is not negative, so wrapping leaves it as it is; it is then at least 0 and at most 29999, so both
  comparisons hold, their "and" over the one column holds, and the select keeps the fetched row everywhere: the fill word
  is never used.
-/
import proofs.«421375_j21320217657492_1_alg».proof.Proof.KTerms
import Idealize.ShloMosaic.Lib.StableHlo.Predicate
import Idealize.ShloMosaic.Lib.ValueIdx
import Idealize.ShloMosaic.Lib.ReduceAll

set_option maxRecDepth 16384

noncomputable section

namespace Cert.KernelIdeal.Terms

open Cert.KernelIdeal Idealize.ShloMosaic Idealize.ShloMosaic.ValueIdx

variable {F : FTy → Type} [FloatOps F] [Facts₀]
open Facts₀

/-- A left fold by "and" that starts at 1 and meets only 1s ends at 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_ones f l fun n hn => h n (List.mem_cons_of_mem _ hn)

/-- An "and" over some of the axes of an array that is 1 everywhere, started at 1, is 1 everywhere. -/
theorem reduce_andi_ones {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1)
    (j : t.Idx) : Host.reduce IntOp.andi x init hr hu j = 1#1 := by
  rw [Host.reduce_eq_foldl, hinit]
  exact foldl_andi_ones x _ fun i _ => hx i

/-- An index that is not negative is left as it is by the wrapping: row e of the one-column matrix is entry e. -/
theorem wrapped_apply (idx : IVec S480000 32) (h : ∀ e, 0 ≤ (idx e).toInt) (p : S480000x1.Idx) :
    wrapped idx p = idx (ix1 (p 0)) := by
  have hk : ∀ k : S480000.Idx,
      Scalar.select (IntOp.cmpi .slt (idx k) 0#32) (IntOp.addi (idx k) 30000#32) (idx k) = idx k := fun k => by
    refine if_neg fun c => ?_
    have c' := IntOp.cmpi_slt.1 c
    rw [show (0#32 : BitVec 32).toInt = 0 from by decide] at c'
    have := h k
    omega
  show Scalar.select (IntOp.cmpi .slt (idx _) 0#32) (IntOp.addi (idx _) 30000#32) (idx _) = idx (ix1 (p 0))
  rw [hk]
  congr 1
  funext a
  match a with
  | ⟨0, _⟩ => rfl

/-- With every index in 0 … 29999 the range test holds at every edge. -/
theorem inRows_eq_one (idx : IVec S480000 32) (h : ∀ e, 0 ≤ (idx e).toInt ∧ (idx e).toInt < 30000) (e : S480000.Idx) :
    inRows idx e = 1#1 := by
  unfold inRows
  refine reduce_andi_ones _ _ _ _ rfl (fun p => ?_) e
  show IntOp.andi (IntOp.cmpi .sge (wrapped idx p) 0#32) (IntOp.cmpi .sle (wrapped idx p) 29999#32) = 1#1
  rw [wrapped_apply idx (fun e => (h e).1) p]
  have hp := h (ix1 (p 0))
  refine IntOp.andi_eq_one.2 ⟨IntOp.cmpi_sge.2 ?_, IntOp.cmpi_sle.2 ?_⟩
  · rw [show (0#32 : BitVec 32).toInt = 0 from by decide]; exact hp.1
  · rw [show (29999#32 : BitVec 32).toInt = 29999 from by decide]; omega

/-- With every index in 0 … 29999 the kernel's fetch of 256-wide rows is the bare fetch. -/
theorem takeWide_eq (x : FVec F S30000x256 .f32) (idx : IVec S480000 32)
    (h : ∀ e, 0 ≤ (idx e).toInt ∧ (idx e).toInt < 30000) : takeWide x idx = gatherWide x idx := by
  funext i
  unfold takeWide
  rw [select_apply]
  have hc : broadcastInDim S480000x256 ![0] bcast_S480000_S480000x256_0 (inRows idx) i = 1#1 :=
    inRows_eq_one idx h _
  rw [hc]
  exact select_one _ _

/-- With every index in 0 … 29999 the kernel's fetch of one-wide rows is the bare fetch. -/
theorem takeCol_eq (x : FVec F S30000x1 .f32) (idx : IVec S480000 32)
    (h : ∀ e, 0 ≤ (idx e).toInt ∧ (idx e).toInt < 30000) : takeCol x idx = gatherCol x idx := by
  funext i
  unfold takeCol
  rw [select_apply]
  have hc : broadcastInDim S480000x1 ![0] bcast_S480000_S480000x1_0 (inRows idx) i = 1#1 :=
    inRows_eq_one idx h _
  rw [hc]
  exact select_one _ _

/-- With src and dst in 0 … 29999 the node message over the kernel's fetches is the one over the bare fetches. -/
theorem nodeMsg_eq (h2 : FVec F S30000x256 .f32) (na : FVec F S30000x1 .f32) (src dst : IVec S480000 32)
    (hs : ∀ e, 0 ≤ (src e).toInt ∧ (src e).toInt < 30000) (hd : ∀ e, 0 ≤ (dst e).toInt ∧ (dst e).toInt < 30000) :
    nodeMsg h2 na src dst = nodeMsgG h2 na src dst := by
  unfold nodeMsg nodeMsgG
  rw [takeWide_eq h2 src hs, takeWide_eq h2 dst hd, takeCol_eq na src hs, takeCol_eq na dst hd]

end Cert.KernelIdeal.Terms

end
-- ==== Proof.SegSplit.lean ====
/-
  Adding joined rows into destination rows is adding each part's rows.

  The sum over destination nodes puts, at row n and column k of the result, zero plus the sum of entry (e, k) of the
  updates over all edges e whose destination is n (an edge whose destination is no row contributes nothing). The updates
  being two arrays side by side, 256 and 128 columns, column k of the join is column k of the first for k < 256 and column
  k − 256 of the second otherwise; the edges summed over are the same. So the left 256 columns of the sum of the join
  are the sum of the first part, and the right 128 columns the sum of the second.
-/
import proofs.«421375_j21320217657492_1_alg».proof.Proof.KTerms
import proofs.«421375_j21320217657492_1_alg».proof.Proof.RTerms
import Idealize.ShloMosaic.Lib.ValueIdx
import Idealize.ShloMosaic.Lib.Pipeline.Value
import Idealize.ShloMosaic.PureOps.Ideal.Laws

set_option maxRecDepth 16384

noncomputable section

namespace Cert.SegSplit

open Idealize.ShloMosaic Idealize.ShloMosaic.ValueIdx

/-! ## Where a row-scatter's update lands

  The three scatters of the two programs have one form: the operand is N rows of C columns, the updates are E rows of C
  columns, and the scatter indices are one column of E row numbers. Update entry (e, c) is sent to row (number e of the
  indices, read signed) and column c, and is dropped when that row is not one of 0 … N − 1. -/
section rows

variable {N E C w : Nat}
  (wf : ScatterDims.WF (⟨2, ![N, C]⟩ : Shape) ⟨2, ![E, 1]⟩ ⟨2, ![E, C]⟩ [1] [0] [0] 1)

/-- The dimension numbers of a row-scatter: the updates' columns are the window, the operand's row axis is the one the
    index names, and the index vector lies along the indices' second axis. -/
abbrev rowScatter : ScatterDims (⟨2, ![N, C]⟩ : Shape) ⟨2, ![E, 1]⟩ ⟨2, ![E, C]⟩ := ⟨[1], [0], [0], 1, wf⟩

/-- On the row axis the window coordinate is zero: the row axis is the inserted one. -/
theorem window_row (j : (⟨2, ![E, C]⟩ : Shape).Idx) : (rowScatter wf).window j 0 = 0 := by
  have h : ¬ ((0 : Fin (⟨2, ![N, C]⟩ : Shape).rank) ∈ (rowScatter wf).sKept) := by
    show ¬ ((0 : Fin 2) ∈ ([1] : List (Fin 2))); decide
  unfold ScatterDims.window
  rw [dif_neg h]

/-- On the column axis the window coordinate is the update's column. -/
theorem window_col (j : (⟨2, ![E, C]⟩ : Shape).Idx) : (rowScatter wf).window j 1 = (j 1).val := by
  have h : (1 : Fin (⟨2, ![N, C]⟩ : Shape).rank) ∈ (rowScatter wf).sKept := by
    show (1 : Fin 2) ∈ ([1] : List (Fin 2)); decide
  unfold ScatterDims.window
  rw [dif_pos h]
  rfl

/-- On the column axis the window starts at zero: the index names no column. -/
theorem start_col (j : (⟨2, ![E, C]⟩ : Shape).Idx) (idx : IVec (⟨2, ![E, 1]⟩ : Shape) w) :
    (rowScatter wf).start j idx 1 = 0 := by
  unfold ScatterDims.start
  rw [dif_neg (show (1 : Fin 2) ∉ ([0] : List (Fin 2)) by decide)]

/-- On the row axis the window starts at the row number the indices hold for the update's row, read signed. -/
theorem start_row (j : (⟨2, ![E, C]⟩ : Shape).Idx) (idx : IVec (⟨2, ![E, 1]⟩ : Shape) w) :
    (rowScatter wf).start j idx 0 = (idx (ix2 (j 0) 0)).toInt := by
  unfold ScatterDims.start
  rw [dif_pos (show (0 : Fin 2) ∈ ([0] : List (Fin 2)) by decide)]
  congr 2
  funext b
  match b with
  | ⟨0, _⟩ => rfl
  | ⟨1, _⟩ => rfl

/-- Update entry j lands at operand entry i exactly when the row number held for j's row, read signed, is i's row and
    j's column is i's column. (i's row being one of 0 … N − 1, a row number outside that range lands nowhere.) -/
theorem resultIdx?_iff (j : (⟨2, ![E, C]⟩ : Shape).Idx) (idx : IVec (⟨2, ![E, 1]⟩ : Shape) w)
    (i : (⟨2, ![N, C]⟩ : Shape).Idx) :
    (rowScatter wf).resultIdx? j idx = some i
      ↔ (idx (ix2 (j 0) 0)).toInt = ((i 0).val : ℤ) ∧ (j 1).val = (i 1).val := by
  have hi0 : (i 0).val < N := idx2_lt0 i
  have hi1 : (i 1).val < C := idx2_lt1 i
  unfold ScatterDims.resultIdx?
  constructor
  · intro h
    by_cases hc : ∀ a, 0 ≤ (rowScatter wf).start j idx a + (rowScatter wf).window j a ∧
        (rowScatter wf).start j idx a + (rowScatter wf).window j a < (⟨2, ![N, C]⟩ : Shape).size a
    · -- the update lands inside: its landing place is i, coordinate by coordinate
      rw [dif_pos hc] at h
      have h' := Option.some.inj h
      have e0 : ((rowScatter wf).start j idx 0 + (rowScatter wf).window j 0).toNat = (i 0).val :=
        congrArg (fun f => (f 0).val) h'
      have e1 : ((rowScatter wf).start j idx 1 + (rowScatter wf).window j 1).toNat = (i 1).val :=
        congrArg (fun f => (f 1).val) h'
      have c0 := (hc 0).1
      rw [start_row, window_row] at e0 c0
      rw [start_col, window_col] at e1
      constructor <;> omega
    · -- the update is dropped: it lands nowhere
      rw [dif_neg hc] at h; exact absurd h (by simp)
  · rintro ⟨h0, h1⟩
    -- the landing place is inside the operand on both axes
    have hc : ∀ a, 0 ≤ (rowScatter wf).start j idx a + (rowScatter wf).window j a ∧
        (rowScatter wf).start j idx a + (rowScatter wf).window j a < (⟨2, ![N, C]⟩ : Shape).size a := by
      intro a
      match a with
      | ⟨0, _⟩ =>
        show 0 ≤ (rowScatter wf).start j idx 0 + (rowScatter wf).window j 0
          ∧ (rowScatter wf).start j idx 0 + (rowScatter wf).window j 0 < (N : ℤ)
        rw [start_row, window_row]; omega
      | ⟨1, _⟩ =>
        show 0 ≤ (rowScatter wf).start j idx 1 + (rowScatter wf).window j 1
          ∧ (rowScatter wf).start j idx 1 + (rowScatter wf).window j 1 < (C : ℤ)
        rw [start_col, window_col]; omega
    rw [dif_pos hc]
    congr 1
    funext a
    match a with
    | ⟨0, _⟩ =>
      apply Fin.ext
      show ((rowScatter wf).start j idx 0 + (rowScatter wf).window j 0).toNat = (i 0).val
      rw [start_row, window_row]; omega
    | ⟨1, _⟩ =>
      apply Fin.ext
      show ((rowScatter wf).start j idx 1 + (rowScatter wf).window j 1).toNat = (i 1).val
      rw [start_col, window_col]; omega

/-- The same with both entries given by their coordinates: entry (e, b) lands at (n, c) exactly when edge e's row number
    is n and b = c. -/
theorem resultIdx?_ix2_iff (e : Fin E) (b : Fin C) (idx : IVec (⟨2, ![E, 1]⟩ : Shape) w) (n : Fin N) (c : Fin C) :
    (rowScatter wf).resultIdx? (ix2 e b) idx = some (ix2 n c) ↔ (idx (ix2 e 0)).toInt = (n.val : ℤ) ∧ b = c := by
  rw [resultIdx?_iff]
  exact ⟨fun h => ⟨h.1, Fin.ext h.2⟩, fun h => ⟨h.1, congrArg Fin.val h.2⟩⟩

/-- The updates landing at entry (n, c) summed: the sum over the edges e of entry (e, c), an edge whose row number is
    not n counting zero. (Summing over rows then columns, in row e only column c can land at (n, c).) -/
theorem scatter_sum (idx : IVec (⟨2, ![E, 1]⟩ : Shape) w) (upd : (⟨2, ![E, C]⟩ : Shape).Idx → EReal) (n : Fin N) (c : Fin C)
    [DecidablePred fun j => (rowScatter wf).resultIdx? j idx = some (ix2 n c)] :
    ∑ j ∈ Finset.univ.filter (fun j => (rowScatter wf).resultIdx? j idx = some (ix2 n c)), upd j
      = ∑ e : Fin E, if (idx (ix2 e 0)).toInt = (n.val : ℤ) then upd (ix2 e c) else 0 := by
  rw [Finset.sum_filter, sum_idx2]
  refine Finset.sum_congr rfl fun e _ => ?_
  by_cases hA : (idx (ix2 e 0)).toInt = (n.val : ℤ)
  · rw [if_pos hA, Finset.sum_eq_single c]
    · exact if_pos ((resultIdx?_ix2_iff wf e c idx n c).2 ⟨hA, rfl⟩)
    · intro b _ hb
      exact if_neg fun hP => hb ((resultIdx?_ix2_iff wf e b idx n c).1 hP).2
    · intro h; exact absurd (Finset.mem_univ c) h
  · rw [if_neg hA]
    exact Finset.sum_eq_zero fun b _ => if_neg fun hP => hA ((resultIdx?_ix2_iff wf e b idx n c).1 hP).1

end rows

/-- The accumulating scatter over the extended reals at an entry: the operand's entry plus the sum of the updates that
    land there. -/
theorem scatterAdd_apply {s si u : Shape} {w : Nat} (d : ScatterDims s si u) (x : FVec Ideal s .f32) (idx : IVec si w)
    (upd : FVec Ideal u .f32) (i : s.Idx) :
    Host.scatterAdd (F := Ideal) d x idx upd i
      = x i + ∑ j ∈ Finset.univ.filter (fun j => d.resultIdx? j idx = some i), upd j := rfl

variable [Cert.KernelIdeal.Facts₀] [Cert.ReferenceIdeal.Facts₀]

/-- Column k < 256 of the join is column k of the first array. -/
theorem join_left (z1 : FVec Ideal Cert.KernelIdeal.S480000x256 .f32) (z2 : FVec Ideal Cert.KernelIdeal.S480000x128 .f32)
    (e : Fin 480000) (k : Fin 256) :
    Cert.ReferenceIdeal.Terms.joinMsg (F := Ideal) z1 z2 (ix2 e ⟨k.val, by omega⟩) = z1 (ix2 e k) := by
  unfold Cert.ReferenceIdeal.Terms.joinMsg
  exact concatenate_pair_apply_left (t := Cert.ReferenceIdeal.S480000x384) (s₁ := Cert.ReferenceIdeal.S480000x256)
    (s₂ := Cert.ReferenceIdeal.S480000x128) 1 z1 z2 _ (ix2 e ⟨k.val, by omega⟩) rfl (ix2 e k)
    (fun b => match b with | ⟨0, _⟩ => rfl | ⟨1, _⟩ => rfl)

/-- Column 256 + k of the join is column k of the second array. -/
theorem join_right (z1 : FVec Ideal Cert.KernelIdeal.S480000x256 .f32) (z2 : FVec Ideal Cert.KernelIdeal.S480000x128 .f32)
    (e : Fin 480000) (k : Fin 128) :
    Cert.ReferenceIdeal.Terms.joinMsg (F := Ideal) z1 z2 (ix2 e ⟨256 + k.val, by omega⟩) = z2 (ix2 e k) := by
  unfold Cert.ReferenceIdeal.Terms.joinMsg
  refine concatenate_pair_apply_right (t := Cert.ReferenceIdeal.S480000x384) (s₁ := Cert.ReferenceIdeal.S480000x256)
    (s₂ := Cert.ReferenceIdeal.S480000x128) 1 z1 z2 _ (ix2 e ⟨256 + k.val, by omega⟩) rfl rfl (ix2 e k)
    (fun b => match b with | ⟨0, _⟩ => fun _ => rfl | ⟨1, _⟩ => fun h => absurd rfl h) ?_
  show k.val + 256 = 256 + k.val
  omega

/-- Columns 0 … 255 of the summed join are the summed node messages. -/
theorem seg_left (dst : IVec Cert.KernelIdeal.S480000 32) (z1 : FVec Ideal Cert.KernelIdeal.S480000x256 .f32) (z2 : FVec Ideal Cert.KernelIdeal.S480000x128 .f32)
    (n : Fin 30000) (k : Fin 256) :
    Cert.ReferenceIdeal.Terms.segAll (F := Ideal) dst (Cert.ReferenceIdeal.Terms.joinMsg z1 z2) (ix2 n ⟨k.val, by omega⟩)
      = Cert.KernelIdeal.Terms.segWide (F := Ideal) dst z1 (ix2 n k) := by
  unfold Cert.ReferenceIdeal.Terms.segAll Cert.KernelIdeal.Terms.segWide
  rw [scatterAdd_apply, scatterAdd_apply]
  refine congrArg₂ (· + ·) ?_ ?_
  · -- both sums start from the same zero word
    exact (broadcastInDim_apply _ _ _ _ ix0 (fun a => a.elim0)).trans
      (broadcastInDim_apply _ _ _ _ ix0 (fun a => a.elim0)).symm
  · -- both sums are over the edges whose destination is n; the summands are the same entry of the first array
    refine (@scatter_sum _ _ _ _ Cert.ReferenceIdeal.Facts₀.scatter_S30000x384_S480000x1_S480000x384_1_0_0_1_wf
      _ _ n ⟨k.val, by omega⟩ _).trans ?_
    refine ((@scatter_sum _ _ _ _ Cert.KernelIdeal.Facts₀.scatter_S30000x256_S480000x1_S480000x256_1_0_0_1_wf
      _ _ n k _).trans ?_).symm
    refine Finset.sum_congr rfl fun e _ => ?_
    rw [join_left z1 z2 e k]

/-- Columns 256 … 383 of the summed join are the summed edge messages. -/
theorem seg_right (dst : IVec Cert.KernelIdeal.S480000 32) (z1 : FVec Ideal Cert.KernelIdeal.S480000x256 .f32) (z2 : FVec Ideal Cert.KernelIdeal.S480000x128 .f32)
    (n : Fin 30000) (k : Fin 128) :
    Cert.ReferenceIdeal.Terms.segAll (F := Ideal) dst (Cert.ReferenceIdeal.Terms.joinMsg z1 z2) (ix2 n ⟨256 + k.val, by omega⟩)
      = Cert.KernelIdeal.Terms.segNarrow (F := Ideal) dst z2 (ix2 n k) := by
  unfold Cert.ReferenceIdeal.Terms.segAll Cert.KernelIdeal.Terms.segNarrow
  rw [scatterAdd_apply, scatterAdd_apply]
  refine congrArg₂ (· + ·) ?_ ?_
  · -- both sums start from the same zero word
    exact (broadcastInDim_apply _ _ _ _ ix0 (fun a => a.elim0)).trans
      (broadcastInDim_apply _ _ _ _ ix0 (fun a => a.elim0)).symm
  · -- both sums are over the edges whose destination is n; the summands are the same entry of the second array
    refine (@scatter_sum _ _ _ _ Cert.ReferenceIdeal.Facts₀.scatter_S30000x384_S480000x1_S480000x384_1_0_0_1_wf
      _ _ n ⟨256 + k.val, by omega⟩ _).trans ?_
    refine ((@scatter_sum _ _ _ _ Cert.KernelIdeal.Facts₀.scatter_S30000x128_S480000x1_S480000x128_1_0_0_1_wf
      _ _ n k _).trans ?_).symm
    refine Finset.sum_congr rfl fun e _ => ?_
    rw [join_right z1 z2 e k]

end Cert.SegSplit

end
-- ==== Proof.Tail.lean ====
/-
  The last layer written out entry by entry is the reference's last layer.

  The reference multiplies the 640-column join [h2 | sum of [z1 | z2]] by Wa: entry (i, j) is a sum over 640 places.
  Places 0 … 255 read h2 against rows 0 … 255 of Wa; places 256 … 511 read the left 256 columns of the summed join, which
  are the summed node messages, against rows 256 … 511; places 512 … 639 read its right 128 columns, the summed edge
  messages, against rows 512 … 639. A sum over 640 places is the sum of the three partial sums (addition of extended reals
  is commutative and associative, also at the infinities). Both sides then add the same bias entry and take the maximum
  with the same zero.
-/
import proofs.«421375_j21320217657492_1_alg».proof.Proof.KTerms
import proofs.«421375_j21320217657492_1_alg».proof.Proof.RTerms
import proofs.«421375_j21320217657492_1_alg».proof.Proof.SegSplit
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.TailEq

open Idealize.ShloMosaic Idealize.ShloMosaic.ValueIdx

variable [Cert.KernelIdeal.Facts₀] [Cert.ReferenceIdeal.Facts₀]

/-! ## A sum over 640 places in three parts -/

/-- A sum over 640 places is the sum over places 0 … 255, plus the sum over places 256 … 511, plus the sum over places
    512 … 639: addition in a commutative monoid only regroups. -/
theorem sum_three_parts {M : Type*} [AddCommMonoid M] (f : Fin 640 → M) :
    ∑ k : Fin 640, f k
      = ((∑ k : Fin 256, f ⟨k.val, by omega⟩) + ∑ k : Fin 256, f ⟨256 + k.val, by omega⟩)
        + ∑ k : Fin 128, f ⟨512 + k.val, by omega⟩ := by
  have h1 : ∑ k : Fin 640, f k
      = (∑ k : Fin 256, f ⟨k.val, by omega⟩) + ∑ k : Fin 384, f ⟨256 + k.val, by omega⟩ :=
    Fin.sum_univ_add (a := 256) (b := 384) f
  have h2 : ∑ k : Fin 384, f ⟨256 + k.val, by omega⟩
      = (∑ k : Fin 256, f ⟨256 + k.val, by omega⟩) + ∑ k : Fin 128, f ⟨512 + k.val, by omega⟩ := by
    refine (Fin.sum_univ_add (a := 256) (b := 128) (fun k : Fin 384 => f ⟨256 + k.val, by omega⟩)).trans ?_
    refine congrArg₂ (· + ·) rfl (Finset.sum_congr rfl fun k _ => congrArg f (Fin.ext ?_))
    show 256 + (256 + k.val) = 512 + k.val
    omega
  rw [h1, h2, add_assoc]

/-! ## The kernel's side: the three row ranges of the weights, the bias row, the written-out layer -/

/-- Entry (k, j) of the top rows of the weights is entry (k, j) of the weights. -/
theorem waTop_at (Wa : FVec Ideal Cert.KernelIdeal.S640x512 .f32) (k : Fin 256) (j : Fin 512) :
    Cert.KernelIdeal.Terms.waTop Wa (ix2 k j) = Wa (ix2 (⟨k.val, by omega⟩ : Fin 640) j) := by
  unfold Cert.KernelIdeal.Terms.waTop
  exact extractStridedSlice_apply _ Wa _ _ _ (fun a => by
    match a with
    | ⟨0, _⟩ => exact (Nat.zero_add _).symm
    | ⟨1, _⟩ => exact (Nat.zero_add _).symm)

/-- Entry (k, j) of the middle rows of the weights is entry (256 + k, j) of the weights. -/
theorem waMid_at (Wa : FVec Ideal Cert.KernelIdeal.S640x512 .f32) (k : Fin 256) (j : Fin 512) :
    Cert.KernelIdeal.Terms.waMid Wa (ix2 k j) = Wa (ix2 (⟨256 + k.val, by omega⟩ : Fin 640) j) := by
  unfold Cert.KernelIdeal.Terms.waMid
  exact extractStridedSlice_apply _ Wa _ _ _ (fun a => by
    match a with
    | ⟨0, _⟩ => rfl
    | ⟨1, _⟩ => exact (Nat.zero_add _).symm)

/-- Entry (k, j) of the low rows of the weights is entry (512 + k, j) of the weights. -/
theorem waLow_at (Wa : FVec Ideal Cert.KernelIdeal.S640x512 .f32) (k : Fin 128) (j : Fin 512) :
    Cert.KernelIdeal.Terms.waLow Wa (ix2 k j) = Wa (ix2 (⟨512 + k.val, by omega⟩ : Fin 640) j) := by
  unfold Cert.KernelIdeal.Terms.waLow
  exact extractStridedSlice_apply _ Wa _ _ _ (fun a => by
    match a with
    | ⟨0, _⟩ => rfl
    | ⟨1, _⟩ => exact (Nat.zero_add _).symm)

/-- Entry (0, j) of the bias read as a one-row matrix (a change of shape) is entry j of the bias. -/
theorem rowBaK_at (ba : FVec Ideal Cert.KernelIdeal.S512 .f32) (j : Fin 512) :
    Cert.KernelIdeal.Terms.rowBa ba (ix2 (0 : Fin 1) j) = ba (ix1 j) := by
  unfold Cert.KernelIdeal.Terms.rowBa
  exact shapeCast_a_1a_apply ba _ 0 j

/-- The written-out layer at entry (p, q). -/
theorem outRows_at (h2 s1 : FVec Ideal Cert.KernelIdeal.S30000x256 .f32) (s2 : FVec Ideal Cert.KernelIdeal.S30000x128 .f32)
    (w1 w2 : FVec Ideal Cert.KernelIdeal.S256x512 .f32) (w3 : FVec Ideal Cert.KernelIdeal.S128x512 .f32)
    (b2 : FVec Ideal Cert.KernelIdeal.S1x512 .f32) (p : Fin 30000) (q : Fin 512) :
    Cert.KernelIdeal.Terms.outRows h2 s1 s2 w1 w2 w3 b2 (ix2 p q)
      = max ((((∑ k : Fin 256, h2 (ix2 p k) * w1 (ix2 k q))
          + ∑ k : Fin 256, s1 (ix2 p k) * w2 (ix2 k q))
          + ∑ k : Fin 128, s2 (ix2 p k) * w3 (ix2 k q))
          + b2 (ix2 (0 : Fin 1) q)) (Ideal.ofBits .f32 0x00000000#32) := rfl

/-! ## The reference's side: the product over the join, the join's columns, the bias, the zero -/

/-- The row coordinate of the left operand's index is the result's row. -/
theorem lhs_axis0 (i : Cert.ReferenceIdeal.S30000x512.Idx)
    (c : Cert.ReferenceIdeal.dot_S30000x640_S640x512_S30000x512_1_0_0_1_n_n.contr.Idx) :
    (Cert.ReferenceIdeal.dot_S30000x640_S640x512_S30000x512_1_0_0_1_n_n.lhsIdx i c 0).val = (i 0).val := by
  unfold DotDims.lhsIdx
  rw [dif_neg (show ¬(0 : Fin Cert.ReferenceIdeal.S30000x640.rank) ∈ Cert.ReferenceIdeal.dot_S30000x640_S640x512_S30000x512_1_0_0_1_n_n.lhsBatch from List.not_mem_nil),
    dif_pos (show (0 : Fin Cert.ReferenceIdeal.S30000x640.rank) ∈ Cert.ReferenceIdeal.dot_S30000x640_S640x512_S30000x512_1_0_0_1_n_n.lhsNonContracting from List.mem_singleton.2 rfl)]
  rfl

/-- The column coordinate of the left operand's index is the summed place. -/
theorem lhs_axis1 (i : Cert.ReferenceIdeal.S30000x512.Idx)
    (c : Cert.ReferenceIdeal.dot_S30000x640_S640x512_S30000x512_1_0_0_1_n_n.contr.Idx) :
    (Cert.ReferenceIdeal.dot_S30000x640_S640x512_S30000x512_1_0_0_1_n_n.lhsIdx i c 1).val = (c ⟨0, Nat.one_pos⟩).val :=
  Cert.ReferenceIdeal.dot_S30000x640_S640x512_S30000x512_1_0_0_1_n_n.lhsIdx_val_of_single rfl i c

/-- The row coordinate of the right operand's index is the summed place. -/
theorem rhs_axis0 (i : Cert.ReferenceIdeal.S30000x512.Idx)
    (c : Cert.ReferenceIdeal.dot_S30000x640_S640x512_S30000x512_1_0_0_1_n_n.contr.Idx) :
    (Cert.ReferenceIdeal.dot_S30000x640_S640x512_S30000x512_1_0_0_1_n_n.rhsIdx i c 0).val = (c ⟨0, Nat.one_pos⟩).val :=
  Cert.ReferenceIdeal.dot_S30000x640_S640x512_S30000x512_1_0_0_1_n_n.rhsIdx_val_of_single rfl i c

/-- The column coordinate of the right operand's index is the result's column. -/
theorem rhs_axis1 (i : Cert.ReferenceIdeal.S30000x512.Idx)
    (c : Cert.ReferenceIdeal.dot_S30000x640_S640x512_S30000x512_1_0_0_1_n_n.contr.Idx) :
    (Cert.ReferenceIdeal.dot_S30000x640_S640x512_S30000x512_1_0_0_1_n_n.rhsIdx i c 1).val = (i 1).val := by
  unfold DotDims.rhsIdx
  rw [dif_neg (show ¬(1 : Fin Cert.ReferenceIdeal.S640x512.rank) ∈ Cert.ReferenceIdeal.dot_S30000x640_S640x512_S30000x512_1_0_0_1_n_n.rhsBatch from List.not_mem_nil),
    dif_pos (show (1 : Fin Cert.ReferenceIdeal.S640x512.rank) ∈ Cert.ReferenceIdeal.dot_S30000x640_S640x512_S30000x512_1_0_0_1_n_n.rhsNonContracting from List.mem_singleton.2 rfl)]
  rfl

/-- Entry (p, q) of the product of a 640-column matrix with the weights is the sum over 640 places of row p against
    column q. -/
theorem dot_at (y : FVec Ideal Cert.ReferenceIdeal.S30000x640 .f32) (Wa : FVec Ideal Cert.ReferenceIdeal.S640x512 .f32)
    (p : Fin 30000) (q : Fin 512) :
    Host.dotGeneral Cert.ReferenceIdeal.dot_S30000x640_S640x512_S30000x512_1_0_0_1_n_n none y Wa (ix2 p q)
      = ∑ k : Fin 640, y (ix2 p k) * Wa (ix2 k q) := by
  simp only [Host.dotGeneral]
  rw [Ideal.dotGeneral_apply,
    ← Equiv.sum_comp (contrEquiv1 Cert.ReferenceIdeal.dot_S30000x640_S640x512_S30000x512_1_0_0_1_n_n 640 rfl rfl).symm]
  refine Finset.sum_congr rfl fun k _ => ?_
  have hk := contrEquiv1_symm_val Cert.ReferenceIdeal.dot_S30000x640_S640x512_S30000x512_1_0_0_1_n_n 640 rfl rfl k
  have el : Cert.ReferenceIdeal.dot_S30000x640_S640x512_S30000x512_1_0_0_1_n_n.lhsIdx (ix2 p q)
      ((contrEquiv1 Cert.ReferenceIdeal.dot_S30000x640_S640x512_S30000x512_1_0_0_1_n_n 640 rfl rfl).symm k) = ix2 p k :=
    funext fun a => Fin.ext (by
      match a with
      | ⟨0, _⟩ => exact lhs_axis0 _ _
      | ⟨1, _⟩ => exact (lhs_axis1 _ _).trans hk)
  have er : Cert.ReferenceIdeal.dot_S30000x640_S640x512_S30000x512_1_0_0_1_n_n.rhsIdx (ix2 p q)
      ((contrEquiv1 Cert.ReferenceIdeal.dot_S30000x640_S640x512_S30000x512_1_0_0_1_n_n 640 rfl rfl).symm k) = ix2 k q :=
    funext fun a => Fin.ext (by
      match a with
      | ⟨0, _⟩ => exact (rhs_axis0 _ _).trans hk
      | ⟨1, _⟩ => exact rhs_axis1 _ _)
  rw [el, er]

/-- Column k < 256 of the join [h2 | s] is column k of h2. -/
theorem joinAll_left (h2 : FVec Ideal Cert.ReferenceIdeal.S30000x256 .f32) (s : FVec Ideal Cert.ReferenceIdeal.S30000x384 .f32)
    (p : Fin 30000) (k : Fin 256) :
    Cert.ReferenceIdeal.Terms.joinAll h2 s (ix2 p (⟨k.val, by omega⟩ : Fin 640)) = h2 (ix2 p k) := by
  unfold Cert.ReferenceIdeal.Terms.joinAll
  exact concatenate_pair_apply_left (t := Cert.ReferenceIdeal.S30000x640) 1 h2 s
    Cert.ReferenceIdeal.Facts₀.concatenates_S30000x256_S30000x384_S30000x640_d1 (ix2 p (⟨k.val, by omega⟩ : Fin 640)) rfl (ix2 p k) (fun b => by
    match b with
    | ⟨0, _⟩ => rfl
    | ⟨1, _⟩ => rfl)

/-- Column 256 + k of the join [h2 | s] is column k of s. -/
theorem joinAll_right (h2 : FVec Ideal Cert.ReferenceIdeal.S30000x256 .f32) (s : FVec Ideal Cert.ReferenceIdeal.S30000x384 .f32)
    (p : Fin 30000) (k : Fin 384) :
    Cert.ReferenceIdeal.Terms.joinAll h2 s (ix2 p (⟨256 + k.val, by omega⟩ : Fin 640)) = s (ix2 p k) := by
  unfold Cert.ReferenceIdeal.Terms.joinAll
  exact concatenate_pair_apply_right (t := Cert.ReferenceIdeal.S30000x640) 1 h2 s
    Cert.ReferenceIdeal.Facts₀.concatenates_S30000x256_S30000x384_S30000x640_d1 (ix2 p (⟨256 + k.val, by omega⟩ : Fin 640)) rfl rfl (ix2 p k) (fun b hb => by
    match b, hb with
    | ⟨0, _⟩, _ => rfl
    | ⟨1, _⟩, hb => exact absurd rfl hb) (by
    show k.val + 256 = 256 + k.val
    omega)

/-- Entry (0, j) of the bias read as a one-row matrix (a broadcast along a new unit axis) is entry j of the bias. -/
theorem rowBaR_at (ba : FVec Ideal Cert.ReferenceIdeal.S512 .f32) (j : Fin 512) :
    Cert.ReferenceIdeal.Terms.rowBa ba (ix2 (0 : Fin 1) j) = ba (ix1 j) := by
  unfold Cert.ReferenceIdeal.Terms.rowBa
  exact broadcastInDim_apply _ _ ba _ (ix1 j) (fun a => by
    match a with
    | ⟨0, _⟩ =>
      show j.val = if (512 : Nat) = 1 then 0 else j.val
      rw [if_neg (by decide)])

/-- The bias row repeated on every row reads, at (p, q), the row's entry (0, q). -/
theorem biasRows_at (b2 : FVec Ideal Cert.ReferenceIdeal.S1x512 .f32) (p : Fin 30000) (q : Fin 512) :
    broadcastInDim Cert.ReferenceIdeal.S30000x512 ![0, 1] Cert.ReferenceIdeal.Facts₀.bcast_S1x512_S30000x512_0_1 b2 (ix2 p q)
      = b2 (ix2 (0 : Fin 1) q) :=
  broadcastInDim_apply _ _ b2 _ (ix2 (0 : Fin 1) q) (fun a => by
    match a with
    | ⟨0, _⟩ =>
      show 0 = if (1 : Nat) = 1 then 0 else p.val
      rw [if_pos rfl]
    | ⟨1, _⟩ =>
      show q.val = if (512 : Nat) = 1 then 0 else q.val
      rw [if_neg (by decide)])

/-- The zero repeated everywhere reads the zero word's value at every entry. -/
theorem zeros_at (i : Cert.ReferenceIdeal.S30000x512.Idx) :
    broadcastInDim Cert.ReferenceIdeal.S30000x512 ![] Cert.ReferenceIdeal.Facts₀.bcast_S_S30000x512
        (constant (F := Ideal) Cert.ReferenceIdeal.S_ .f32 0x00000000#32) i
      = Ideal.ofBits .f32 0x00000000#32 :=
  broadcastInDim_apply _ _ (constant (F := Ideal) Cert.ReferenceIdeal.S_ .f32 0x00000000#32) i ix0 (fun a => a.elim0)

/-- The last layer over the two separate sums and the three weight ranges is the reference's last layer over the join. -/
theorem tail_eq (h2 : FVec Ideal Cert.KernelIdeal.S30000x256 .f32) (z1 : FVec Ideal Cert.KernelIdeal.S480000x256 .f32) (z2 : FVec Ideal Cert.KernelIdeal.S480000x128 .f32)
    (Wa : FVec Ideal Cert.KernelIdeal.S640x512 .f32) (ba : FVec Ideal Cert.KernelIdeal.S512 .f32) (dst : IVec Cert.KernelIdeal.S480000 32) :
    Cert.KernelIdeal.Terms.outRows h2 (Cert.KernelIdeal.Terms.segWide dst z1) (Cert.KernelIdeal.Terms.segNarrow dst z2) (Cert.KernelIdeal.Terms.waTop Wa) (Cert.KernelIdeal.Terms.waMid Wa)
        (Cert.KernelIdeal.Terms.waLow Wa) (Cert.KernelIdeal.Terms.rowBa ba)
      = Cert.ReferenceIdeal.Terms.tail (F := Ideal) h2 z1 z2 Wa ba dst := by
  funext i
  obtain ⟨p, q, rfl⟩ : ∃ (p : Fin 30000) (q : Fin 512), i = ix2 p q := ⟨i 0, i 1, eq_ix2 i⟩
  unfold Cert.ReferenceIdeal.Terms.tail
  -- both sides at entry (p, q): the same bias entry and the same zero; the reference's product is one sum over 640 places,
  -- cut into places 0 … 255, 256 … 511 and 512 … 639
  rw [outRows_at, maximumf_apply, addf_apply, zeros_at, biasRows_at, rowBaR_at, rowBaK_at, dot_at, sum_three_parts]
  refine congrArg₂ max (congrArg₂ (· + ·) (congrArg₂ (· + ·) (congrArg₂ (· + ·) ?_ ?_) ?_) rfl) rfl
  · -- places 0 … 255: h2 against the top rows of the weights
    refine Finset.sum_congr rfl fun k _ => ?_
    rw [waTop_at, joinAll_left]
  · -- places 256 … 511: the left 256 columns of the summed join, which are the summed node messages
    refine Finset.sum_congr rfl fun k _ => ?_
    rw [waMid_at, joinAll_right _ _ p (⟨k.val, by omega⟩ : Fin 384), Cert.SegSplit.seg_left]
  · -- places 512 … 639: the right 128 columns of the summed join, which are the summed edge messages
    refine Finset.sum_congr rfl fun k _ => ?_
    rw [waLow_at]
    have e : (⟨512 + k.val, by omega⟩ : Fin 640) = ⟨256 + (⟨256 + k.val, by omega⟩ : Fin 384).val, by omega⟩ :=
      Fin.ext (by show 512 + k.val = 256 + (256 + k.val); omega)
    rw [e, joinAll_right _ _ p (⟨256 + k.val, by omega⟩ : Fin 384), Cert.SegSplit.seg_right]

end Cert.TailEq

end
-- ==== Proof.Bridge.lean ====
/-
  The two programs' host pieces are the same functions.

  The kernel reads a bias vector as a one-row matrix by a reshape, the reference by a broadcast along the new row axis: entry
  (0, j) of either is entry j of the vector. The row fetches, the wrapped indices and the node message are spelt by the same
  operations in both programs.
-/
import proofs.«421375_j21320217657492_1_alg».proof.Proof.KTerms
import proofs.«421375_j21320217657492_1_alg».proof.Proof.RTerms
import Idealize.ShloMosaic.Lib.Pipeline.Value
import Idealize.ShloMosaic.Lib.ValueIdx

set_option maxRecDepth 16384

noncomputable section

namespace Cert.Bridge

open Idealize.ShloMosaic Idealize.ShloMosaic.ValueIdx

variable {F : FTy → Type} [FloatOps F] [Cert.KernelIdeal.Facts₀] [Cert.ReferenceIdeal.Facts₀]

/-- A vector reshaped to one row is the vector broadcast along a new row axis. -/
theorem rowBn_eq (b : FVec F Cert.KernelIdeal.S256 .f32) : Cert.KernelIdeal.Terms.rowBn b = Cert.ReferenceIdeal.Terms.rowBn b := by
  funext j
  unfold Cert.KernelIdeal.Terms.rowBn Cert.ReferenceIdeal.Terms.rowBn
  rw [shapeCast_addUnit_apply ![256] b _ j]
  exact (broadcastInDim_apply _ _ b j (fun a => j a.succ) (fun a => by
    match a with
    | ⟨0, _⟩ => rfl)).symm

/-- The same for a 128-vector. -/
theorem rowBr_eq (b : FVec F Cert.KernelIdeal.S128 .f32) : Cert.KernelIdeal.Terms.rowBr b = Cert.ReferenceIdeal.Terms.rowBr b := by
  funext j
  unfold Cert.KernelIdeal.Terms.rowBr Cert.ReferenceIdeal.Terms.rowBr
  rw [shapeCast_addUnit_apply ![128] b _ j]
  exact (broadcastInDim_apply _ _ b j (fun a => j a.succ) (fun a => by
    match a with
    | ⟨0, _⟩ => rfl)).symm

/-- The node message over the bare fetches is spelt alike in the two programs. -/
theorem nodeMsgG_eq (h2 : FVec F Cert.KernelIdeal.S30000x256 .f32) (na : FVec F Cert.KernelIdeal.S30000x1 .f32) (src dst : IVec Cert.KernelIdeal.S480000 32) :
    Cert.KernelIdeal.Terms.nodeMsgG h2 na src dst = Cert.ReferenceIdeal.Terms.nodeMsg h2 na src dst := rfl

end Cert.Bridge

end
-- ==== Proof.Value.lean ====
/-
  The kernel program's result, as the reference's function of the arguments.

  Reading the program from the end: the result buffer is the last region's result array, which is the last layer written
  out entry by entry over what that region finds: the node features, the two sums over destination nodes, the three row
  ranges of the last weights and the bias row. The node features are the node layer's h·Wn plus bias; the edge messages the
  edge layer's attention times (rel·Wr plus bias). With src and dst among the rows the kernel's row fetches are the bare
  fetches, so its node message is the reference's. The last layer over the separate sums and weight ranges is the
  reference's last layer over the joined arrays. Hence the result is the reference's function of the twelve arguments.
-/
import proofs.«421375_j21320217657492_1_alg».proof.Proof.Fold
import proofs.«421375_j21320217657492_1_alg».proof.Proof.Region0
import proofs.«421375_j21320217657492_1_alg».proof.Proof.Region1
import proofs.«421375_j21320217657492_1_alg».proof.Proof.Region2
import proofs.«421375_j21320217657492_1_alg».proof.Proof.Pre
import proofs.«421375_j21320217657492_1_alg».proof.Proof.Take
import proofs.«421375_j21320217657492_1_alg».proof.Proof.Tail
import proofs.«421375_j21320217657492_1_alg».proof.Proof.Bridge
import proofs.«421375_j21320217657492_1_alg».proof.Proof.Gen.ReferenceIdeal

set_option maxRecDepth 16384

noncomputable section

namespace Cert.KernelIdeal.ValueEq

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.KernelIdeal.Terms

variable (m : (ℓ : Loc nD τ sig) → Buf (Elt Ideal) ℓ) (ρ : Dev nD → PrngReg)

/-- The node features after the node layer's region are h·Wn plus the bias row. -/
theorem h2_eq (c : Dev nD) :
    Fold.H2 m ρ c = Cert.ReferenceIdeal.Terms.nodeLin (F := Ideal) (m ((c.tc : Thread nD τ).loc main_arg0)) (m ((c.tc : Thread nD τ).loc main_arg4)) (Cert.ReferenceIdeal.Terms.rowBn (m ((c.tc : Thread nD τ).loc main_arg5))) := by
  show (dat0 (F := Ideal) (V1 m ρ) c).arrAt 3 cfg0.N = _
  rw [Region0.arr0 (V1 m ρ) c, Fold.entry0_0, Fold.entry0_1, Fold.entry0_2, Cert.Bridge.rowBn_eq]

/-- The edge messages after the edge layer's region are the attention times (rel·Wr plus the bias row). -/
theorem z2_eq (c : Dev nD) :
    Fold.Z2 m ρ c = Cert.ReferenceIdeal.Terms.edgeLin (F := Ideal) (m ((c.tc : Thread nD τ).loc main_arg2)) (m ((c.tc : Thread nD τ).loc main_arg6)) (Cert.ReferenceIdeal.Terms.rowBr (m ((c.tc : Thread nD τ).loc main_arg7))) (m ((c.tc : Thread nD τ).loc main_arg3)) := by
  show (dat1 (F := Ideal) (V3 m ρ) c).arrAt 4 cfg1.N = _
  rw [Region1.arr1 (V3 m ρ) c, Fold.entry1_0, Fold.entry1_1, Fold.entry1_2, Fold.entry1_3, Cert.Bridge.rowBr_eq]

set_option maxHeartbeats 4000000 in
/-- Under the precondition the program's result buffer ends at the reference's function of the arguments. -/
theorem value (hpre : Cert.Pre_KernelIdeal m) (c : Dev nD) :
    W10 m ρ c (Proc.devRef .tc main_v23)
      = Cert.ReferenceIdeal.Terms.whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have hs := Cert.PreRange.src_range m hpre c
  have hd := Cert.PreRange.dst_range m hpre c
  rw [Fold.result m ρ c, Region2.arr2 (V9 m ρ) c, Fold.entry2_0, Fold.entry2_1, Fold.entry2_2, Fold.entry2_3, Fold.entry2_4,
    Fold.entry2_5, Fold.entry2_6, h2_eq, z2_eq]
  rw [nodeMsg_eq (F := Ideal)
    (Cert.ReferenceIdeal.Terms.nodeLin (F := Ideal) (m ((c.tc : Thread nD τ).loc main_arg0)) (m ((c.tc : Thread nD τ).loc main_arg4)) (Cert.ReferenceIdeal.Terms.rowBn (m ((c.tc : Thread nD τ).loc main_arg5))))
    (m ((c.tc : Thread nD τ).loc main_arg1)) (m ((c.tc : Thread nD τ).loc main_arg10)) (m ((c.tc : Thread nD τ).loc main_arg11)) hs hd]
  rw [Cert.Bridge.nodeMsgG_eq, Cert.TailEq.tail_eq]
  rfl

end Cert.KernelIdeal.ValueEq

end
-- ==== Proof.RefWhole.lean ====
/-
  The reference's result, as the named function of its twelve arguments.

  The reference's run ends with its result buffer at the composition of its 64 operations applied to the arguments. Grouped
  by stage that composition is: the node layer, the node message over the fetched rows, the edge layer, and the last layer
  over their join.
-/
import proofs.«421375_j21320217657492_1_alg».proof.Proof.Gen.ReferenceIdeal.Run
import proofs.«421375_j21320217657492_1_alg».proof.Proof.RTerms

set_option maxRecDepth 16384

noncomputable section

namespace Cert.ReferenceIdeal.Whole

open Cert.ReferenceIdeal Idealize.ShloMosaic Idealize.ShloMosaic.TcCoe Idealize.SL.Sem

variable {F : FTy → Type} [FloatOps F]

set_option maxRecDepth 65536 in
/-- The composed term of the reference's run is `Terms.whole` of the arguments. -/
theorem res_eq (m : (ℓ : Loc nD τ sig) → Buf (Elt F) ℓ) (c : Dev nD) :
    Cert.ReferenceIdeal.Value.res_main_v52 (F := F) m c
      = Terms.whole (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v52 Terms.whole Terms.tail Terms.joinAll Terms.segAll Terms.joinMsg Terms.nodeLin
    Terms.nodeMsg Terms.edgeLin Terms.gatherWide Terms.gatherCol Terms.wrapped Terms.rowBn Terms.rowBr Terms.rowBa
  rfl

end Cert.ReferenceIdeal.Whole

end
-- ==== Proof.lean ====
/-
  A graph layer: node features h2 = h·Wn + bn; per edge a node message att[src]·h2[src] + att[dst]·h2[dst] and an edge
  message edge_att·(rel·Wr + br); both summed into their destination nodes; the result relu([h2 | sums]·Wa + ba).

  The kernel program computes h2, the edge messages and the last layer in three tiled regions, the fetches and sums on the
  host between them; the last layer takes the two sums and three row ranges of Wa separately instead of joined arrays. Over the
  extended reals the two programs compute the same function as soon as every index of src and dst names a row (0 … 29999):
  the kernel's row fetch fills rows outside that range with a fixed word where the reference's fetch clamps. The three runs
  terminate with the arguments unchanged; the idealization rewrote nothing.
-/
import proofs.«421375_j21320217657492_1_alg».proof.Defs
import proofs.«421375_j21320217657492_1_alg».proof.Proof.Gen.Kernel
import proofs.«421375_j21320217657492_1_alg».proof.Proof.Gen.Kernel.Frame
import proofs.«421375_j21320217657492_1_alg».proof.Proof.Gen.KernelIdeal
import proofs.«421375_j21320217657492_1_alg».proof.Proof.Gen.KernelIdeal.Frame
import proofs.«421375_j21320217657492_1_alg».proof.Proof.Gen.ReferenceIdeal
import proofs.«421375_j21320217657492_1_alg».proof.Proof.Gen.Pre_finite_inputs
import proofs.«421375_j21320217657492_1_alg».proof.Proof.KRun
import proofs.«421375_j21320217657492_1_alg».proof.Proof.Value
import proofs.«421375_j21320217657492_1_alg».proof.Proof.RefWhole
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with src and dst among the rows, both programs end with the reference's
    function of the arguments in their result buffers. -/
theorem algebraic : Cert.algebraic_KernelIdeal_ReferenceIdeal := by
  intro m ρ m' ρ' hpre hagree
  refine ⟨fun c => Cert.ReferenceIdeal.Terms.whole (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun _ h c => ⟨(h c).1.trans ?_, (h c).2⟩)
      (Cert.KernelIdeal.KRun.run (F := Ideal) m ρ)
    exact Cert.KernelIdeal.ValueEq.value m ρ hpre c
  · refine (θ_run Cert.ReferenceIdeal.defs _ _).mono (fun _ h c => ⟨(h c).1.trans ?_, (h c).2⟩)
      (Cert.ReferenceIdeal.Value.run (F := Ideal) m' ρ')
    rw [Cert.ReferenceIdeal.Whole.res_eq m' c]
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
